-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S50000 : Shape := ⟨1, ![50000]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg6 : FVec F S2x128 .f32) (main_arg7 : FVec F S2x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  main_v28

def fn {F : FTy → Type} [FloatOps F] (main_arg0 : FVec F S50000x128 .f32) (main_arg1 : IVec S2x625000 32) (main_arg2 : IVec S50000 32) (main_arg3 : FVec F S2x128x128 .f32) (main_arg4 : FVec F S2x128 .f32) (main_arg5 : FVec F S2x128x128 .f32) (main_arg6 : FVec F S2x128 .f32) (main_arg7 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_v13 main_v16
-- ==== Kernel.lean ====
abbrev S50000x128 : Shape := ⟨2, ![50000, 128]⟩
abbrev S2x625000 : Shape := ⟨2, ![2, 625000]⟩
abbrev S50000 : Shape := ⟨1, ![50000]⟩
abbrev S2x128x128 : Shape := ⟨3, ![2, 128, 128]⟩
abbrev S2x128 : Shape := ⟨2, ![2, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S64x128 : Shape := ⟨2, ![64, 128]⟩
abbrev S5000x1 : Shape := ⟨2, ![5000, 1]⟩
abbrev S5000x64 : Shape := ⟨2, ![5000, 64]⟩
abbrev S64 : Shape := ⟨1, ![64]⟩
abbrev S64x1 : Shape := ⟨2, ![64, 1]⟩

abbrev nBuf : Space → Nat
  | .hbm => 121
  | .vmem => 43
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S50000, .i32⟩
  | .hbm, ⟨3, _⟩ => ⟨S2x128x128, .f32⟩
  | .hbm, ⟨4, _⟩ => ⟨S2x128, .f32⟩
  | .hbm, ⟨5, _⟩ => ⟨S2x128x128, .f32⟩
  | .hbm, ⟨6, _⟩ => ⟨S2x128, .f32⟩
  | .hbm, ⟨7, _⟩ => ⟨S2x128, .f32⟩
  | .hbm, ⟨8, _⟩ => ⟨S1x625000, .i32⟩
  | .hbm, ⟨9, _⟩ => ⟨S625000, .i32⟩
  | .hbm, ⟨10, _⟩ => ⟨S1x625000, .i32⟩
  | .hbm, ⟨11, _⟩ => ⟨S625000, .i32⟩
  | .hbm, ⟨12, _⟩ => ⟨S_, .f32⟩
  | .hbm, ⟨13, _⟩ => ⟨S625000, .f32⟩
  | .hbm, ⟨14, _⟩ => ⟨S_, .f32⟩
  | .hbm, ⟨15, _⟩ => ⟨S50000, .f32⟩
  | .hbm, ⟨16, _⟩ => ⟨S625000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S625000, .i32⟩
  | .hbm, ⟨23, _⟩ => ⟨S625000, .i1⟩
  | .hbm, ⟨24, _⟩ => ⟨S_, .i32⟩
  | .hbm, ⟨25, _⟩ => ⟨S625000, .i32⟩
  | .hbm, ⟨26, _⟩ => ⟨S625000, .i32⟩
  | .hbm, ⟨27, _⟩ => ⟨S625000, .i32⟩
  | .hbm, ⟨28, _⟩ => ⟨S625000x1, .i32⟩
  | .hbm, ⟨29, _⟩ => ⟨S625000x128, .f32⟩
  | .hbm, ⟨30, _⟩ => ⟨S_, .f32⟩
  | .hbm, ⟨31, _⟩ => ⟨S50000x128, .f32⟩
  | .hbm, ⟨32, _⟩ => ⟨S625000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128x128, .f32⟩
  | .hbm, ⟨38, _⟩ => ⟨S128x128, .f32⟩
  | .hbm, ⟨39, _⟩ => ⟨S128x128, .bf16⟩
  | .hbm, ⟨40, _⟩ => ⟨S1x128x128, .f32⟩
  | .hbm, ⟨41, _⟩ => ⟨S128x128, .f32⟩
  | .hbm, ⟨42, _⟩ => ⟨S128x128, .bf16⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S50000x128, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S50000x128, .f32⟩
  | .hbm, ⟨64, _⟩ => ⟨S_, .i32⟩
  | .hbm, ⟨65, _⟩ => ⟨S625000, .i32⟩
  | .hbm, ⟨66, _⟩ => ⟨S625000, .i1⟩
  | .hbm, ⟨67, _⟩ => ⟨S_, .i32⟩
  | .hbm, ⟨68, _⟩ => ⟨S625000, .i32⟩
  | .hbm, ⟨69, _⟩ => ⟨S625000, .i32⟩
  | .hbm, ⟨70, _⟩ => ⟨S625000, .i32⟩
  | .hbm, ⟨71, _⟩ => ⟨S625000x1, .i32⟩
  | .hbm, ⟨72, _⟩ => ⟨S625000x128, .f32⟩
  | .hbm, ⟨73, _⟩ => ⟨S_, .f32⟩
  | .hbm, ⟨74, _⟩ => ⟨S50000x128, .f32⟩
  | .hbm, ⟨75, _⟩ => ⟨S625000x1, .i32⟩
  | .hbm, ⟨76, _⟩ => ⟨S50000x128, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S1x128x128, .f32⟩
  | .hbm, ⟨81, _⟩ => ⟨S128x128, .f32⟩
  | .hbm, ⟨82, _⟩ => ⟨S128x128, .bf16⟩
  | .hbm, ⟨83, _⟩ => ⟨S1x128x128, .f32⟩
  | .hbm, ⟨84, _⟩ => ⟨S128x128, .f32⟩
  | .hbm, ⟨85, _⟩ => ⟨S128x128, .bf16⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S1x128, .f32⟩
  | .hbm, ⟨91, _⟩ => ⟨S1x128, .f32⟩
  | .hbm, ⟨92, _⟩ => ⟨S_, .f32⟩
  | .hbm, ⟨93, _⟩ => ⟨S1x128, .f32⟩
  | .hbm, ⟨94, _⟩ => ⟨S1x128, .f32⟩
  | .hbm, ⟨95, _⟩ => ⟨S_, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S128, .f32⟩
  | .hbm, ⟨102, _⟩ => ⟨S1x128, .f32⟩
  | .hbm, ⟨103, _⟩ => ⟨S128, .f32⟩
  | .hbm, ⟨104, _⟩ => ⟨S1x128, .f32⟩
  | .hbm, ⟨105, _⟩ => ⟨S1x128, .f32⟩
  | .hbm, ⟨106, _⟩ => ⟨S50000x128, .f32⟩
  | .hbm, ⟨107, _⟩ => ⟨S50000x1, .i32⟩
  | .hbm, ⟨108, _⟩ => ⟨S64x128, .f32⟩
  | .hbm, ⟨109, _⟩ => ⟨S_, .f32⟩
  | .hbm, ⟨110, _⟩ => ⟨S50000, .f32⟩
  | .hbm, ⟨111, _⟩ => ⟨S_, .f32⟩
  | .hbm, ⟨112, _⟩ => ⟨S64, .f32⟩
  | .hbm, ⟨113, _⟩ => ⟨S50000x1, .i32⟩
  | .hbm, ⟨114, _⟩ => ⟨S64, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64x1, .f32⟩
  | .hbm, ⟨119, _⟩ => ⟨S64x128, .f32⟩
  | .hbm, ⟨120, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .bf16⟩
  | .local _ .vmem, ⟨24, _⟩ => ⟨S1x128, .f32⟩
  | .local _ .vmem, ⟨25, _⟩ => ⟨S128x128, .bf16⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .i32⟩
  | .local _ .vmem, ⟨41, _⟩ => ⟨S5000x1, .i32⟩
  | .local _ .vmem, ⟨42, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_6 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68_0 : Ref sig .tc := ⟨.hbm, 89, rfl⟩
abbrev main_v68_1 : Ref sig .tc := ⟨.hbm, 90, rfl⟩
abbrev main_v68_2 : Ref sig .tc := ⟨.hbm, 91, rfl⟩
abbrev main_cst_9 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_11 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_13 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  bitsLt_bf16_f32 : FTy.bits .bf16 < FTy.bits .f32
  slices_S2x128_S1x128_0_0 : S2x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  shapeCasts_S50000_S50000x1 : S50000.ShapeCasts S50000x1
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x128_S64x128 : S64x128.ShapeCasts S64x128
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v32_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v68_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v68_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v68_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S50000 : Shape := ⟨1, ![50000]⟩
abbrev S2x128x128 : Shape := ⟨3, ![2, 128, 128]⟩
abbrev S2x128 : Shape := ⟨2, ![2, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64 : Shape := ⟨1, ![64]⟩
abbrev S64x128 : Shape := ⟨2, ![64, 128]⟩
abbrev S64x1 : Shape := ⟨2, ![64, 1]⟩

abbrev nBuf : Space → Nat
  | .hbm => 167
  | .vmem => 0
  | .smem => 0
  | _ => 0

abbrev hbmTy0_0 (i : Nat) : BufTy := match i % 128 with
  | 0 => ⟨S50000x128, .f32⟩
  | 1 => ⟨S2x625000, .i32⟩
  | 2 => ⟨S50000, .i32⟩
  | 3 => ⟨S2x128x128, .f32⟩
  | 4 => ⟨S2x128, .f32⟩
  | 5 => ⟨S2x128x128, .f32⟩
  | 6 => ⟨S2x128, .f32⟩
  | 7 => ⟨S2x128, .f32⟩
  | 8 => ⟨S1x625000, .i32⟩
  | 9 => ⟨S625000, .i32⟩
  | 10 => ⟨S1x625000, .i32⟩
  | 11 => ⟨S625000, .i32⟩
  | 12 => ⟨S_, .f32⟩
  | 13 => ⟨S625000, .f32⟩
  | 14 => ⟨S_, .f32⟩
  | 15 => ⟨S50000, .f32⟩
  | 16 => ⟨S625000x1, .i32⟩
  | 17 => ⟨S50000, .f32⟩
  | 18 => ⟨S_, .f32⟩
  | 19 => ⟨S50000, .f32⟩
  | 20 => ⟨S50000, .f32⟩
  | 21 => ⟨S_, .i32⟩
  | 22 => ⟨S625000, .i32⟩
  | 23 => ⟨S625000, .i1⟩
  | 24 => ⟨S_, .i32⟩
  | 25 => ⟨S625000, .i32⟩
  | 26 => ⟨S625000, .i32⟩
  | 27 => ⟨S625000, .i32⟩
  | 28 => ⟨S625000x1, .i32⟩
  | 29 => ⟨S625000x128, .f32⟩
  | 30 => ⟨S_, .f32⟩
  | 31 => ⟨S50000x128, .f32⟩
  | 32 => ⟨S625000x1, .i32⟩
  | 33 => ⟨S50000x128, .f32⟩
  | 34 => ⟨S50000x1, .f32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .i32⟩
  | 87 => ⟨S625000, .i32⟩
  | 88 => ⟨S625000, .i1⟩
  | 89 => ⟨S_, .i32⟩
  | 90 => ⟨S625000, .i32⟩
  | 91 => ⟨S625000, .i32⟩
  | 92 => ⟨S625000, .i32⟩
  | 93 => ⟨S625000x1, .i32⟩
  | 94 => ⟨S625000x128, .f32⟩
  | 95 => ⟨S_, .f32⟩
  | 96 => ⟨S50000x128, .f32⟩
  | 97 => ⟨S625000x1, .i32⟩
  | 98 => ⟨S50000x128, .f32⟩
  | 99 => ⟨S50000x1, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S50000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S_, .f32⟩
  | 24 => ⟨S50000, .f32⟩
  | 25 => ⟨S_, .f32⟩
  | 26 => ⟨S64, .f32⟩
  | 27 => ⟨S50000x1, .i32⟩
  | 28 => ⟨S64, .f32⟩
  | 29 => ⟨S_, .f32⟩
  | 30 => ⟨S64, .f32⟩
  | 31 => ⟨S64, .f32⟩
  | 32 => ⟨S_, .f32⟩
  | 33 => ⟨S64x128, .f32⟩
  | 34 => ⟨S50000x1, .i32⟩
  | 35 => ⟨S64x128, .f32⟩
  | 36 => ⟨S64x1, .f32⟩
  | 37 => ⟨S64x128, .f32⟩
  | 38 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call0_cst : Ref sig .tc := ⟨.hbm, 83, rfl⟩
abbrev main_call0_v0 : Ref sig .tc := ⟨.hbm, 84, rfl⟩
abbrev main_v64 : Ref sig .tc := ⟨.hbm, 85, rfl⟩
abbrev main_c_9 : Ref sig .tc := ⟨.hbm, 86, rfl⟩
abbrev main_v65 : Ref sig .tc := ⟨.hbm, 87, rfl⟩
abbrev main_v66 : Ref sig .tc := ⟨.hbm, 88, rfl⟩
abbrev main_c_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_11 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_12 : Ref sig .tc := ⟨.hbm, 114, rfl⟩
abbrev main_v90 : Ref sig .tc := ⟨.hbm, 115, rfl⟩
abbrev main_cst_13 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_14 : Ref sig .tc := ⟨.hbm, 123, rfl⟩
abbrev main_v97 : Ref sig .tc := ⟨.hbm, 124, rfl⟩
abbrev main_cst_15 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_16 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_call1_cst : Ref sig .tc := ⟨.hbm, 148, rfl⟩
abbrev main_call1_v0 : Ref sig .tc := ⟨.hbm, 149, rfl⟩
abbrev main_v119 : Ref sig .tc := ⟨.hbm, 150, rfl⟩
abbrev main_cst_17 : Ref sig .tc := ⟨.hbm, 151, rfl⟩
abbrev main_v120 : Ref sig .tc := ⟨.hbm, 152, rfl⟩
abbrev main_cst_18 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_19 : Ref sig .tc := ⟨.hbm, 157, rfl⟩
abbrev main_v124 : Ref sig .tc := ⟨.hbm, 158, rfl⟩
abbrev main_v125 : Ref sig .tc := ⟨.hbm, 159, rfl⟩
abbrev main_cst_20 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S2x128x128_S1x128x128_1_0_0 : S2x128x128.Slices ![1, 0, 0] S1x128x128
  slices_S2x128_S1x128_1_0 : S2x128.Slices ![1, 0] S1x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf

class Facts : Prop extends Facts₀ where

variable [Facts]
-- ==== Proof.Spec.lean ====
/-
  The mathematics of the two programs, as functions on the extended reals, index by index, over literal shapes.

  A graph layer: rows n < 50000, features j < 128. With an aggregated array agg and the layer's input x,
    h[n,j]   = (Σ_k agg[n,k]·Wl[k,j] + bl[j]) + Σ_k x[n,k]·Wr[k,j]                      (affine)
  One side takes the batch statistics of h by ten blocks of 5000 rows, as sums and sums of squares,
    μ[j] = (0 + Σ_s Σ_r h[5000 s + r, j]) / 50000,     v[j] = (0 + Σ_s Σ_r h[5000 s + r, j]²) / 50000 − μ[j]·μ[j],
  the other in one pass, centred,
    μ[j] = (0 + Σ_n h[n,j]) / 50000,                    v[j] = (0 + Σ_n (h[n,j] − μ[j])²) / 50000,
  and both normalize:  y[n,j] = max (γ[j]·(h[n,j] − μ[j])·rsqrt(v[j] + ε) + β[j]) 0.
  The pooling sums the rows of each graph id g < 64: by a 0/1 product over ten row blocks on one side, by an
  indicator sum over all rows on the other; both divide by the same count array.
-/
import Idealize.ShloMosaic.PureOps.Ideal
import Idealize.ShloMosaic.Lib.ValueIdx

noncomputable section

namespace Cert.Spec

open Idealize.ShloMosaic Idealize.ShloMosaic.ValueIdx

/-- [50000, 128] arrays. -/
abbrev Big : Type := (⟨2, ![50000, 128]⟩ : Shape).Idx → EReal
/-- [1, 128] rows. -/
abbrev Row : Type := (⟨2, ![1, 128]⟩ : Shape).Idx → EReal
/-- [128, 128] matrices. -/
abbrev Mat : Type := (⟨2, ![128, 128]⟩ : Shape).Idx → EReal
/-- [64, 128] pooled arrays. -/
abbrev Pl : Type := (⟨2, ![64, 128]⟩ : Shape).Idx → EReal
/-- [50000, 1] graph ids, as 32-bit words. -/
abbrev Ids : Type := (⟨2, ![50000, 1]⟩ : Shape).Idx → BitVec 32
/-- [2, 128, 128] stacked weights and [2, 128] stacked rows. -/
abbrev Mat2 : Type := (⟨3, ![2, 128, 128]⟩ : Shape).Idx → EReal
abbrev Row2 : Type := (⟨2, ![2, 128]⟩ : Shape).Idx → EReal

/-- The number of rows, 50000, as the float constant both programs divide by. -/
abbrev cN : EReal := Ideal.ofBits .f32 0x47435000#32
/-- The variance offset ε (the float nearest 1e-5), the same word in both programs. -/
abbrev cEps : EReal := Ideal.ofBits .f32 0x3727C5AC#32

/-- Every entry is a real number. -/
def Finite {ι : Type} (f : ι → EReal) : Prop := ∀ i, ∃ r : ℝ, f i = (r : EReal)

/-- Layer l's [128,128] weight out of the stacked [2,128,128] array. -/
def matOf (W : Mat2) (l : Fin 2) : Mat := fun i => W (ix3 l (i 0) (i 1))
/-- Layer l's [1,128] row out of the stacked [2,128] array. -/
def rowOf2 (b : Row2) (l : Fin 2) : Row := fun i => b (ix2 l (i 1))

/-- h = (agg·Wl + bl) + x·Wr at row n, feature j. -/
def affineAt (agg x : Big) (wl wr : Mat) (bl : Row) (n : Fin 50000) (j : Fin 128) : EReal :=
  ((∑ k : Fin 128, agg (ix2 n k) * wl (ix2 k j)) + bl (ix2 0 j)) + ∑ k : Fin 128, x (ix2 n k) * wr (ix2 k j)
def affine (agg x : Big) (wl wr : Mat) (bl : Row) : Big := fun i => affineAt agg x wl wr bl (i 0) (i 1)

/-- Row r of block s (ten blocks of 5000 rows); total in s so that it needs no bound. -/
def rowOf (s : ℕ) (r : Fin 5000) : Fin 50000 := ⟨(5000 * s + r.val) % 50000, Nat.mod_lt _ (by decide)⟩
/-- The sum of column j over the rows of block s. -/
def blockSum (f : Big) (s : ℕ) (j : Fin 128) : EReal := ∑ r : Fin 5000, f (ix2 (rowOf s r) j)
/-- Column sums accumulated block after block from zero. -/
def kSumRow (f : Big) : Row := fun i => 0 + ∑ s ∈ Finset.range 10, blockSum f s (i 1)
/-- The entrywise square. -/
def sq (f : Big) : Big := fun i => f i * f i
def kMuRow (s : Row) : Row := fun i => Ideal.div (s i) cN
def kVarRow (q mu : Row) : Row := fun i => Ideal.div (q i) cN - mu i * mu i
/-- Normalize and clamp at zero, with the statistics given as rows. -/
def norm (h : Big) (mu var ga be : Row) : Big := fun i =>
  max (((ga (ix2 0 (i 1)) * (h i - mu (ix2 0 (i 1)))) * Ideal.rsqrt (var (ix2 0 (i 1)) + cEps)) + be (ix2 0 (i 1))) 0
/-- One layer with blockwise statistics of sums and sums of squares. -/
def kLayer (agg x : Big) (wl wr : Mat) (bl ga be : Row) : Big :=
  norm (affine agg x wl wr bl) (kMuRow (kSumRow (affine agg x wl wr bl)))
    (kVarRow (kSumRow (sq (affine agg x wl wr bl))) (kMuRow (kSumRow (affine agg x wl wr bl)))) ga be

/-- The one-pass mean of column j. -/
def rMu (h : Big) (j : Fin 128) : EReal := Ideal.div (0 + ∑ n : Fin 50000, h (ix2 n j)) cN
/-- The centred variance of column j. -/
def rVar (h : Big) (j : Fin 128) : EReal :=
  Ideal.div (0 + ∑ n : Fin 50000, (h (ix2 n j) - rMu h j) * (h (ix2 n j) - rMu h j)) cN
/-- One layer with one-pass centred statistics. -/
def rLayer (agg x : Big) (wl wr : Mat) (bl ga be : Row) : Big := fun i =>
  max (((ga (ix2 0 (i 1)) * (affine agg x wl wr bl i - rMu (affine agg x wl wr bl) (i 1)))
      * Ideal.rsqrt (rVar (affine agg x wl wr bl) (i 1) + cEps)) + be (ix2 0 (i 1))) 0

/-- 1 where the word is the graph id g, else 0. -/
def onehot (w : BitVec 32) (g : Fin 64) : EReal := if w = BitVec.ofNat 32 g.val then 1 else 0
/-- Pooling by 0/1 products, block after block from zero. -/
def kPool (x : Big) (b : Ids) : Pl := fun i =>
  0 + ∑ s ∈ Finset.range 10, ∑ r : Fin 5000, onehot (b (ix2 (rowOf s r) 0)) (i 0) * x (ix2 (rowOf s r) (i 1))
/-- Pooling by an indicator sum over all rows (the id read as a signed integer). -/
def rPool (x : Big) (b : Ids) : Pl := fun i =>
  0 + ∑ n : Fin 50000, if (b (ix2 n 0)).toInt = ((i 0).val : ℤ) then x (ix2 n (i 1)) else 0

/-- The whole computation, blockwise side: two layers over a given aggregation map, pooled, divided by the counts. -/
def kOut (Agg : Big → Big) (cnt : Pl) (b : Ids) (x : Big) (Wl Wr : Mat2) (bl ga be : Row2) : Pl := fun i =>
  Ideal.div (kPool (kLayer (Agg (kLayer (Agg x) x (matOf Wl 0) (matOf Wr 0) (rowOf2 bl 0) (rowOf2 ga 0) (rowOf2 be 0)))
      (kLayer (Agg x) x (matOf Wl 0) (matOf Wr 0) (rowOf2 bl 0) (rowOf2 ga 0) (rowOf2 be 0))
      (matOf Wl 1) (matOf Wr 1) (rowOf2 bl 1) (rowOf2 ga 1) (rowOf2 be 1)) b i) (cnt i)
/-- The whole computation, one-pass side. -/
def rOut (Agg : Big → Big) (cnt : Pl) (b : Ids) (x : Big) (Wl Wr : Mat2) (bl ga be : Row2) : Pl := fun i =>
  Ideal.div (rPool (rLayer (Agg (rLayer (Agg x) x (matOf Wl 0) (matOf Wr 0) (rowOf2 bl 0) (rowOf2 ga 0) (rowOf2 be 0)))
      (rLayer (Agg x) x (matOf Wl 0) (matOf Wr 0) (rowOf2 bl 0) (rowOf2 ga 0) (rowOf2 be 0))
      (matOf Wl 1) (matOf Wr 1) (rowOf2 bl 1) (rowOf2 ga 1) (rowOf2 be 1)) b i) (cnt i)

end Cert.Spec

end
-- ==== Proof.RefAgg.lean ====
/-
  The aggregation both programs share, as one function of the edge array e [2, 625000] and a layer input x [50000, 128]:
    src = e[0,:], wrapped once when negative;  dst = e[1,:];
    deg[n] = max (0 + #{edges with dst = n}·1) 1;      agg[n,k] = (0 + Σ_{edges with dst = n} x[src,k]) / deg[n],
  an edge whose dst lies outside [0, 50000) contributing nothing, the gather clamping its row. Likewise the graph
  counts cnt[g,·] = max (0 + #{rows with id g}) 1 that the pooled sums are divided by.
  A gathered entry is an entry of x, a sum of finitely many reals is real, and the degree is a real ≥ 1: so agg of an
  array of reals is an array of reals.
-/
import proofs.«430960_j38439957299938_1_alg».proof.Proof.Gen.ReferenceIdeal
import proofs.«430960_j38439957299938_1_alg».proof.Proof.Spec
import Idealize.ShloMosaic.PureOps.Ideal.Laws
import Idealize.ShloMosaic.Lib.IdealHost

noncomputable section

namespace Cert.RefAgg

open Idealize.ShloMosaic Idealize.ShloMosaic.TcCoe Idealize.ShloMosaic.ValueIdx
open Cert.ReferenceIdeal Cert.ReferenceIdeal.Facts₀

/-- The edge array's contents. -/
abbrev Edges : Type := (⟨S2x625000, .i32⟩ : BufTy).Contents (Elt Ideal)
/-- The graph-id array's contents. -/
abbrev Batch : Type := (⟨S50000, .i32⟩ : BufTy).Contents (Elt Ideal)

def src (e : Edges) : (⟨S625000, .i32⟩ : BufTy).Contents (Elt Ideal) :=
  shapeCast _ (extractStridedSlice S1x625000 ![0, 0] e slices_S2x625000_S1x625000_0_0) shapeCasts_S1x625000_S625000
def dst (e : Edges) : (⟨S625000, .i32⟩ : BufTy).Contents (Elt Ideal) :=
  shapeCast _ (extractStridedSlice S1x625000 ![1, 0] e slices_S2x625000_S1x625000_1_0) shapeCasts_S1x625000_S625000
/-- The source rows with a negative one wrapped once by 50000. -/
def srcN (e : Edges) : (⟨S625000, .i32⟩ : BufTy).Contents (Elt Ideal) :=
  select (cmpi .slt (src e) (broadcastInDim S625000 ![] bcast_S_S625000 (constantI S_ 32 0#32)))
    (addi (src e) (broadcastInDim S625000 ![] bcast_S_S625000 (constantI S_ 32 50000#32))) (src e)
/-- The in-degrees, at least one. -/
def deg (e : Edges) : (⟨S50000, .f32⟩ : BufTy).Contents (Elt Ideal) :=
  maximumf (F := Ideal) (Host.scatterAdd (F := Ideal) scatter_S50000_S625000x1_S625000_n_0_0_1
      (broadcastInDim S50000 ![] bcast_S_S50000 (constant (F := Ideal) S_ .f32 0x00000000#32))
      (broadcastInDim S625000x1 ![0] bcast_S625000_S625000x1_0 (dst e))
      (broadcastInDim S625000 ![] bcast_S_S625000 (constant (F := Ideal) S_ .f32 0x3F800000#32)))
    (broadcastInDim S50000 ![] bcast_S_S50000 (constant (F := Ideal) S_ .f32 0x3F800000#32))
/-- The mean of the gathered source rows over the edges arriving at each row. -/
def agg (e : Edges) (x : FVec Ideal S50000x128 .f32) : FVec Ideal S50000x128 .f32 :=
  Host.divf (F := Ideal) (Host.scatterAdd (F := Ideal) scatter_S50000x128_S625000x1_S625000x128_1_0_0_1
      (broadcastInDim S50000x128 ![] bcast_S_S50000x128 (constant (F := Ideal) S_ .f32 0x00000000#32))
      (broadcastInDim S625000x1 ![0] bcast_S625000_S625000x1_0 (dst e))
      (Host.gather gather_S50000x128_S625000x1_S625000x128_1_0_n_n_0_1_1128 x
        (broadcastInDim S625000x1 ![0] bcast_S625000_S625000x1_0 (srcN e))))
    (broadcastInDim S50000x128 ![0, 1] bcast_S50000x1_S50000x128_0_1 (broadcastInDim S50000x1 ![0] bcast_S50000_S50000x1_0 (deg e)))
/-- The graph ids as a [50000, 1] column. -/
def ids (b : Batch) : IVec S50000x1 32 := broadcastInDim S50000x1 ![0] bcast_S50000_S50000x1_0 b
/-- The rows per graph, at least one, spread over the 128 features. -/
def cnt (b : Batch) : FVec Ideal S64x128 .f32 :=
  broadcastInDim S64x128 ![0, 1] bcast_S64x1_S64x128_0_1 (broadcastInDim S64x1 ![0] bcast_S64_S64x1_0
    (maximumf (F := Ideal) (Host.scatterAdd (F := Ideal) scatter_S64_S50000x1_S50000_n_0_0_1
        (broadcastInDim S64 ![] bcast_S_S64 (constant (F := Ideal) S_ .f32 0x00000000#32))
        (ids b)
        (broadcastInDim S50000 ![] bcast_S_S50000 (constant (F := Ideal) S_ .f32 0x3F800000#32)))
      (broadcastInDim S64 ![] bcast_S_S64 (constant (F := Ideal) S_ .f32 0x3F800000#32))))
/-- The pooled sums as the host scatters them: every row added into its graph's row. -/
def pool (b : Batch) (x : FVec Ideal S50000x128 .f32) : FVec Ideal S64x128 .f32 :=
  Host.scatterAdd (F := Ideal) scatter_S64x128_S50000x1_S50000x128_1_0_0_1
    (broadcastInDim S64x128 ![] bcast_S_S64x128 (constant (F := Ideal) S_ .f32 0x00000000#32)) (ids b) x

end Cert.RefAgg

end
-- ==== Proof.KHostA.lean ====
/-
  What the first two kernel regions find in their input arrays, read off the host operations before them:
  region 0 finds the aggregation of the input x, x itself, layer 0's two weight matrices and its bias row;
  region 1 finds region 0's array h, and the rows μ = s/50000 and v = q/50000 − μ·μ of region 0's column sums s and
  column sums of squares q, and layer 0's γ and β rows. (A change of float format is the identity on the extended reals.)
-/
import proofs.«430960_j38439957299938_1_alg».proof.Proof.Gen.KernelIdeal.Frame
import proofs.«430960_j38439957299938_1_alg».proof.Proof.Spec
import proofs.«430960_j38439957299938_1_alg».proof.Proof.RefAgg
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ) (ρ : Dev nD → PrngReg)

/-! ## Slices and reshapes of the stacked weights, read at an index -/

/-- Entry (a, b) of the first [128,128] slab of a stacked [2,128,128] array, flattened: entry (0, a, b). -/
private theorem slab0_at (W : FVec Ideal S2x128x128 .f32) (hs : S2x128x128.Slices ![0, 0, 0] S1x128x128)
    (hc : S1x128x128.ShapeCasts S128x128) (a b : Fin 128) :
    shapeCast S128x128 (extractStridedSlice S1x128x128 ![0, 0, 0] W hs) hc (ix2 a b) = W (ix3 0 a b) := by
  rw [shapeCast_apply _ hc (ix2 a b) (ix3 0 a b) (by
    rewrite [Shape.rowMajor_val_three, Shape.rowMajor_val_two]
    show (0 * 128 + a.val) * 128 + b.val = a.val * 128 + b.val; omega)]
  exact extractStridedSlice_apply ![0, 0, 0] W hs (ix3 0 a b) (ix3 0 a b) (fun k => match k with
    | ⟨0, _⟩ => by show (0 : Nat) = 0 + 0; omega
    | ⟨1, _⟩ => by show a.val = 0 + a.val; omega
    | ⟨2, _⟩ => by show b.val = 0 + b.val; omega)

/-- The first slab, flattened and narrowed (the narrowing is the identity), is layer 0's matrix. -/
private theorem slab0_eq (W : FVec Ideal S2x128x128 .f32) (hs : S2x128x128.Slices ![0, 0, 0] S1x128x128)
    (hc : S1x128x128.ShapeCasts S128x128) (hb : FTy.bits .bf16 < FTy.bits .f32) :
    (truncf .bf16 (fun i => shapeCast S128x128 (extractStridedSlice S1x128x128 ![0, 0, 0] W hs) hc i) hb : FVec Ideal S128x128 .bf16)
      = Cert.Spec.matOf W 0 := by
  funext i
  exact (congrArg (fun k => shapeCast S128x128 (extractStridedSlice S1x128x128 ![0, 0, 0] W hs) hc k) (eq_ix2 i)).trans
    (slab0_at W hs hc (i 0) (i 1))

/-- Entry (z, j) of the first row of a stacked [2,128] array, flattened to [128] and stood up again as [1,128]: entry (0, j). -/
private theorem row0_at (B : FVec Ideal S2x128 .f32) (hs : S2x128.Slices ![0, 0] S1x128)
    (hc : S1x128.ShapeCasts S128) (hd : S128.ShapeCasts S1x128) (z : Fin 1) (j : Fin 128) :
    shapeCast S1x128 (fun i => shapeCast S128 (extractStridedSlice S1x128 ![0, 0] B hs) hc i) hd (ix2 z j) = B (ix2 0 j) := by
  rw [shapeCast_apply _ hd (ix2 z j) (ix1 j) (by
    rewrite [Shape.rowMajor_val_one, Shape.rowMajor_val_two]
    have hz := z.isLt
    show j.val = z.val * 128 + j.val; omega)]
  show shapeCast S128 (extractStridedSlice S1x128 ![0, 0] B hs) hc (ix1 j) = _
  rw [shapeCast_apply _ hc (ix1 j) (ix2 0 j) (by
    rewrite [Shape.rowMajor_val_one, Shape.rowMajor_val_two]
    show 0 * 128 + j.val = j.val; omega)]
  exact extractStridedSlice_apply ![0, 0] B hs (ix2 0 j) (ix2 0 j) (fun k => match k with
    | ⟨0, _⟩ => by show (0 : Nat) = 0 + 0; omega
    | ⟨1, _⟩ => by show j.val = 0 + j.val; omega)

/-- The first row of a stacked [2,128] array through the two reshapes is layer 0's row. -/
private theorem row0_eq (B : FVec Ideal S2x128 .f32) (hs : S2x128.Slices ![0, 0] S1x128)
    (hc : S1x128.ShapeCasts S128) (hd : S128.ShapeCasts S1x128) :
    (fun i => shapeCast S1x128 (fun i => shapeCast S128 (extractStridedSlice S1x128 ![0, 0] B hs) hc i) hd i)
      = Cert.Spec.rowOf2 B 0 := by
  funext i
  exact (congrArg (fun k => shapeCast S1x128 (fun i => shapeCast S128 (extractStridedSlice S1x128 ![0, 0] B hs) hc i) hd k) (eq_ix2 i)).trans
    (row0_at B hs hc hd (i 0) (i 1))

/-! ## Region 0's entry -/

theorem V1_v22 (c : Dev nD) : V1 m ρ c main_v22 = Cert.RefAgg.agg (m ((c.tc : Thread nD τ).loc main_arg1)) (m ((c.tc : Thread nD τ).loc main_arg0)) := by
  show StableHlo.after hostOps0 (W0 m ρ c) (Proc.devRef .tc main_v22) = _
  after_results_simp
  unfold Cert.RefAgg.agg Cert.RefAgg.deg Cert.RefAgg.srcN Cert.RefAgg.src Cert.RefAgg.dst
  rfl
theorem V1_arg0 (c : Dev nD) : V1 m ρ c main_arg0 = (m ((c.tc : Thread nD τ).loc main_arg0)) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem V1_v25 (c : Dev nD) : V1 m ρ c main_v25 = Cert.Spec.matOf (m ((c.tc : Thread nD τ).loc main_arg3)) 0 := by
  show StableHlo.after hostOps0 (W0 m ρ c) (Proc.devRef .tc main_v25) = _
  after_results_simp
  exact slab0_eq (m ((c.tc : Thread nD τ).loc main_arg3)) _ _ _
theorem V1_v28 (c : Dev nD) : V1 m ρ c main_v28 = Cert.Spec.matOf (m ((c.tc : Thread nD τ).loc main_arg5)) 0 := by
  show StableHlo.after hostOps0 (W0 m ρ c) (Proc.devRef .tc main_v28) = _
  after_results_simp
  exact slab0_eq (m ((c.tc : Thread nD τ).loc main_arg5)) _ _ _
theorem V1_v31 (c : Dev nD) : V1 m ρ c main_v31 = Cert.Spec.rowOf2 (m ((c.tc : Thread nD τ).loc main_arg4)) 0 := by
  show StableHlo.after hostOps0 (W0 m ρ c) (Proc.devRef .tc main_v31) = _
  after_results_simp
  exact row0_eq (m ((c.tc : Thread nD τ).loc main_arg4)) _ _ _

/-! ## Region 1's entry, over what region 0 leaves -/

/-- Layer 0's γ and β arrays are written by no operation before region 0 and are not among region 0's arrays:
    at region 0's exit they hold what they held at launch. -/
private theorem W2_arg6 (c : Dev nD) : W2 m ρ c (Proc.devRef .tc main_arg6) = m ((c.tc : Thread nD τ).loc main_arg6) :=
  (W2_of_ne m ρ c main_arg6 (by decide)).trans ((StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)
private theorem W2_arg7 (c : Dev nD) : W2 m ρ c (Proc.devRef .tc main_arg7) = m ((c.tc : Thread nD τ).loc main_arg7) :=
  (W2_of_ne m ρ c main_arg7 (by decide)).trans ((StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl)

theorem V3_v32_0 (c : Dev nD) : V3 m ρ c main_v32_0 = (dat0 (V1 m ρ) c).arrAt 5 cfg0.N :=
  (StableHlo.after_of_forall_not_mem (b := Proc.devRef .tc main_v32_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 5)
theorem V3_v34 (c : Dev nD) : V3 m ρ c main_v34 = Cert.Spec.kMuRow ((dat0 (V1 m ρ) c).arrAt 6 cfg0.N) := by
  show StableHlo.after hostOps1 (W2 m ρ c) (Proc.devRef .tc main_v34) = _
  after_results_simp
  exact congrArg Cert.Spec.kMuRow (W2_arr m ρ c 6)
theorem V3_v38 (c : Dev nD) : V3 m ρ c main_v38
    = Cert.Spec.kVarRow ((dat0 (V1 m ρ) c).arrAt 7 cfg0.N) (Cert.Spec.kMuRow ((dat0 (V1 m ρ) c).arrAt 6 cfg0.N)) := by
  show StableHlo.after hostOps1 (W2 m ρ c) (Proc.devRef .tc main_v38) = _
  after_results_simp
  exact congrArg₂ (fun q s => Cert.Spec.kVarRow q (Cert.Spec.kMuRow s)) (W2_arr m ρ c 7) (W2_arr m ρ c 6)
theorem V3_v43 (c : Dev nD) : V3 m ρ c main_v43 = Cert.Spec.rowOf2 (m ((c.tc : Thread nD τ).loc main_arg6)) 0 := by
  show StableHlo.after hostOps1 (W2 m ρ c) (Proc.devRef .tc main_v43) = _
  after_results_simp
  rw [W2_arg6]
  exact row0_eq (m ((c.tc : Thread nD τ).loc main_arg6)) _ _ _
theorem V3_v44 (c : Dev nD) : V3 m ρ c main_v44 = Cert.Spec.rowOf2 (m ((c.tc : Thread nD τ).loc main_arg7)) 0 := by
  show StableHlo.after hostOps1 (W2 m ρ c) (Proc.devRef .tc main_v44) = _
  after_results_simp
  rw [W2_arg7]
  exact row0_eq (m ((c.tc : Thread nD τ).loc main_arg7)) _ _ _

end Cert.KernelIdeal.Host

end
-- ==== Proof.KHostB.lean ====
/-
  What the last three kernel regions find in their input arrays, and the program's result, read off the host
  operations between them: region 2 finds the aggregation of region 1's array, that array, layer 1's weights and bias;
  region 3 finds region 2's h and the rows μ, v of its column sums, and layer 1's γ, β; region 4 finds region 3's array
  and the graph ids as a column; the result is region 4's pooled sums divided by the graph counts.
-/
import proofs.«430960_j38439957299938_1_alg».proof.Proof.Gen.KernelIdeal.Frame
import proofs.«430960_j38439957299938_1_alg».proof.Proof.Spec
import proofs.«430960_j38439957299938_1_alg».proof.Proof.RefAgg
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ) (ρ : Dev nD → PrngReg)

/-- A stretch of host operations leaves a buffer that none of them writes as it was. -/
local macro "stretch_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Buffers written before region 0 and never again: what region 1's exit holds is what region 0's entry held -/

private theorem W4_eq_W1 (c : Dev nD) (b : Ref sig .tc) (h1 : ∀ w, Pipeline.arrRef spec1 w ≠ b)
    (h0 : ∀ w, Pipeline.arrRef spec0 w ≠ b)
    (hs : W3 m ρ c (Proc.devRef .tc b) = W2 m ρ c (Proc.devRef .tc b)) :
    W4 m ρ c (Proc.devRef .tc b) = W1 m ρ c (Proc.devRef .tc b) :=
  ((W4_of_ne m ρ c b h1).trans hs).trans (W2_of_ne m ρ c b h0)

private theorem W4_v1 (c : Dev nD) : W4 m ρ c (Proc.devRef .tc main_v1) = W1 m ρ c (Proc.devRef .tc main_v1) :=
  W4_eq_W1 m ρ c main_v1 (by decide) (by decide) (by stretch_keeps hostOps1)
private theorem W4_v3 (c : Dev nD) : W4 m ρ c (Proc.devRef .tc main_v3) = W1 m ρ c (Proc.devRef .tc main_v3) :=
  W4_eq_W1 m ρ c main_v3 (by decide) (by decide) (by stretch_keeps hostOps1)
private theorem W4_v9 (c : Dev nD) : W4 m ρ c (Proc.devRef .tc main_v9) = W1 m ρ c (Proc.devRef .tc main_v9) :=
  W4_eq_W1 m ρ c main_v9 (by decide) (by decide) (by stretch_keeps hostOps1)

/-! ## The arguments: no host operation writes one and none of regions 1 … 4 owns one, so each boundary of the run
    holds an argument's launch contents (region 0 reads main_arg0 only, through an input window) -/

private theorem W4_launch (c : Dev nD) (b : Ref sig .tc) (h1 : ∀ w, Pipeline.arrRef spec1 w ≠ b)
    (h0 : ∀ w, Pipeline.arrRef spec0 w ≠ b)
    (hs1 : W3 m ρ c (Proc.devRef .tc b) = W2 m ρ c (Proc.devRef .tc b))
    (hs0 : W1 m ρ c (Proc.devRef .tc b) = W0 m ρ c (Proc.devRef .tc b)) :
    W4 m ρ c (Proc.devRef .tc b) = m ((c.tc : Thread nD τ).loc b) :=
  (W4_eq_W1 m ρ c b h1 h0 hs1).trans hs0

private theorem W4_arg2 (c : Dev nD) : W4 m ρ c (Proc.devRef .tc main_arg2) = m ((c.tc : Thread nD τ).loc main_arg2) :=
  W4_launch m ρ c main_arg2 (by decide) (by decide) (by stretch_keeps hostOps1) (by stretch_keeps hostOps0)
private theorem W4_arg3 (c : Dev nD) : W4 m ρ c (Proc.devRef .tc main_arg3) = m ((c.tc : Thread nD τ).loc main_arg3) :=
  W4_launch m ρ c main_arg3 (by decide) (by decide) (by stretch_keeps hostOps1) (by stretch_keeps hostOps0)
private theorem W4_arg4 (c : Dev nD) : W4 m ρ c (Proc.devRef .tc main_arg4) = m ((c.tc : Thread nD τ).loc main_arg4) :=
  W4_launch m ρ c main_arg4 (by decide) (by decide) (by stretch_keeps hostOps1) (by stretch_keeps hostOps0)
private theorem W4_arg5 (c : Dev nD) : W4 m ρ c (Proc.devRef .tc main_arg5) = m ((c.tc : Thread nD τ).loc main_arg5) :=
  W4_launch m ρ c main_arg5 (by decide) (by decide) (by stretch_keeps hostOps1) (by stretch_keeps hostOps0)
private theorem W4_arg6 (c : Dev nD) : W4 m ρ c (Proc.devRef .tc main_arg6) = m ((c.tc : Thread nD τ).loc main_arg6) :=
  W4_launch m ρ c main_arg6 (by decide) (by decide) (by stretch_keeps hostOps1) (by stretch_keeps hostOps0)
private theorem W4_arg7 (c : Dev nD) : W4 m ρ c (Proc.devRef .tc main_arg7) = m ((c.tc : Thread nD τ).loc main_arg7) :=
  W4_launch m ρ c main_arg7 (by decide) (by decide) (by stretch_keeps hostOps1) (by stretch_keeps hostOps0)

private theorem W6_arg2 (c : Dev nD) : W6 m ρ c (Proc.devRef .tc main_arg2) = m ((c.tc : Thread nD τ).loc main_arg2) :=
  ((W6_of_ne m ρ c main_arg2 (by decide)).trans (by stretch_keeps hostOps2)).trans (W4_arg2 m ρ c)
private theorem W6_arg6 (c : Dev nD) : W6 m ρ c (Proc.devRef .tc main_arg6) = m ((c.tc : Thread nD τ).loc main_arg6) :=
  ((W6_of_ne m ρ c main_arg6 (by decide)).trans (by stretch_keeps hostOps2)).trans (W4_arg6 m ρ c)
private theorem W6_arg7 (c : Dev nD) : W6 m ρ c (Proc.devRef .tc main_arg7) = m ((c.tc : Thread nD τ).loc main_arg7) :=
  ((W6_of_ne m ρ c main_arg7 (by decide)).trans (by stretch_keeps hostOps2)).trans (W4_arg7 m ρ c)

private theorem W8_arg2 (c : Dev nD) : W8 m ρ c (Proc.devRef .tc main_arg2) = m ((c.tc : Thread nD τ).loc main_arg2) :=
  ((W8_of_ne m ρ c main_arg2 (by decide)).trans (by stretch_keeps hostOps3)).trans (W6_arg2 m ρ c)
private theorem W10_arg2 (c : Dev nD) : W10 m ρ c (Proc.devRef .tc main_arg2) = m ((c.tc : Thread nD τ).loc main_arg2) :=
  ((W10_of_ne m ρ c main_arg2 (by decide)).trans (by stretch_keeps hostOps4)).trans (W8_arg2 m ρ c)

/-! ## The arrays a region leaves, by the buffer's own name -/

private theorem W4_v45 (c : Dev nD) : W4 m ρ c (Proc.devRef .tc main_v45) = (dat1 (V3 m ρ) c).arrAt 5 cfg1.N := W4_arr m ρ c 5
private theorem W6_v68_0 (c : Dev nD) : W6 m ρ c (Proc.devRef .tc main_v68_0) = (dat2 (V5 m ρ) c).arrAt 5 cfg2.N := W6_arr m ρ c 5
private theorem W6_v68_1 (c : Dev nD) : W6 m ρ c (Proc.devRef .tc main_v68_1) = (dat2 (V5 m ρ) c).arrAt 6 cfg2.N := W6_arr m ρ c 6
private theorem W6_v68_2 (c : Dev nD) : W6 m ρ c (Proc.devRef .tc main_v68_2) = (dat2 (V5 m ρ) c).arrAt 7 cfg2.N := W6_arr m ρ c 7
private theorem W8_v81 (c : Dev nD) : W8 m ρ c (Proc.devRef .tc main_v81) = (dat3 (V7 m ρ) c).arrAt 5 cfg3.N := W8_arr m ρ c 5
private theorem W10_v83 (c : Dev nD) : W10 m ρ c (Proc.devRef .tc main_v83) = (dat4 (V9 m ρ) c).arrAt 2 cfg4.N := W10_arr m ρ c 2

/-! ## Layer 1's slices of the stacked weights and rows, read at an index -/

/-- Slice 1 of a [2,128,128] array, its unit axis dropped, at (p, q) is the array at (1, p, q). -/
private theorem mat_at (x : (⟨S2x128x128, .f32⟩ : BufTy).Contents (Elt Ideal)) (p q : Fin 128) :
    shapeCast S128x128 (extractStridedSlice S1x128x128 ![1, 0, 0] x slices_S2x128x128_S1x128x128_1_0_0)
      shapeCasts_S1x128x128_S128x128 (ix2 p q) = x (ix3 (1 : Fin 2) p q) := by
  refine (shapeCast_1ab_ab_apply _ shapeCasts_S1x128x128_S128x128 p q).trans ?_
  exact extractStridedSlice_apply ![1, 0, 0] x slices_S2x128x128_S1x128x128_1_0_0 _ (ix3 (1 : Fin 2) p q) (fun a => match a with
    | ⟨0, _⟩ => rfl
    | ⟨1, _⟩ => by show p.val = 0 + p.val; omega
    | ⟨2, _⟩ => by show q.val = 0 + q.val; omega)

/-- The rounding to bf16 is the identity on the extended reals: the rounded slice is layer 1's matrix. -/
private theorem mat_read (x : (⟨S2x128x128, .f32⟩ : BufTy).Contents (Elt Ideal)) :
    (truncf (F := Ideal) .bf16 (fun i => shapeCast S128x128 (extractStridedSlice S1x128x128 ![1, 0, 0] x slices_S2x128x128_S1x128x128_1_0_0)
      shapeCasts_S1x128x128_S128x128 i) bitsLt_bf16_f32 : (⟨S128x128, .bf16⟩ : BufTy).Contents (Elt Ideal))
      = Cert.Spec.matOf x 1 := by
  funext i
  exact (congrArg _ (eq_ix2 i)).trans (mat_at x (i 0) (i 1))

/-- Slice 1 of a [2,128] array, its unit axis dropped and put back, at (u, q) is the array at (1, q). -/
private theorem row_at (x : (⟨S2x128, .f32⟩ : BufTy).Contents (Elt Ideal)) (u : Fin 1) (q : Fin 128) :
    shapeCast S1x128 (shapeCast S128 (extractStridedSlice S1x128 ![1, 0] x slices_S2x128_S1x128_1_0) shapeCasts_S1x128_S128)
      shapeCasts_S128_S1x128 (ix2 u q) = x (ix2 (1 : Fin 2) q) := by
  refine (shapeCast_a_1a_apply _ shapeCasts_S128_S1x128 u q).trans ?_
  refine (shapeCast_1a_a_apply _ shapeCasts_S1x128_S128 q).trans ?_
  exact extractStridedSlice_apply ![1, 0] x slices_S2x128_S1x128_1_0 _ (ix2 (1 : Fin 2) q) (fun a => match a with
    | ⟨0, _⟩ => rfl
    | ⟨1, _⟩ => by show q.val = 0 + q.val; omega)

private theorem row_read (x : (⟨S2x128, .f32⟩ : BufTy).Contents (Elt Ideal)) :
    (fun i => shapeCast S1x128 (fun j => shapeCast S128 (extractStridedSlice S1x128 ![1, 0] x slices_S2x128_S1x128_1_0)
      shapeCasts_S1x128_S128 j) shapeCasts_S128_S1x128 i : (⟨S1x128, .f32⟩ : BufTy).Contents (Elt Ideal))
      = Cert.Spec.rowOf2 x 1 := by
  funext i
  exact (congrArg _ (eq_ix2 i)).trans (row_at x (i 0) (i 1))

/-- A [50000] array with a trailing unit axis added reads, at (n, 0), the array at n: so does its broadcast along axis 0. -/
private theorem ids_read (b : (⟨S50000, .i32⟩ : BufTy).Contents (Elt Ideal)) :
    (fun i => shapeCast S50000x1 b shapeCasts_S50000_S50000x1 i : (⟨S50000x1, .i32⟩ : BufTy).Contents (Elt Ideal))
      = Cert.RefAgg.ids b := by
  funext i
  unfold Cert.RefAgg.ids
  have h1 : (i 1).val < 1 := (i 1).isLt
  refine (shapeCast_apply b shapeCasts_S50000_S50000x1 i (ix1 (i 0)) ?_).trans
    (broadcastInDim_apply ![0] bcast_S50000_S50000x1_0 b i (ix1 (i 0)) ?_).symm
  · rw [Shape.rowMajor_val_one, Shape.rowMajor_val_two]
    show (i 0).val = (i 0).val * 1 + (i 1).val
    omega
  · intro a
    match a with
    | ⟨0, _⟩ => show (i 0).val = if (50000 : Nat) = 1 then 0 else (i 0).val; rw [if_neg (by decide)]

/-- The divisor the last host stretch builds of the graph ids is the count array. -/
private theorem cnt_read (b : (⟨S50000, .i32⟩ : BufTy).Contents (Elt Ideal)) :
    broadcastInDim S64x128 ![0, 1] bcast_S64x1_S64x128_0_1 (broadcastInDim S64x1 ![0] bcast_S64_S64x1_0
      (maximumf (F := Ideal) (Host.scatterAdd (F := Ideal) scatter_S64_S50000x1_S50000_n_0_0_1
          (broadcastInDim S64 ![] bcast_S_S64 (constant (F := Ideal) S_ .f32 0x00000000#32))
          (broadcastInDim S50000x1 ![0] bcast_S50000_S50000x1_0 b)
          (broadcastInDim S50000 ![] bcast_S_S50000 (constant (F := Ideal) S_ .f32 0x3F800000#32)))
        (broadcastInDim S64 ![] bcast_S_S64 (constant (F := Ideal) S_ .f32 0x3F800000#32)))) = Cert.RefAgg.cnt b := by
  unfold Cert.RefAgg.cnt Cert.RefAgg.ids
  rfl

/-- The host's division at an index is the division of the entries. -/
private theorem hostDivf_at {s : Shape} (a b : FVec Ideal s .f32) (i : s.Idx) :
    Host.divf (F := Ideal) a b i = Ideal.div (a i) (b i) := rfl

/-! ## What the first host stretch computed of the edge array: the sources, the targets, the in-degrees -/

private theorem W1_v1 (c : Dev nD) :
    W1 m ρ c (Proc.devRef .tc main_v1) = Cert.RefAgg.src (m ((c.tc : Thread nD τ).loc main_arg1)) := by
  show StableHlo.after hostOps0 (W0 m ρ c) (Proc.devRef .tc main_v1) = _
  after_results_simp
  rfl
private theorem W1_v3 (c : Dev nD) :
    W1 m ρ c (Proc.devRef .tc main_v3) = Cert.RefAgg.dst (m ((c.tc : Thread nD τ).loc main_arg1)) := by
  show StableHlo.after hostOps0 (W0 m ρ c) (Proc.devRef .tc main_v3) = _
  after_results_simp
  rfl
private theorem W1_v9 (c : Dev nD) :
    W1 m ρ c (Proc.devRef .tc main_v9) = Cert.RefAgg.deg (m ((c.tc : Thread nD τ).loc main_arg1)) := by
  show StableHlo.after hostOps0 (W0 m ρ c) (Proc.devRef .tc main_v9) = _
  after_results_simp
  rfl

/-! ## Region 2's entry, over what region 1 leaves -/

theorem V5_v58 (c : Dev nD) : V5 m ρ c main_v58 = Cert.RefAgg.agg (m ((c.tc : Thread nD τ).loc main_arg1)) ((dat1 (V3 m ρ) c).arrAt 5 cfg1.N) := by
  show StableHlo.after hostOps2 (W4 m ρ c) (Proc.devRef .tc main_v58) = _
  after_results_simp
  rw [W4_v1, W4_v3, W4_v9, W4_v45, W1_v1, W1_v3, W1_v9]
  rfl
theorem V5_v45 (c : Dev nD) : V5 m ρ c main_v45 = (dat1 (V3 m ρ) c).arrAt 5 cfg1.N := by
  refine Eq.trans ?_ (W4_v45 m ρ c)
  show W5 m ρ c (Proc.devRef .tc main_v45) = W4 m ρ c (Proc.devRef .tc main_v45)
  stretch_keeps hostOps2
theorem V5_v61 (c : Dev nD) : V5 m ρ c main_v61 = Cert.Spec.matOf (m ((c.tc : Thread nD τ).loc main_arg3)) 1 := by
  show StableHlo.after hostOps2 (W4 m ρ c) (Proc.devRef .tc main_v61) = _
  after_results
  rw [W4_arg3]
  exact mat_read _
theorem V5_v64 (c : Dev nD) : V5 m ρ c main_v64 = Cert.Spec.matOf (m ((c.tc : Thread nD τ).loc main_arg5)) 1 := by
  show StableHlo.after hostOps2 (W4 m ρ c) (Proc.devRef .tc main_v64) = _
  after_results
  rw [W4_arg5]
  exact mat_read _
theorem V5_v67 (c : Dev nD) : V5 m ρ c main_v67 = Cert.Spec.rowOf2 (m ((c.tc : Thread nD τ).loc main_arg4)) 1 := by
  show StableHlo.after hostOps2 (W4 m ρ c) (Proc.devRef .tc main_v67) = _
  after_results
  rw [W4_arg4]
  exact row_read _

/-! ## Region 3's entry, over what region 2 leaves -/

theorem V7_v68_0 (c : Dev nD) : V7 m ρ c main_v68_0 = (dat2 (V5 m ρ) c).arrAt 5 cfg2.N := by
  refine Eq.trans ?_ (W6_v68_0 m ρ c)
  show W7 m ρ c (Proc.devRef .tc main_v68_0) = W6 m ρ c (Proc.devRef .tc main_v68_0)
  stretch_keeps hostOps3
theorem V7_v70 (c : Dev nD) : V7 m ρ c main_v70 = Cert.Spec.kMuRow ((dat2 (V5 m ρ) c).arrAt 6 cfg2.N) := by
  show StableHlo.after hostOps3 (W6 m ρ c) (Proc.devRef .tc main_v70) = _
  after_results
  rw [W6_v68_1]
  rfl
theorem V7_v74 (c : Dev nD) : V7 m ρ c main_v74
    = Cert.Spec.kVarRow ((dat2 (V5 m ρ) c).arrAt 7 cfg2.N) (Cert.Spec.kMuRow ((dat2 (V5 m ρ) c).arrAt 6 cfg2.N)) := by
  show StableHlo.after hostOps3 (W6 m ρ c) (Proc.devRef .tc main_v74) = _
  after_results_simp
  rw [W6_v68_1, W6_v68_2]
  rfl
theorem V7_v79 (c : Dev nD) : V7 m ρ c main_v79 = Cert.Spec.rowOf2 (m ((c.tc : Thread nD τ).loc main_arg6)) 1 := by
  show StableHlo.after hostOps3 (W6 m ρ c) (Proc.devRef .tc main_v79) = _
  after_results
  rw [W6_arg6]
  exact row_read _
theorem V7_v80 (c : Dev nD) : V7 m ρ c main_v80 = Cert.Spec.rowOf2 (m ((c.tc : Thread nD τ).loc main_arg7)) 1 := by
  show StableHlo.after hostOps3 (W6 m ρ c) (Proc.devRef .tc main_v80) = _
  after_results
  rw [W6_arg7]
  exact row_read _

/-! ## Region 4's entry, over what region 3 leaves -/

theorem V9_v81 (c : Dev nD) : V9 m ρ c main_v81 = (dat3 (V7 m ρ) c).arrAt 5 cfg3.N := by
  refine Eq.trans ?_ (W8_v81 m ρ c)
  show W9 m ρ c (Proc.devRef .tc main_v81) = W8 m ρ c (Proc.devRef .tc main_v81)
  stretch_keeps hostOps4
theorem V9_v82 (c : Dev nD) : V9 m ρ c main_v82 = Cert.RefAgg.ids (m ((c.tc : Thread nD τ).loc main_arg2)) := by
  show StableHlo.after hostOps4 (W8 m ρ c) (Proc.devRef .tc main_v82) = _
  after_results
  rw [W8_arg2]
  exact ids_read _

/-! ## The result, over what region 4 leaves -/

theorem W11_v92 (c : Dev nD) : W11 m ρ c (Proc.devRef .tc main_v92)
    = fun i => Ideal.div ((dat4 (V9 m ρ) c).arrAt 2 cfg4.N i) (Cert.RefAgg.cnt (m ((c.tc : Thread nD τ).loc main_arg2)) i) := by
  show StableHlo.after hostOps5 (W10 m ρ c) (Proc.devRef .tc main_v92) = _
  after_results_simp
  rw [W10_v83, W10_arg2, cnt_read]
  funext i
  exact hostDivf_at _ _ i

end Cert.KernelIdeal.Host

end
-- ==== Proof.RegionAffine0.lean ====
import proofs.«430960_j38439957299938_1_alg».proof.Proof.Gen.KernelIdeal.Frame
import proofs.«430960_j38439957299938_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The affine map of the region's five input arrays, as the region finds them. -/
abbrev hOf (c : Dev nD) : Cert.Spec.Big :=
  Cert.Spec.affine (V c main_v22) (V c main_arg0) (V c main_v25) (V c main_v28) (V c main_v31)

section Pieces
variable {F : FTy → Type} [FloatOps F]

private theorem hz : (![0, 0] : Fin 2 → Nat) = fun _ => 0 := funext fun a => by fin_cases a <;> rfl

private theorem out_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : ¬cond0_0 i) (x0 x1 : Vec F S5000x128 .f32) (x2 : Vec F S128x128 .bf16) (x3 : Vec F S1x128 .f32) (x4 : Vec F S128x128 .bf16) (xo6 xo7 : Vec F S1x128 .f32) :
    out0_B_5 c i arg1 harg1 arg2 harg2 arg3 harg3 arg4 harg4 arg5 harg5 arg6 harg6 arg7 harg7 arg8 harg8 hc x0 x1 x2 x3 x4 xo6 xo7 = k0_pay3 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 hc x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

private theorem out_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : ¬cond0_0 i) (x0 x1 : Vec F S5000x128 .f32) (x2 : Vec F S128x128 .bf16) (x3 : Vec F S1x128 .f32) (x4 : Vec F S128x128 .bf16) (xo6 xo7 : Vec F S1x128 .f32) :
    out0_B_6 c i arg1 harg1 arg2 harg2 arg3 harg3 arg4 harg4 arg5 harg5 arg6 harg6 arg7 harg7 arg8 harg8 hc x0 x1 x2 x3 x4 xo6 xo7 = k0_pay4 x0 x1 x2 x3 x4 xo6 := by
  unfold out0_B_6
  rw [View.read_writes_eq_canon _ _ _ (cover0_B_6 c i arg1 harg1 arg2 harg2 arg3 harg3 arg4 harg4 arg5 harg5 arg6 harg6 arg7 harg7 arg8 harg8 hc x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

private theorem out_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : ¬cond0_0 i) (x0 x1 : Vec F S5000x128 .f32) (x2 : Vec F S128x128 .bf16) (x3 : Vec F S1x128 .f32) (x4 : Vec F S128x128 .bf16) (xo6 xo7 : Vec F S1x128 .f32) :
    out0_B_7 c i arg1 harg1 arg2 harg2 arg3 harg3 arg4 harg4 arg5 harg5 arg6 harg6 arg7 harg7 arg8 harg8 hc x0 x1 x2 x3 x4 xo6 xo7 = k0_pay5 x0 x1 x2 x3 x4 xo7 := by
  unfold out0_B_7
  rw [View.read_writes_eq_canon _ _ _ (cover0_B_7 c i arg1 harg1 arg2 harg2 arg3 harg3 arg4 harg4 arg5 harg5 arg6 harg6 arg7 harg7 arg8 harg8 hc x0 x1 x2 x3 x4 xo6 xo7)]
  unfold kernelRun0_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

private theorem out_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : cond0_0 i) (x0 x1 : Vec F S5000x128 .f32) (x2 : Vec F S128x128 .bf16) (x3 : Vec F S1x128 .f32) (x4 : Vec F S128x128 .bf16) :
    out0_A_5 c i arg1 harg1 arg2 harg2 arg3 harg3 arg4 harg4 arg5 harg5 arg6 harg6 arg7 harg7 arg8 harg8 hc x0 x1 x2 x3 x4 = k0_pay3 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 hc x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.readCov_unit_zero (S := S1x128) _ hz, View.ld_unit_zero (S := S5000x128) hz, View.ld_unit_zero (S := S128x128) hz, View.ld_unit_zero (S := S1x128) hz]

private theorem out_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : cond0_0 i) (x0 x1 : Vec F S5000x128 .f32) (x2 : Vec F S128x128 .bf16) (x3 : Vec F S1x128 .f32) (x4 : Vec F S128x128 .bf16) :
    out0_A_6 c i arg1 harg1 arg2 harg2 arg3 harg3 arg4 harg4 arg5 harg5 arg6 harg6 arg7 harg7 arg8 harg8 hc x0 x1 x2 x3 x4 = k0_pay4 x0 x1 x2 x3 x4 k0_pay1 := by
  unfold out0_A_6
  rw [View.read_writes_eq_canon _ _ _ (cover0_A_6 c i arg1 harg1 arg2 harg2 arg3 harg3 arg4 harg4 arg5 harg5 arg6 harg6 arg7 harg7 arg8 harg8 hc x0 x1 x2 x3 x4)]
  unfold kernelRun0_A
  dsimp only
  sl_unfold_words
  rw [View.canon_cons_unit_zero (S := S1x128) hz]
  simp only [View.readAt_eq_ld, harg1.read_unread, harg2.read_unread, harg3.read_unread, harg4.read_unread, harg5.read_unread, View.readCov_unit_zero (S := S1x128) _ hz, View.ld_unit_zero (S := S5000x128) hz, View.ld_unit_zero (S := S128x128) hz, View.ld_unit_zero (S := S1x128) hz]

private theorem out_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : cond0_0 i) (x0 x1 : Vec F S5000x128 .f32) (x2 : Vec F S128x128 .bf16) (x3 : Vec F S1x128 .f32) (x4 : Vec F S128x128 .bf16) :
    out0_A_7 c i arg1 harg1 arg2 harg2 arg3 harg3 arg4 harg4 arg5 harg5 arg6 harg6 arg7 harg7 arg8 harg8 hc x0 x1 x2 x3 x4 = k0_pay5 x0 x1 x2 x3 x4 k0_pay2 := by
  unfold out0_A_7
  rw [View.read_writes_eq_canon _ _ _ (cover0_A_7 c i arg1 harg1 arg2 harg2 arg3 harg3 arg4 harg4 arg5 harg5 arg6 harg6 arg7 harg7 arg8 harg8 hc x0 x1 x2 x3 x4)]
  unfold kernelRun0_A
  dsimp only
  sl_unfold_words
  rw [View.canon_cons_unit_zero (S := S1x128) hz]
  simp only [View.readAt_eq_ld, harg1.read_unread, harg2.read_unread, harg3.read_unread, harg4.read_unread, harg5.read_unread, View.readCov_unit_zero (S := S1x128) _ hz, View.ld_unit_zero (S := S5000x128) hz, View.ld_unit_zero (S := S128x128) hz, View.ld_unit_zero (S := S1x128) hz]

end Pieces

section Payload

/-- The dot's operand indices at an output index (r, j) and contraction index k: lhs (r, k), rhs (k, j). -/
private theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into the zero block, at row r and feature j: the sum over the 128 contracted features. -/
private theorem matmul_at (a : FVec Ideal S5000x128 .bf16) (w : FVec Ideal S128x128 .bf16) (r : Fin 5000) (j : Fin 128) :
    matmul dot_S5000x128_S128x128_S5000x128_1_0_0_1_n_n none a w (constant (F := Ideal) S5000x128 .f32 0x00000000#32) (ix2 r j)
      = ∑ k : Fin 128, a (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-- The stored block at row r, feature j: (Σ_k agg[r,k]·wl[k,j] + bl[0,j]) + Σ_k x[r,k]·wr[k,j]. -/
private theorem pay3_at (agg x : Vec Ideal S5000x128 .f32) (wl : Vec Ideal S128x128 .bf16) (bl : Vec Ideal S1x128 .f32)
    (wr : Vec Ideal S128x128 .bf16) (r : Fin 5000) (j : Fin 128) :
    k0_pay3 (F := Ideal) agg x wl bl wr (ix2 r j)
      = ((∑ k : Fin 128, agg (ix2 r k) * wl (ix2 k j)) + bl (ix2 0 j)) + ∑ k : Fin 128, x (ix2 r k) * wr (ix2 k j) := by
  unfold k0_pay3
  simp only [shapeCast_self]
  rw [addf_apply, addf_apply, matmul_at, matmul_at,
    broadcastTo_apply bl broadcasts_S1x128_S5000x128 (ix2 r j) (ix2 0 j) (fun a => by match a with | ⟨0, _⟩ => rfl | ⟨1, _⟩ => rfl)]
  rfl

/-- The column sums of a [5000,128] block, as a [1,128] row, at feature j: the sum over the block's 5000 rows. -/
private theorem colsum_at (src : FVec Ideal S5000x128 .f32) (hφ : FKind.Formats .f32)
    (hacc : (0x00000000#32 : BitVec 32) = FKind.add.neutral .f32 hφ) (j : Fin 128) :
    shapeCast S1x128 (multiReduction (F := Ideal) .add [0] S128 src 0x00000000#32 reduces_S5000x128_S128 hφ hacc) shapeCasts_S128_S1x128 (ix2 0 j)
      = ∑ r : Fin 5000, src (ix2 r j) := by
  refine (shapeCast_addUnit_apply ![128] _ shapeCasts_S128_S1x128 (ix2 0 j)).trans ?_
  refine (Ideal.multiReduction_add_single src 0x00000000#32 reduces_S5000x128_S128 hφ hacc _).trans ?_
  exact Finset.sum_congr rfl fun r _ => congrArg src (funext fun a => by match a with | ⟨0, _⟩ => rfl | ⟨1, _⟩ => rfl)

/-- A block's column sums added to a carried row, at feature j. -/
private theorem pay4_at (agg x : Vec Ideal S5000x128 .f32) (wl : Vec Ideal S128x128 .bf16) (bl : Vec Ideal S1x128 .f32)
    (wr : Vec Ideal S128x128 .bf16) (acc : Vec Ideal S1x128 .f32) (j : Fin 128) :
    k0_pay4 (F := Ideal) agg x wl bl wr acc (ix2 0 j)
      = acc (ix2 0 j) + ∑ r : Fin 5000, k0_pay3 (F := Ideal) agg x wl bl wr (ix2 r j) := by
  unfold k0_pay4
  simp only [shapeCast_self]
  rw [addf_apply]
  exact congrArg (fun t : EReal => acc (ix2 0 j) + t) (colsum_at _ _ _ j)

/-- A block's column sums of squares added to a carried row, at feature j. -/
private theorem pay5_at (agg x : Vec Ideal S5000x128 .f32) (wl : Vec Ideal S128x128 .bf16) (bl : Vec Ideal S1x128 .f32)
    (wr : Vec Ideal S128x128 .bf16) (acc : Vec Ideal S1x128 .f32) (j : Fin 128) :
    k0_pay5 (F := Ideal) agg x wl bl wr acc (ix2 0 j)
      = acc (ix2 0 j) + ∑ r : Fin 5000, k0_pay3 (F := Ideal) agg x wl bl wr (ix2 r j) * k0_pay3 (F := Ideal) agg x wl bl wr (ix2 r j) := by
  unfold k0_pay5
  simp only [shapeCast_self]
  rw [addf_apply]
  exact congrArg (fun t : EReal => acc (ix2 0 j) + t) (colsum_at _ _ _ j)

end Payload

section Blocks

/-- The printed index maps, decided over the ten grid points: the row-blocked windows (0, 1, 5) sit at block (t, 0),
    the whole-array windows (2, 3, 4, 6, 7) at block (0, 0). -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

private theorem rowOf_val (t : Fin cfg0.N) (r : Fin 5000) : (Cert.Spec.rowOf t.val r).val = t.val * 5000 + r.val := by
  have hN : t.val < 10 := lt_of_lt_of_eq t.isLt (show cfg0.N = 10 from N_0)
  have hr := r.isLt
  show (5000 * t.val + r.val) % 50000 = _
  omega

/-- Row r of the aggregated array's block at point t is row 5000·t + r of the array. -/
private theorem agg_at (c : Dev nD) (t : Fin cfg0.N) (r : Fin 5000) (k : Fin 128) :
    (iblk0 V c 0 t : Vec Ideal S5000x128 .f32) (ix2 r k) = V c main_v22 (ix2 (Cert.Spec.rowOf t.val r) k) := by
  obtain ⟨e0, e1, -⟩ := idx_facts t
  unfold iblk0
  rw [View.read_apply]
  show V c main_v22 _ = V c main_v22 _
  congr 1
  funext a
  apply Fin.ext
  match a with
  | ⟨0, _⟩ => show win0_0.index t (0 : Fin 2) * 5000 + 1 * r.val = (Cert.Spec.rowOf t.val r).val; rw [e0, rowOf_val]; omega
  | ⟨1, _⟩ => show win0_0.index t (1 : Fin 2) * 128 + 1 * k.val = k.val; rw [e1]; omega

/-- Likewise for the layer input's block. -/
private theorem x_at (c : Dev nD) (t : Fin cfg0.N) (r : Fin 5000) (k : Fin 128) :
    (iblk0 V c 1 t : Vec Ideal S5000x128 .f32) (ix2 r k) = V c main_arg0 (ix2 (Cert.Spec.rowOf t.val r) k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 5000 + 1 * r.val = (Cert.Spec.rowOf t.val r).val; rw [e0, rowOf_val]; omega
  | ⟨1, _⟩ => show win0_1.index t (1 : Fin 2) * 128 + 1 * k.val = k.val; rw [e1]; omega

/-- The two weight matrices and the bias row are read whole at every point. -/
private theorem wl_eq (c : Dev nD) (t : Fin cfg0.N) : (iblk0 V c 2 t : Vec Ideal S128x128 .bf16) = V c main_v25 := by
  obtain ⟨-, -, -, -, e0, e1, -⟩ := idx_facts t
  funext y
  unfold iblk0
  rw [View.read_apply]
  show V c main_v25 _ = V c main_v25 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

private theorem bl_eq (c : Dev nD) (t : Fin cfg0.N) : (iblk0 V c 3 t : Vec Ideal S1x128 .f32) = V c main_v31 := by
  obtain ⟨-, -, -, -, -, -, e0, e1, -⟩ := idx_facts t
  funext y
  unfold iblk0
  rw [View.read_apply]
  show V c main_v31 _ = V c main_v31 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

private theorem wr_eq (c : Dev nD) (t : Fin cfg0.N) : (iblk0 V c 4 t : Vec Ideal S128x128 .bf16) = V c main_v28 := by
  obtain ⟨-, -, -, -, -, -, -, -, e0, e1, -⟩ := idx_facts t
  funext y
  unfold iblk0
  rw [View.read_apply]
  show V c main_v28 _ = V c main_v28 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The block of h the body computes at point t. -/
private abbrev hB (c : Dev nD) (t : Fin cfg0.N) : Vec Ideal S5000x128 .f32 :=
  k0_pay3 (F := Ideal) (iblk0 V c 0 t) (iblk0 V c 1 t) (iblk0 V c 2 t) (iblk0 V c 3 t) (iblk0 V c 4 t)

/-- Row r of that block is row 5000·t + r of the affine map of the arrays. -/
private theorem hB_at (c : Dev nD) (t : Fin cfg0.N) (r : Fin 5000) (j : Fin 128) :
    hB V c t (ix2 r j) = hOf V c (ix2 (Cert.Spec.rowOf t.val r) j) := by
  refine (pay3_at (iblk0 V c 0 t) (iblk0 V c 1 t) (iblk0 V c 2 t) (iblk0 V c 3 t) (iblk0 V c 4 t) r j).trans ?_
  show _ = Cert.Spec.affineAt (V c main_v22) (V c main_arg0) (V c main_v25) (V c main_v28) (V c main_v31) (Cert.Spec.rowOf t.val r) j
  unfold Cert.Spec.affineAt
  simp only [agg_at, x_at, wl_eq, bl_eq, wr_eq]

end Blocks

section Run

/-- Column sums accumulated over the blocks 0 … n from zero. -/
private def sumRow (f : Cert.Spec.Big) (n : ℕ) : Cert.Spec.Row :=
  fun i => 0 + ∑ s ∈ Finset.range (n + 1), Cert.Spec.blockSum f s (i 1)

private theorem blockSum_hB (c : Dev nD) (t : Fin cfg0.N) (j : Fin 128) :
    ∑ r : Fin 5000, hB V c t (ix2 r j) = Cert.Spec.blockSum (hOf V c) t.val j :=
  Finset.sum_congr rfl fun r _ => hB_at V c t r j

private theorem blockSumSq_hB (c : Dev nD) (t : Fin cfg0.N) (j : Fin 128) :
    ∑ r : Fin 5000, hB V c t (ix2 r j) * hB V c t (ix2 r j) = Cert.Spec.blockSum (Cert.Spec.sq (hOf V c)) t.val j :=
  Finset.sum_congr rfl fun r _ => by rw [hB_at]; rfl

/-- What the three output staging buffers hold after point n: block n of h, and the column sums of h and of h² over
    the blocks 0 … n from zero: by induction on the point (point 0 resets and adds, every later point adds). -/
private theorem outsAt_eq (c : Dev nD) : ∀ (n : ℕ) (h : n < cfg0.N),
    (outsAt0 V c n h).1 = hB V c ⟨n, h⟩
    ∧ (outsAt0 V c n h).2.1 = sumRow (hOf V c) n
    ∧ (outsAt0 V c n h).2.2 = sumRow (Cert.Spec.sq (hOf V c)) n
  | 0, h => by
    have h0 : (⟨0, h⟩ : Fin cfg0.N).val % 10 = 0 := rfl
    rw [outsAt0_A V c (⟨0, h⟩ : Fin cfg0.N) h0]
    dsimp only
    refine ⟨?_, ?_, ?_⟩
    · exact out_A_5 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr h0) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))
    · refine (out_A_6 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr h0) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))).trans ?_
      funext i
      obtain ⟨z, j, rfl⟩ : ∃ (z : Fin 1) (j : Fin 128), i = ix2 z j := ⟨i 0, i 1, eq_ix2 i⟩
      obtain rfl : z = 0 := Subsingleton.elim _ _
      refine (pay4_at (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (k0_pay1 (F := Ideal)) j).trans ?_
      show Ideal.ofBits .f32 0x00000000#32 + ∑ r : Fin 5000, hB V c (⟨0, h⟩ : Fin cfg0.N) (ix2 r j)
        = 0 + ∑ s ∈ Finset.range 1, Cert.Spec.blockSum (hOf V c) s j
      rw [Ideal.ofBits_zero_f32, Finset.sum_range_one, blockSum_hB]
    · refine (out_A_7 (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) ((hcond0_0 (⟨0, h⟩ : Fin cfg0.N)).mpr h0) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N))).trans ?_
      funext i
      obtain ⟨z, j, rfl⟩ : ∃ (z : Fin 1) (j : Fin 128), i = ix2 z j := ⟨i 0, i 1, eq_ix2 i⟩
      obtain rfl : z = 0 := Subsingleton.elim _ _
      refine (pay5_at (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (k0_pay2 (F := Ideal)) j).trans ?_
      show Ideal.ofBits .f32 0x00000000#32 + ∑ r : Fin 5000, hB V c (⟨0, h⟩ : Fin cfg0.N) (ix2 r j) * hB V c (⟨0, h⟩ : Fin cfg0.N) (ix2 r j)
        = 0 + ∑ s ∈ Finset.range 1, Cert.Spec.blockSum (Cert.Spec.sq (hOf V c)) s j
      rw [Ideal.ofBits_zero_f32, Finset.sum_range_one, blockSumSq_hB]
  | n + 1, h => by
    have hN : cfg0.N = 10 := N_0
    have h0 : ¬(⟨n + 1, h⟩ : Fin cfg0.N).val % 10 = 0 := by dsimp only; omega
    obtain ⟨-, ih1, ih2⟩ := outsAt_eq c n (Nat.lt_of_succ_lt h)
    rw [outsAt0_B V c (⟨n + 1, h⟩ : Fin cfg0.N) h0]
    dsimp only
    refine ⟨?_, ?_, ?_⟩
    · exact out_B_5 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => h0 ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) _ _
    · refine (out_B_6 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => h0 ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) _ _).trans ?_
      funext i
      obtain ⟨z, j, rfl⟩ : ∃ (z : Fin 1) (j : Fin 128), i = ix2 z j := ⟨i 0, i 1, eq_ix2 i⟩
      obtain rfl : z = 0 := Subsingleton.elim _ _
      refine (pay4_at (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) _ j).trans ?_
      show (outsAt0 V c n (Nat.lt_of_succ_lt h)).2.1 (ix2 0 j) + ∑ r : Fin 5000, hB V c (⟨n + 1, h⟩ : Fin cfg0.N) (ix2 r j)
        = 0 + ∑ s ∈ Finset.range (n + 1 + 1), Cert.Spec.blockSum (hOf V c) s j
      rw [ih1, blockSum_hB, Finset.sum_range_succ _ (n + 1), ← add_assoc]
      rfl
    · refine (out_B_7 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (fun hh => h0 ((hcond0_0 (⟨n + 1, h⟩ : Fin cfg0.N)).mp hh)) (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) _ _).trans ?_
      funext i
      obtain ⟨z, j, rfl⟩ : ∃ (z : Fin 1) (j : Fin 128), i = ix2 z j := ⟨i 0, i 1, eq_ix2 i⟩
      obtain rfl : z = 0 := Subsingleton.elim _ _
      refine (pay5_at (iblk0 V c 0 (⟨n + 1, h⟩ : Fin cfg0.N)) (iblk0 V c 1 (⟨n + 1, h⟩ : Fin cfg0.N)) (iblk0 V c 2 (⟨n + 1, h⟩ : Fin cfg0.N)) (iblk0 V c 3 (⟨n + 1, h⟩ : Fin cfg0.N)) (iblk0 V c 4 (⟨n + 1, h⟩ : Fin cfg0.N)) _ j).trans ?_
      show (outsAt0 V c n (Nat.lt_of_succ_lt h)).2.2 (ix2 0 j) + ∑ r : Fin 5000, hB V c (⟨n + 1, h⟩ : Fin cfg0.N) (ix2 r j) * hB V c (⟨n + 1, h⟩ : Fin cfg0.N) (ix2 r j)
        = 0 + ∑ s ∈ Finset.range (n + 1 + 1), Cert.Spec.blockSum (Cert.Spec.sq (hOf V c)) s j
      rw [ih2, blockSumSq_hB, Finset.sum_range_succ _ (n + 1), ← add_assoc]
      rfl

end Run

section Final

/-- An entry of the block of h at point t is the affine map where the output window's block sits in the array. -/
private theorem hB_read (c : Dev nD) (t : Fin cfg0.N) (y : S5000x128.Idx) :
    hB V c t y = hOf V c (((cfg0.win 5).blk t).view.emb y) := by
  obtain ⟨r, j, rfl⟩ : ∃ (r : Fin 5000) (j : Fin 128), y = ix2 r j := ⟨y 0, y 1, eq_ix2 y⟩
  obtain ⟨-, -, -, -, -, -, -, -, -, -, e0, e1, -⟩ := idx_facts t
  rw [hB_at]
  congr 1
  funext a
  apply Fin.ext
  match a with
  | ⟨0, _⟩ => show (Cert.Spec.rowOf t.val r).val = win0_5.index t (0 : Fin 2) * 5000 + 1 * r.val; rw [e0, rowOf_val]; omega
  | ⟨1, _⟩ => show j.val = win0_5.index t (1 : Fin 2) * 128 + 1 * j.val; rw [e1]; omega

/-- What point t writes back of h is block t of the affine map of the arrays. -/
private theorem flushed5_eq (c : Dev nD) (t : Fin cfg0.N) (hf : (cfg0.win 5).flush t = true) :
    (dat0 V c).flushed 5 t = ((cfg0.win 5).blk t).view.read (Elt Ideal) (hOf V c) := by
  show (cfg0.win 5).cut (grid0.coords t) ((dat0 V c).after 5 t) = _
  rw [after0_5, (outsAt_eq V c t.val t.isLt).1]
  funext y
  exact hB_read V c t y

/-- An index of the [50000,128] array is in point t's block iff each coordinate is in the block's range. -/
private theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v32_0).slice (win0_5.rect t)).set ↔ _
  rw [View.set_slice_whole, Rect.mem_set_unit]
  exact Iff.rfl

/-- Row n of the array lies in the block of point n / 5000. -/
private theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by omega⟩, flush0_5 _, ?_⟩
  rw [mem_blk5]
  obtain ⟨-, -, -, -, -, -, -, -, -, -, e0, e1, -⟩ := idx_facts ⟨(i 0).val / 5000, by omega⟩
  intro a
  match a with
  | ⟨0, _⟩ => show win0_5.index _ (0 : Fin 2) * 5000 ≤ (i 0).val ∧ (i 0).val < win0_5.index _ (0 : Fin 2) * 5000 + 5000; rw [e0]; dsimp only; omega
  | ⟨1, _⟩ => show win0_5.index _ (1 : Fin 2) * 128 ≤ (i 1).val ∧ (i 1).val < win0_5.index _ (1 : Fin 2) * 128 + 128; rw [e1]; omega

/-- The one write-back of the column sums, at the last point, writes the sums over all ten blocks: block (0, 0) of the
    [1,128] array read through zero offsets is the array. -/
private theorem flushed6_eq (c : Dev nD) (t : Fin cfg0.N) (hf : (cfg0.win 6).flush t = true) :
    (dat0 V c).flushed 6 t = ((cfg0.win 6).blk t).view.read (Elt Ideal) (Cert.Spec.kSumRow (hOf V c)) := by
  have hN : cfg0.N = 10 := N_0
  have h9 : t.val = 9 := by have := (flush0_6 t).mp hf; have := t.isLt; omega
  obtain rfl : t = t0_9 := Fin.ext h9
  show (cfg0.win 6).cut (grid0.coords t0_9) ((dat0 V c).after 6 t0_9) = _
  rw [after0_6, (outsAt_eq V c t0_9.val t0_9.isLt).2.1]
  have hz' : (fun a => win0_6.index t0_9 a * main_v32_1.ty.shape.size a) = fun _ => 0 := funext fun a => by fin_cases a <;> decide
  exact (Memref.read_access_unit_zero (Elt Ideal) main_v32_1 hz' (fun a => by rw [congrFun hz' a]; simp) (Cert.Spec.kSumRow (hOf V c))).symm

/-- The last point's block is the whole [1,128] array. -/
private theorem cover6 (i : S1x128.Idx) : ∃ t : Fin cfg0.N, (cfg0.win 6).flush t = true ∧ i ∈ ((cfg0.win 6).blk t).view.set :=
  ⟨t0_9, (flush0_6 t0_9).mpr rfl, by
    show i ∈ ((View.whole main_v32_1).slice (win0_6.rect t0_9)).set
    rw [View.set_slice_whole, Rect.mem_set_unit]
    intro a
    have h0 : (i 0 : Nat) < 1 := (i 0).isLt
    have h1 : (i 1 : Nat) < 128 := (i 1).isLt
    match a with
    | ⟨0, _⟩ => show win0_6.index t0_9 0 * win0_6.size 0 ≤ (i 0 : Nat) ∧ (i 0 : Nat) < win0_6.index t0_9 0 * win0_6.size 0 + win0_6.xsize (grid0.coords t0_9) 0
                rw [show win0_6.index t0_9 0 * win0_6.size 0 = 0 from by decide +kernel, show win0_6.xsize (grid0.coords t0_9) 0 = 1 from by decide +kernel]; omega
    | ⟨1, _⟩ => show win0_6.index t0_9 1 * win0_6.size 1 ≤ (i 1 : Nat) ∧ (i 1 : Nat) < win0_6.index t0_9 1 * win0_6.size 1 + win0_6.xsize (grid0.coords t0_9) 1
                rw [show win0_6.index t0_9 1 * win0_6.size 1 = 0 from by decide +kernel, show win0_6.xsize (grid0.coords t0_9) 1 = 128 from by decide +kernel]; omega⟩

/-- The one write-back of the column sums of squares, at the last point, writes the sums over all ten blocks: block (0, 0) of the
    [1,128] array read through zero offsets is the array. -/
private theorem flushed7_eq (c : Dev nD) (t : Fin cfg0.N) (hf : (cfg0.win 7).flush t = true) :
    (dat0 V c).flushed 7 t = ((cfg0.win 7).blk t).view.read (Elt Ideal) (Cert.Spec.kSumRow (Cert.Spec.sq (hOf V c))) := by
  have hN : cfg0.N = 10 := N_0
  have h9 : t.val = 9 := by have := (flush0_7 t).mp hf; have := t.isLt; omega
  obtain rfl : t = t0_9 := Fin.ext h9
  show (cfg0.win 7).cut (grid0.coords t0_9) ((dat0 V c).after 7 t0_9) = _
  rw [after0_7, (outsAt_eq V c t0_9.val t0_9.isLt).2.2]
  have hz' : (fun a => win0_7.index t0_9 a * main_v32_2.ty.shape.size a) = fun _ => 0 := funext fun a => by fin_cases a <;> decide
  exact (Memref.read_access_unit_zero (Elt Ideal) main_v32_2 hz' (fun a => by rw [congrFun hz' a]; simp) (Cert.Spec.kSumRow (Cert.Spec.sq (hOf V c)))).symm

/-- The last point's block is the whole [1,128] array. -/
private theorem cover7 (i : S1x128.Idx) : ∃ t : Fin cfg0.N, (cfg0.win 7).flush t = true ∧ i ∈ ((cfg0.win 7).blk t).view.set :=
  ⟨t0_9, (flush0_7 t0_9).mpr rfl, by
    show i ∈ ((View.whole main_v32_2).slice (win0_7.rect t0_9)).set
    rw [View.set_slice_whole, Rect.mem_set_unit]
    intro a
    have h0 : (i 0 : Nat) < 1 := (i 0).isLt
    have h1 : (i 1 : Nat) < 128 := (i 1).isLt
    match a with
    | ⟨0, _⟩ => show win0_7.index t0_9 0 * win0_7.size 0 ≤ (i 0 : Nat) ∧ (i 0 : Nat) < win0_7.index t0_9 0 * win0_7.size 0 + win0_7.xsize (grid0.coords t0_9) 0
                rw [show win0_7.index t0_9 0 * win0_7.size 0 = 0 from by decide +kernel, show win0_7.xsize (grid0.coords t0_9) 0 = 1 from by decide +kernel]; omega
    | ⟨1, _⟩ => show win0_7.index t0_9 1 * win0_7.size 1 ≤ (i 1 : Nat) ∧ (i 1 : Nat) < win0_7.index t0_9 1 * win0_7.size 1 + win0_7.xsize (grid0.coords t0_9) 1
                rw [show win0_7.index t0_9 1 * win0_7.size 1 = 0 from by decide +kernel, show win0_7.xsize (grid0.coords t0_9) 1 = 128 from by decide +kernel]; omega⟩

end Final

/-- Output 5 (the [50000,128] array h) after the region: the affine map, row block by row block. -/
theorem h_out (c : Dev nD) : (dat0 V c).arrAt 5 cfg0.N = hOf V c := by
  exact (dat0 V c).arrAt_eq_of_cover 5 (hOf V c) (flushed5_eq V c) cover5

/-- Output 6 (the [1,128] column sums of h) after the region: accumulated over the ten row blocks from zero. -/
theorem sum_out (c : Dev nD) : (dat0 V c).arrAt 6 cfg0.N = Cert.Spec.kSumRow (hOf V c) := by
  exact (dat0 V c).arrAt_eq_of_cover 6 (Cert.Spec.kSumRow (hOf V c)) (flushed6_eq V c) cover6

/-- Output 7 (the [1,128] column sums of h²) after the region. -/
theorem sumsq_out (c : Dev nD) : (dat0 V c).arrAt 7 cfg0.N = Cert.Spec.kSumRow (Cert.Spec.sq (hOf V c)) := by
  exact (dat0 V c).arrAt_eq_of_cover 7 (Cert.Spec.kSumRow (Cert.Spec.sq (hOf V c))) (flushed7_eq V c) cover7

end Cert.KernelIdeal.Region0

end
-- ==== Proof.RegionNorm1.lean ====
import proofs.«430960_j38439957299938_1_alg».proof.Proof.Gen.KernelIdeal.Frame
import proofs.«430960_j38439957299938_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- The zero offset of the body's whole-buffer accesses. -/
theorem off_zero : (![0, 0] : Fin 2 → Nat) = fun _ => 0 := funext fun a => by fin_cases a <;> rfl

/-- A [1,128] row broadcast over the rows reads the row's entry of the same feature. -/
theorem bcast_row (x : FVec Ideal S1x128 .f32) (r : Fin 5000) (j : Fin 128) :
    broadcastTo S5000x128 x broadcasts_S1x128_S5000x128 (ix2 r j) = x (ix2 0 j) := by
  refine broadcastTo_apply x _ (ix2 r j) (ix2 0 j) ?_
  intro a
  match a with
  | ⟨0, _⟩ => rfl
  | ⟨1, _⟩ => rfl

/-- The body's arithmetic at row r, feature j of a block: γ_j (h − μ_j) rsqrt(v_j + ε) + β_j, clamped at zero. -/
theorem pay_apply (x0 : Vec Ideal S5000x128 .f32) (xv xg xm xb : Vec Ideal S1x128 .f32) (r : Fin 5000) (j : Fin 128) :
    k1_pay1 (F := Ideal) x0 xv xg xm xb (ix2 r j)
      = max (((xg (ix2 0 j) * (x0 (ix2 r j) - xm (ix2 0 j))) * Ideal.rsqrt (xv (ix2 0 j) + Cert.Spec.cEps)) + xb (ix2 0 j)) 0 := by
  unfold k1_pay1
  simp only [shapeCast_self]
  rw [maximumf_apply, addf_apply, mulf_apply, mulf_apply, subf_apply, bcast_row, bcast_row, bcast_row, bcast_row,
    broadcast_apply]
  show max (_ * Ideal.rsqrt (xv (ix2 0 j) + Cert.Spec.cEps) + _) (Ideal.ofBits .f32 0#32) = _
  rw [Ideal.ofBits_zero_f32]

/-- The body's arithmetic at an index y of a block is the normalization at an index i of the arrays, when the block's
    entry at y is the array's at i, the two have the same feature, and the four row buffers are the four row arrays. -/
theorem pay_eq_norm (x0 : Vec Ideal S5000x128 .f32) (xv xg xm xb : Vec Ideal S1x128 .f32)
    (h : Cert.Spec.Big) (mu var ga be : Cert.Spec.Row) (y : S5000x128.Idx) (i : S50000x128.Idx)
    (hj : (y 1).val = (i 1).val) (e0 : x0 y = h i)
    (em : ∀ k, xm k = mu k) (ev : ∀ k, xv k = var k) (eg : ∀ k, xg k = ga k) (eb : ∀ k, xb k = be k) :
    k1_pay1 (F := Ideal) x0 xv xg xm xb y = Cert.Spec.norm h mu var ga be i := by
  obtain ⟨r, j, rfl⟩ : ∃ (r : Fin 5000) (j : Fin 128), y = ix2 r j := ⟨y 0, y 1, eq_ix2 y⟩
  obtain ⟨n, j', rfl⟩ : ∃ (n : Fin 50000) (j' : Fin 128), i = ix2 n j' := ⟨i 0, i 1, eq_ix2 i⟩
  obtain rfl : j = j' := Fin.ext hj
  rw [pay_apply, e0, em, ev, eg, eb]
  rfl

/-- The printed index maps over the grid: the block of h and the output block are block t of the rows, the four
    row windows are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the normalized array: the h block is read where the output block lies, and
    the four rows are read whole. -/
theorem flushed_eq (c : Dev nD) (t : Fin cfg1.N) :
    (dat1 V c).flushed 5 t = ((cfg1.win 5).blk t).view.read (Elt Ideal)
      (Cert.Spec.norm (V c main_v32_0) (V c main_v34) (V c main_v38) (V c main_v43) (V c main_v44)) := by
  show (cfg1.win 5).cut (grid1.coords t) ((dat1 V c).after 5 t) = _
  rw [after1_5]
  unfold out1_5
  rw [View.canon_unit_zero off_zero]
  simp only [View.ld_unit_zero (S := S5000x128) off_zero, View.ld_unit_zero (S := S1x128) off_zero]
  obtain ⟨a0, a1, b0, b1, c0, c1, d0, d1, f0, f1, g0, g1⟩ := idx_facts t
  funext y
  refine pay_eq_norm (iblk1 V c 0 t) (iblk1 V c 2 t) (iblk1 V c 3 t) (iblk1 V c 1 t) (iblk1 V c 4 t)
    (V c main_v32_0) (V c main_v34) (V c main_v38) (V c main_v43) (V c main_v44) y (((cfg1.win 5).blk t).view.emb y)
    ?_ ?_ ?_ ?_ ?_ ?_
  · show (y 1).val = win1_5.index t (1 : Fin 2) * 128 + 1 * (y 1).val
    omega
  · show V c main_v32_0 (((cfg1.win 0).blk t).view.emb y) = V c main_v32_0 (((cfg1.win 5).blk t).view.emb y)
    refine congrArg _ (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * (y 1).val = win1_5.index t (1 : Fin 2) * 128 + 1 * (y 1).val; omega
  · intro k
    show V c main_v34 (((cfg1.win 1).blk t).view.emb k) = V c main_v34 k
    refine congrArg _ (funext fun a => Fin.ext ?_)
    match a with
    | ⟨0, _⟩ => show win1_1.index t (0 : Fin 2) * 1 + 1 * (k 0).val = (k 0).val; omega
    | ⟨1, _⟩ => show win1_1.index t (1 : Fin 2) * 128 + 1 * (k 1).val = (k 1).val; omega
  · intro k
    show V c main_v38 (((cfg1.win 2).blk t).view.emb k) = V c main_v38 k
    refine congrArg _ (funext fun a => Fin.ext ?_)
    match a with
    | ⟨0, _⟩ => show win1_2.index t (0 : Fin 2) * 1 + 1 * (k 0).val = (k 0).val; omega
    | ⟨1, _⟩ => show win1_2.index t (1 : Fin 2) * 128 + 1 * (k 1).val = (k 1).val; omega
  · intro k
    show V c main_v43 (((cfg1.win 3).blk t).view.emb k) = V c main_v43 k
    refine congrArg _ (funext fun a => Fin.ext ?_)
    match a with
    | ⟨0, _⟩ => show win1_3.index t (0 : Fin 2) * 1 + 1 * (k 0).val = (k 0).val; omega
    | ⟨1, _⟩ => show win1_3.index t (1 : Fin 2) * 128 + 1 * (k 1).val = (k 1).val; omega
  · intro k
    show V c main_v44 (((cfg1.win 4).blk t).view.emb k) = V c main_v44 k
    refine congrArg _ (funext fun a => Fin.ext ?_)
    match a with
    | ⟨0, _⟩ => show win1_4.index t (0 : Fin 2) * 1 + 1 * (k 0).val = (k 0).val; omega
    | ⟨1, _⟩ => show win1_4.index t (1 : Fin 2) * 128 + 1 * (k 1).val = (k 1).val; omega

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Row n of the array lies in block n / 5000: the ten blocks of 5000 rows tile the 50000 rows. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, g0, g1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Output 5 (the [50000,128] normalized, clamped array) after the region, from the five input arrays as the region finds them. -/
theorem x_out (c : Dev nD) :
    (dat1 V c).arrAt 5 cfg1.N = Cert.Spec.norm (V c main_v32_0) (V c main_v34) (V c main_v38) (V c main_v43) (V c main_v44) :=
  (dat1 V c).arrAt_eq_of_cover 5 _ (fun t _ => flushed_eq V c t) cover

end Cert.KernelIdeal.Region1

end
-- ==== Proof.RegionAffine2.lean ====
import proofs.«430960_j38439957299938_1_alg».proof.Proof.Gen.KernelIdeal.Frame
import proofs.«430960_j38439957299938_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-- The affine map of the region's five input arrays, as the region finds them. -/
abbrev hOf (c : Dev nD) : Cert.Spec.Big :=
  Cert.Spec.affine (V c main_v58) (V c main_v45) (V c main_v61) (V c main_v64) (V c main_v67)

section Pieces
variable {F : FTy → Type} [FloatOps F]

private theorem hz : (![0, 0] : Fin 2 → Nat) = fun _ => 0 := funext fun a => by fin_cases a <;> rfl

private theorem out_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : ¬cond2_0 i) (x0 x1 : Vec F S5000x128 .f32) (x2 : Vec F S128x128 .bf16) (x3 : Vec F S1x128 .f32) (x4 : Vec F S128x128 .bf16) (xo6 xo7 : Vec F S1x128 .f32) :
    out2_B_5 c i arg1 harg1 arg2 harg2 arg3 harg3 arg4 harg4 arg5 harg5 arg6 harg6 arg7 harg7 arg8 harg8 hc x0 x1 x2 x3 x4 xo6 xo7 = k2_pay4 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 hc x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

private theorem out_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : ¬cond2_0 i) (x0 x1 : Vec F S5000x128 .f32) (x2 : Vec F S128x128 .bf16) (x3 : Vec F S1x128 .f32) (x4 : Vec F S128x128 .bf16) (xo6 xo7 : Vec F S1x128 .f32) :
    out2_B_6 c i arg1 harg1 arg2 harg2 arg3 harg3 arg4 harg4 arg5 harg5 arg6 harg6 arg7 harg7 arg8 harg8 hc x0 x1 x2 x3 x4 xo6 xo7 = k2_pay5 x0 x1 x2 x3 x4 xo6 := by
  unfold out2_B_6
  rw [View.read_writes_eq_canon _ _ _ (cover2_B_6 c i arg1 harg1 arg2 harg2 arg3 harg3 arg4 harg4 arg5 harg5 arg6 harg6 arg7 harg7 arg8 harg8 hc x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

private theorem out_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : ¬cond2_0 i) (x0 x1 : Vec F S5000x128 .f32) (x2 : Vec F S128x128 .bf16) (x3 : Vec F S1x128 .f32) (x4 : Vec F S128x128 .bf16) (xo6 xo7 : Vec F S1x128 .f32) :
    out2_B_7 c i arg1 harg1 arg2 harg2 arg3 harg3 arg4 harg4 arg5 harg5 arg6 harg6 arg7 harg7 arg8 harg8 hc x0 x1 x2 x3 x4 xo6 xo7 = k2_pay1 (k2_pay6 xo7) (k2_pay7 x0 x1 x2 x3 x4) := by
  unfold out2_B_7
  rw [View.read_writes_eq_canon _ _ _ (cover2_B_7 c i arg1 harg1 arg2 harg2 arg3 harg3 arg4 harg4 arg5 harg5 arg6 harg6 arg7 harg7 arg8 harg8 hc x0 x1 x2 x3 x4 xo6 xo7)]
  unfold kernelRun2_B
  dsimp only
  sl_unfold_words
  rw [View.canon_unit_zero hz]
  simp only [View.readAt_eq_ld, harg1.read_unread, harg2.read_unread, harg3.read_unread, harg4.read_unread, harg5.read_unread, harg7.read_unread, harg8.read_unread, View.ld_unit_zero (S := S5000x128) hz, View.ld_unit_zero (S := S128x128) hz, View.ld_unit_zero (S := S1x128) hz]

private theorem out_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : cond2_0 i) (x0 x1 : Vec F S5000x128 .f32) (x2 : Vec F S128x128 .bf16) (x3 : Vec F S1x128 .f32) (x4 : Vec F S128x128 .bf16) :
    out2_A_5 c i arg1 harg1 arg2 harg2 arg3 harg3 arg4 harg4 arg5 harg5 arg6 harg6 arg7 harg7 arg8 harg8 hc x0 x1 x2 x3 x4 = k2_pay4 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 hc x0 x1 x2 x3 x4)]
  unfold kernelRun2_A
  dsimp only
  sl_unfold_words
  rw [View.canon_unit_zero hz]
  simp only [View.readAt_eq_ld, harg1.read_unread, harg2.read_unread, harg3.read_unread, harg4.read_unread, harg5.read_unread, View.readCov_unit_zero (S := S1x128) _ hz, View.ld_unit_zero (S := S5000x128) hz, View.ld_unit_zero (S := S128x128) hz, View.ld_unit_zero (S := S1x128) hz]

private theorem out_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : cond2_0 i) (x0 x1 : Vec F S5000x128 .f32) (x2 : Vec F S128x128 .bf16) (x3 : Vec F S1x128 .f32) (x4 : Vec F S128x128 .bf16) :
    out2_A_6 c i arg1 harg1 arg2 harg2 arg3 harg3 arg4 harg4 arg5 harg5 arg6 harg6 arg7 harg7 arg8 harg8 hc x0 x1 x2 x3 x4 = k2_pay5 x0 x1 x2 x3 x4 k2_pay2 := by
  unfold out2_A_6
  rw [View.read_writes_eq_canon _ _ _ (cover2_A_6 c i arg1 harg1 arg2 harg2 arg3 harg3 arg4 harg4 arg5 harg5 arg6 harg6 arg7 harg7 arg8 harg8 hc x0 x1 x2 x3 x4)]
  unfold kernelRun2_A
  dsimp only
  sl_unfold_words
  rw [View.canon_cons_unit_zero (S := S1x128) hz]
  simp only [View.readAt_eq_ld, harg1.read_unread, harg2.read_unread, harg3.read_unread, harg4.read_unread, harg5.read_unread, View.readCov_unit_zero (S := S1x128) _ hz, View.ld_unit_zero (S := S5000x128) hz, View.ld_unit_zero (S := S128x128) hz, View.ld_unit_zero (S := S1x128) hz]

private theorem out_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .bf16) (harg3 : arg3.IsWhole) (arg4 : Memref sig .tc .vmem S1x128 .f32) (harg4 : arg4.IsWhole) (arg5 : Memref sig .tc .vmem S128x128 .bf16) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc : cond2_0 i) (x0 x1 : Vec F S5000x128 .f32) (x2 : Vec F S128x128 .bf16) (x3 : Vec F S1x128 .f32) (x4 : Vec F S128x128 .bf16) :
    out2_A_7 c i arg1 harg1 arg2 harg2 arg3 harg3 arg4 harg4 arg5 harg5 arg6 harg6 arg7 harg7 arg8 harg8 hc x0 x1 x2 x3 x4 = k2_pay1 (k2_pay6 k2_pay3) (k2_pay7 x0 x1 x2 x3 x4) := by
  unfold out2_A_7
  rw [View.read_writes_eq_canon _ _ _ (cover2_A_7 c i arg1 harg1 arg2 harg2 arg3 harg3 arg4 harg4 arg5 harg5 arg6 harg6 arg7 harg7 arg8 harg8 hc x0 x1 x2 x3 x4)]
  unfold kernelRun2_A
  dsimp only
  sl_unfold_words
  rw [View.canon_cons_unit_zero (S := S1x128) hz]
  simp only [View.readAt_eq_ld, harg1.read_unread, harg2.read_unread, harg3.read_unread, harg4.read_unread, harg5.read_unread, View.readCov_unit_zero (S := S1x128) _ hz, View.ld_unit_zero (S := S5000x128) hz, View.ld_unit_zero (S := S128x128) hz, View.ld_unit_zero (S := S1x128) hz]

end Pieces

section Payload

/-- The dot's operand indices at an output index (r, j) and contraction index k: lhs (r, k), rhs (k, j). -/
private theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into the zero block, at row r and feature j: the sum over the 128 contracted features. -/
private theorem matmul_at (a : FVec Ideal S5000x128 .bf16) (w : FVec Ideal S128x128 .bf16) (r : Fin 5000) (j : Fin 128) :
    matmul dot_S5000x128_S128x128_S5000x128_1_0_0_1_n_n none a w (constant (F := Ideal) S5000x128 .f32 0x00000000#32) (ix2 r j)
      = ∑ k : Fin 128, a (ix2 r k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-- The stored block at row r, feature j: (Σ_k agg[r,k]·wl[k,j] + bl[0,j]) + Σ_k x[r,k]·wr[k,j]. -/
private theorem pay3_at (agg x : Vec Ideal S5000x128 .f32) (wl : Vec Ideal S128x128 .bf16) (bl : Vec Ideal S1x128 .f32)
    (wr : Vec Ideal S128x128 .bf16) (r : Fin 5000) (j : Fin 128) :
    k2_pay4 (F := Ideal) agg x wl bl wr (ix2 r j)
      = ((∑ k : Fin 128, agg (ix2 r k) * wl (ix2 k j)) + bl (ix2 0 j)) + ∑ k : Fin 128, x (ix2 r k) * wr (ix2 k j) := by
  unfold k2_pay4
  simp only [shapeCast_self]
  rw [addf_apply, addf_apply, matmul_at, matmul_at,
    broadcastTo_apply bl broadcasts_S1x128_S5000x128 (ix2 r j) (ix2 0 j) (fun a => by match a with | ⟨0, _⟩ => rfl | ⟨1, _⟩ => rfl)]
  rfl

/-- The column sums of a [5000,128] block, as a [1,128] row, at feature j: the sum over the block's 5000 rows. -/
private theorem colsum_at (src : FVec Ideal S5000x128 .f32) (hφ : FKind.Formats .f32)
    (hacc : (0x00000000#32 : BitVec 32) = FKind.add.neutral .f32 hφ) (j : Fin 128) :
    shapeCast S1x128 (multiReduction (F := Ideal) .add [0] S128 src 0x00000000#32 reduces_S5000x128_S128 hφ hacc) shapeCasts_S128_S1x128 (ix2 0 j)
      = ∑ r : Fin 5000, src (ix2 r j) := by
  refine (shapeCast_addUnit_apply ![128] _ shapeCasts_S128_S1x128 (ix2 0 j)).trans ?_
  refine (Ideal.multiReduction_add_single src 0x00000000#32 reduces_S5000x128_S128 hφ hacc _).trans ?_
  exact Finset.sum_congr rfl fun r _ => congrArg src (funext fun a => by match a with | ⟨0, _⟩ => rfl | ⟨1, _⟩ => rfl)

/-- A block's column sums added to a carried row, at feature j. -/
private theorem pay4_at (agg x : Vec Ideal S5000x128 .f32) (wl : Vec Ideal S128x128 .bf16) (bl : Vec Ideal S1x128 .f32)
    (wr : Vec Ideal S128x128 .bf16) (acc : Vec Ideal S1x128 .f32) (j : Fin 128) :
    k2_pay5 (F := Ideal) agg x wl bl wr acc (ix2 0 j)
      = acc (ix2 0 j) + ∑ r : Fin 5000, k2_pay4 (F := Ideal) agg x wl bl wr (ix2 r j) := by
  unfold k2_pay5
  simp only [shapeCast_self]
  rw [addf_apply]
  exact congrArg (fun t : EReal => acc (ix2 0 j) + t) (colsum_at _ _ _ j)

/-- A block's column sums of squares added to a carried row, at feature j. -/
private theorem pay5_at (agg x : Vec Ideal S5000x128 .f32) (wl : Vec Ideal S128x128 .bf16) (bl : Vec Ideal S1x128 .f32)
    (wr : Vec Ideal S128x128 .bf16) (acc : Vec Ideal S1x128 .f32) (j : Fin 128) :
    k2_pay1 (F := Ideal) (k2_pay6 acc) (k2_pay7 agg x wl bl wr) (ix2 0 j)
      = acc (ix2 0 j) + ∑ r : Fin 5000, k2_pay4 (F := Ideal) agg x wl bl wr (ix2 r j) * k2_pay4 (F := Ideal) agg x wl bl wr (ix2 r j) := by
  unfold k2_pay1 k2_pay6 k2_pay7
  simp only [shapeCast_self]
  rw [addf_apply]
  exact congrArg (fun t : EReal => acc (ix2 0 j) + t) (colsum_at _ _ _ j)

end Payload

section Blocks

/-- The printed index maps, decided over the ten grid points: the row-blocked windows (0, 1, 5) sit at block (t, 0),
    the whole-array windows (2, 3, 4, 6, 7) at block (0, 0). -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

private theorem rowOf_val (t : Fin cfg2.N) (r : Fin 5000) : (Cert.Spec.rowOf t.val r).val = t.val * 5000 + r.val := by
  have hN : t.val < 10 := lt_of_lt_of_eq t.isLt (show cfg2.N = 10 from N_2)
  have hr := r.isLt
  show (5000 * t.val + r.val) % 50000 = _
  omega

/-- Row r of the aggregated array's block at point t is row 5000·t + r of the array. -/
private theorem agg_at (c : Dev nD) (t : Fin cfg2.N) (r : Fin 5000) (k : Fin 128) :
    (iblk2 V c 0 t : Vec Ideal S5000x128 .f32) (ix2 r k) = V c main_v58 (ix2 (Cert.Spec.rowOf t.val r) k) := by
  obtain ⟨e0, e1, -⟩ := idx_facts t
  unfold iblk2
  rw [View.read_apply]
  show V c main_v58 _ = V c main_v58 _
  congr 1
  funext a
  apply Fin.ext
  match a with
  | ⟨0, _⟩ => show win2_0.index t (0 : Fin 2) * 5000 + 1 * r.val = (Cert.Spec.rowOf t.val r).val; rw [e0, rowOf_val]; omega
  | ⟨1, _⟩ => show win2_0.index t (1 : Fin 2) * 128 + 1 * k.val = k.val; rw [e1]; omega

/-- Likewise for the layer input's block. -/
private theorem x_at (c : Dev nD) (t : Fin cfg2.N) (r : Fin 5000) (k : Fin 128) :
    (iblk2 V c 1 t : Vec Ideal S5000x128 .f32) (ix2 r k) = V c main_v45 (ix2 (Cert.Spec.rowOf t.val r) k) := by
  obtain ⟨-, -, e0, e1, -⟩ := idx_facts t
  unfold iblk2
  rw [View.read_apply]
  show V c main_v45 _ = V c main_v45 _
  congr 1
  funext a
  apply Fin.ext
  match a with
  | ⟨0, _⟩ => show win2_1.index t (0 : Fin 2) * 5000 + 1 * r.val = (Cert.Spec.rowOf t.val r).val; rw [e0, rowOf_val]; omega
  | ⟨1, _⟩ => show win2_1.index t (1 : Fin 2) * 128 + 1 * k.val = k.val; rw [e1]; omega

/-- The two weight matrices and the bias row are read whole at every point. -/
private theorem wl_eq (c : Dev nD) (t : Fin cfg2.N) : (iblk2 V c 2 t : Vec Ideal S128x128 .bf16) = V c main_v61 := by
  obtain ⟨-, -, -, -, e0, e1, -⟩ := idx_facts t
  funext y
  unfold iblk2
  rw [View.read_apply]
  show V c main_v61 _ = V c main_v61 _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

private theorem bl_eq (c : Dev nD) (t : Fin cfg2.N) : (iblk2 V c 3 t : Vec Ideal S1x128 .f32) = V c main_v67 := by
  obtain ⟨-, -, -, -, -, -, e0, e1, -⟩ := idx_facts t
  funext y
  unfold iblk2
  rw [View.read_apply]
  show V c main_v67 _ = V c main_v67 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

private theorem wr_eq (c : Dev nD) (t : Fin cfg2.N) : (iblk2 V c 4 t : Vec Ideal S128x128 .bf16) = V c main_v64 := by
  obtain ⟨-, -, -, -, -, -, -, -, e0, e1, -⟩ := idx_facts t
  funext y
  unfold iblk2
  rw [View.read_apply]
  show V c main_v64 _ = V c main_v64 _
  congr 1
  funext a
  apply Fin.ext
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- The block of h the body computes at point t. -/
private abbrev hB (c : Dev nD) (t : Fin cfg2.N) : Vec Ideal S5000x128 .f32 :=
  k2_pay4 (F := Ideal) (iblk2 V c 0 t) (iblk2 V c 1 t) (iblk2 V c 2 t) (iblk2 V c 3 t) (iblk2 V c 4 t)

/-- Row r of that block is row 5000·t + r of the affine map of the arrays. -/
private theorem hB_at (c : Dev nD) (t : Fin cfg2.N) (r : Fin 5000) (j : Fin 128) :
    hB V c t (ix2 r j) = hOf V c (ix2 (Cert.Spec.rowOf t.val r) j) := by
  refine (pay3_at (iblk2 V c 0 t) (iblk2 V c 1 t) (iblk2 V c 2 t) (iblk2 V c 3 t) (iblk2 V c 4 t) r j).trans ?_
  show _ = Cert.Spec.affineAt (V c main_v58) (V c main_v45) (V c main_v61) (V c main_v64) (V c main_v67) (Cert.Spec.rowOf t.val r) j
  unfold Cert.Spec.affineAt
  simp only [agg_at, x_at, wl_eq, bl_eq, wr_eq]

end Blocks

section Run

/-- Column sums accumulated over the blocks 0 … n from zero. -/
private def sumRow (f : Cert.Spec.Big) (n : ℕ) : Cert.Spec.Row :=
  fun i => 0 + ∑ s ∈ Finset.range (n + 1), Cert.Spec.blockSum f s (i 1)

private theorem blockSum_hB (c : Dev nD) (t : Fin cfg2.N) (j : Fin 128) :
    ∑ r : Fin 5000, hB V c t (ix2 r j) = Cert.Spec.blockSum (hOf V c) t.val j :=
  Finset.sum_congr rfl fun r _ => hB_at V c t r j

private theorem blockSumSq_hB (c : Dev nD) (t : Fin cfg2.N) (j : Fin 128) :
    ∑ r : Fin 5000, hB V c t (ix2 r j) * hB V c t (ix2 r j) = Cert.Spec.blockSum (Cert.Spec.sq (hOf V c)) t.val j :=
  Finset.sum_congr rfl fun r _ => by rw [hB_at]; rfl

/-- What the three output staging buffers hold after point n: block n of h, and the column sums of h and of h² over
    the blocks 0 … n from zero: by induction on the point (point 0 resets and adds, every later point adds). -/
private theorem outsAt_eq (c : Dev nD) : ∀ (n : ℕ) (h : n < cfg2.N),
    (outsAt2 V c n h).1 = hB V c ⟨n, h⟩
    ∧ (outsAt2 V c n h).2.1 = sumRow (hOf V c) n
    ∧ (outsAt2 V c n h).2.2 = sumRow (Cert.Spec.sq (hOf V c)) n
  | 0, h => by
    have h0 : (⟨0, h⟩ : Fin cfg2.N).val % 10 = 0 := rfl
    rw [outsAt2_A V c (⟨0, h⟩ : Fin cfg2.N) h0]
    dsimp only
    refine ⟨?_, ?_, ?_⟩
    · exact out_A_5 (F := Ideal) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) ((hcond2_0 (⟨0, h⟩ : Fin cfg2.N)).mpr h0) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N))
    · refine (out_A_6 (F := Ideal) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) ((hcond2_0 (⟨0, h⟩ : Fin cfg2.N)).mpr h0) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N))).trans ?_
      funext i
      obtain ⟨z, j, rfl⟩ : ∃ (z : Fin 1) (j : Fin 128), i = ix2 z j := ⟨i 0, i 1, eq_ix2 i⟩
      obtain rfl : z = 0 := Subsingleton.elim _ _
      refine (pay4_at (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N)) (k2_pay2 (F := Ideal)) j).trans ?_
      show Ideal.ofBits .f32 0x00000000#32 + ∑ r : Fin 5000, hB V c (⟨0, h⟩ : Fin cfg2.N) (ix2 r j)
        = 0 + ∑ s ∈ Finset.range 1, Cert.Spec.blockSum (hOf V c) s j
      rw [Ideal.ofBits_zero_f32, Finset.sum_range_one, blockSum_hB]
    · refine (out_A_7 (F := Ideal) c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) ((hcond2_0 (⟨0, h⟩ : Fin cfg2.N)).mpr h0) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N))).trans ?_
      funext i
      obtain ⟨z, j, rfl⟩ : ∃ (z : Fin 1) (j : Fin 128), i = ix2 z j := ⟨i 0, i 1, eq_ix2 i⟩
      obtain rfl : z = 0 := Subsingleton.elim _ _
      refine (pay5_at (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N)) (k2_pay3 (F := Ideal)) j).trans ?_
      show Ideal.ofBits .f32 0x00000000#32 + ∑ r : Fin 5000, hB V c (⟨0, h⟩ : Fin cfg2.N) (ix2 r j) * hB V c (⟨0, h⟩ : Fin cfg2.N) (ix2 r j)
        = 0 + ∑ s ∈ Finset.range 1, Cert.Spec.blockSum (Cert.Spec.sq (hOf V c)) s j
      rw [Ideal.ofBits_zero_f32, Finset.sum_range_one, blockSumSq_hB]
  | n + 1, h => by
    have hN : cfg2.N = 10 := N_2
    have h0 : ¬(⟨n + 1, h⟩ : Fin cfg2.N).val % 10 = 0 := by dsimp only; omega
    obtain ⟨-, ih1, ih2⟩ := outsAt_eq c n (Nat.lt_of_succ_lt h)
    rw [outsAt2_B V c (⟨n + 1, h⟩ : Fin cfg2.N) h0]
    dsimp only
    refine ⟨?_, ?_, ?_⟩
    · exact out_B_5 (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (fun hh => h0 ((hcond2_0 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) _ _
    · refine (out_B_6 (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (fun hh => h0 ((hcond2_0 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) _ _).trans ?_
      funext i
      obtain ⟨z, j, rfl⟩ : ∃ (z : Fin 1) (j : Fin 128), i = ix2 z j := ⟨i 0, i 1, eq_ix2 i⟩
      obtain rfl : z = 0 := Subsingleton.elim _ _
      refine (pay4_at (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) _ j).trans ?_
      show (outsAt2 V c n (Nat.lt_of_succ_lt h)).2.1 (ix2 0 j) + ∑ r : Fin 5000, hB V c (⟨n + 1, h⟩ : Fin cfg2.N) (ix2 r j)
        = 0 + ∑ s ∈ Finset.range (n + 1 + 1), Cert.Spec.blockSum (hOf V c) s j
      rw [ih1, blockSum_hB, Finset.sum_range_succ _ (n + 1), ← add_assoc]
      rfl
    · refine (out_B_7 (F := Ideal) c (grid2.coords (⟨n + 1, h⟩ : Fin cfg2.N)) (ms2_0 (⟨n + 1, h⟩ : Fin cfg2.N)) (hs2_0 (⟨n + 1, h⟩ : Fin cfg2.N)) (ms2_1 (⟨n + 1, h⟩ : Fin cfg2.N)) (hs2_1 (⟨n + 1, h⟩ : Fin cfg2.N)) (ms2_2 (⟨n + 1, h⟩ : Fin cfg2.N)) (hs2_2 (⟨n + 1, h⟩ : Fin cfg2.N)) (ms2_3 (⟨n + 1, h⟩ : Fin cfg2.N)) (hs2_3 (⟨n + 1, h⟩ : Fin cfg2.N)) (ms2_4 (⟨n + 1, h⟩ : Fin cfg2.N)) (hs2_4 (⟨n + 1, h⟩ : Fin cfg2.N)) (ms2_5 (⟨n + 1, h⟩ : Fin cfg2.N)) (hs2_5 (⟨n + 1, h⟩ : Fin cfg2.N)) (ms2_6 (⟨n + 1, h⟩ : Fin cfg2.N)) (hs2_6 (⟨n + 1, h⟩ : Fin cfg2.N)) (ms2_7 (⟨n + 1, h⟩ : Fin cfg2.N)) (hs2_7 (⟨n + 1, h⟩ : Fin cfg2.N)) (fun hh => h0 ((hcond2_0 (⟨n + 1, h⟩ : Fin cfg2.N)).mp hh)) (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) _ _).trans ?_
      funext i
      obtain ⟨z, j, rfl⟩ : ∃ (z : Fin 1) (j : Fin 128), i = ix2 z j := ⟨i 0, i 1, eq_ix2 i⟩
      obtain rfl : z = 0 := Subsingleton.elim _ _
      refine (pay5_at (iblk2 V c 0 (⟨n + 1, h⟩ : Fin cfg2.N)) (iblk2 V c 1 (⟨n + 1, h⟩ : Fin cfg2.N)) (iblk2 V c 2 (⟨n + 1, h⟩ : Fin cfg2.N)) (iblk2 V c 3 (⟨n + 1, h⟩ : Fin cfg2.N)) (iblk2 V c 4 (⟨n + 1, h⟩ : Fin cfg2.N)) _ j).trans ?_
      show (outsAt2 V c n (Nat.lt_of_succ_lt h)).2.2 (ix2 0 j) + ∑ r : Fin 5000, hB V c (⟨n + 1, h⟩ : Fin cfg2.N) (ix2 r j) * hB V c (⟨n + 1, h⟩ : Fin cfg2.N) (ix2 r j)
        = 0 + ∑ s ∈ Finset.range (n + 1 + 1), Cert.Spec.blockSum (Cert.Spec.sq (hOf V c)) s j
      rw [ih2, blockSumSq_hB, Finset.sum_range_succ _ (n + 1), ← add_assoc]
      rfl

end Run

section Final

/-- An entry of the block of h at point t is the affine map where the output window's block sits in the array. -/
private theorem hB_read (c : Dev nD) (t : Fin cfg2.N) (y : S5000x128.Idx) :
    hB V c t y = hOf V c (((cfg2.win 5).blk t).view.emb y) := by
  obtain ⟨r, j, rfl⟩ : ∃ (r : Fin 5000) (j : Fin 128), y = ix2 r j := ⟨y 0, y 1, eq_ix2 y⟩
  obtain ⟨-, -, -, -, -, -, -, -, -, -, e0, e1, -⟩ := idx_facts t
  rw [hB_at]
  congr 1
  funext a
  apply Fin.ext
  match a with
  | ⟨0, _⟩ => show (Cert.Spec.rowOf t.val r).val = win2_5.index t (0 : Fin 2) * 5000 + 1 * r.val; rw [e0, rowOf_val]; omega
  | ⟨1, _⟩ => show j.val = win2_5.index t (1 : Fin 2) * 128 + 1 * j.val; rw [e1]; omega

/-- What point t writes back of h is block t of the affine map of the arrays. -/
private theorem flushed5_eq (c : Dev nD) (t : Fin cfg2.N) (hf : (cfg2.win 5).flush t = true) :
    (dat2 V c).flushed 5 t = ((cfg2.win 5).blk t).view.read (Elt Ideal) (hOf V c) := by
  show (cfg2.win 5).cut (grid2.coords t) ((dat2 V c).after 5 t) = _
  rw [after2_5, (outsAt_eq V c t.val t.isLt).1]
  funext y
  exact hB_read V c t y

/-- An index of the [50000,128] array is in point t's block iff each coordinate is in the block's range. -/
private theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v68_0).slice (win2_5.rect t)).set ↔ _
  rw [View.set_slice_whole, Rect.mem_set_unit]
  exact Iff.rfl

/-- Row n of the array lies in the block of point n / 5000. -/
private theorem cover5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by omega⟩, flush2_5 _, ?_⟩
  rw [mem_blk5]
  obtain ⟨-, -, -, -, -, -, -, -, -, -, e0, e1, -⟩ := idx_facts ⟨(i 0).val / 5000, by omega⟩
  intro a
  match a with
  | ⟨0, _⟩ => show win2_5.index _ (0 : Fin 2) * 5000 ≤ (i 0).val ∧ (i 0).val < win2_5.index _ (0 : Fin 2) * 5000 + 5000; rw [e0]; dsimp only; omega
  | ⟨1, _⟩ => show win2_5.index _ (1 : Fin 2) * 128 ≤ (i 1).val ∧ (i 1).val < win2_5.index _ (1 : Fin 2) * 128 + 128; rw [e1]; omega

/-- The one write-back of the column sums, at the last point, writes the sums over all ten blocks: block (0, 0) of the
    [1,128] array read through zero offsets is the array. -/
private theorem flushed6_eq (c : Dev nD) (t : Fin cfg2.N) (hf : (cfg2.win 6).flush t = true) :
    (dat2 V c).flushed 6 t = ((cfg2.win 6).blk t).view.read (Elt Ideal) (Cert.Spec.kSumRow (hOf V c)) := by
  have hN : cfg2.N = 10 := N_2
  have h9 : t.val = 9 := by have := (flush2_6 t).mp hf; have := t.isLt; omega
  obtain rfl : t = t2_9 := Fin.ext h9
  show (cfg2.win 6).cut (grid2.coords t2_9) ((dat2 V c).after 6 t2_9) = _
  rw [after2_6, (outsAt_eq V c t2_9.val t2_9.isLt).2.1]
  have hz' : (fun a => win2_6.index t2_9 a * main_v68_1.ty.shape.size a) = fun _ => 0 := funext fun a => by fin_cases a <;> decide
  exact (Memref.read_access_unit_zero (Elt Ideal) main_v68_1 hz' (fun a => by rw [congrFun hz' a]; simp) (Cert.Spec.kSumRow (hOf V c))).symm

/-- The last point's block is the whole [1,128] array. -/
private theorem cover6 (i : S1x128.Idx) : ∃ t : Fin cfg2.N, (cfg2.win 6).flush t = true ∧ i ∈ ((cfg2.win 6).blk t).view.set :=
  ⟨t2_9, (flush2_6 t2_9).mpr rfl, by
    show i ∈ ((View.whole main_v68_1).slice (win2_6.rect t2_9)).set
    rw [View.set_slice_whole, Rect.mem_set_unit]
    intro a
    have h0 : (i 0 : Nat) < 1 := (i 0).isLt
    have h1 : (i 1 : Nat) < 128 := (i 1).isLt
    match a with
    | ⟨0, _⟩ => show win2_6.index t2_9 0 * win2_6.size 0 ≤ (i 0 : Nat) ∧ (i 0 : Nat) < win2_6.index t2_9 0 * win2_6.size 0 + win2_6.xsize (grid2.coords t2_9) 0
                rw [show win2_6.index t2_9 0 * win2_6.size 0 = 0 from by decide +kernel, show win2_6.xsize (grid2.coords t2_9) 0 = 1 from by decide +kernel]; omega
    | ⟨1, _⟩ => show win2_6.index t2_9 1 * win2_6.size 1 ≤ (i 1 : Nat) ∧ (i 1 : Nat) < win2_6.index t2_9 1 * win2_6.size 1 + win2_6.xsize (grid2.coords t2_9) 1
                rw [show win2_6.index t2_9 1 * win2_6.size 1 = 0 from by decide +kernel, show win2_6.xsize (grid2.coords t2_9) 1 = 128 from by decide +kernel]; omega⟩

/-- The one write-back of the column sums of squares, at the last point, writes the sums over all ten blocks: block (0, 0) of the
    [1,128] array read through zero offsets is the array. -/
private theorem flushed7_eq (c : Dev nD) (t : Fin cfg2.N) (hf : (cfg2.win 7).flush t = true) :
    (dat2 V c).flushed 7 t = ((cfg2.win 7).blk t).view.read (Elt Ideal) (Cert.Spec.kSumRow (Cert.Spec.sq (hOf V c))) := by
  have hN : cfg2.N = 10 := N_2
  have h9 : t.val = 9 := by have := (flush2_7 t).mp hf; have := t.isLt; omega
  obtain rfl : t = t2_9 := Fin.ext h9
  show (cfg2.win 7).cut (grid2.coords t2_9) ((dat2 V c).after 7 t2_9) = _
  rw [after2_7, (outsAt_eq V c t2_9.val t2_9.isLt).2.2]
  have hz' : (fun a => win2_7.index t2_9 a * main_v68_2.ty.shape.size a) = fun _ => 0 := funext fun a => by fin_cases a <;> decide
  exact (Memref.read_access_unit_zero (Elt Ideal) main_v68_2 hz' (fun a => by rw [congrFun hz' a]; simp) (Cert.Spec.kSumRow (Cert.Spec.sq (hOf V c)))).symm

/-- The last point's block is the whole [1,128] array. -/
private theorem cover7 (i : S1x128.Idx) : ∃ t : Fin cfg2.N, (cfg2.win 7).flush t = true ∧ i ∈ ((cfg2.win 7).blk t).view.set :=
  ⟨t2_9, (flush2_7 t2_9).mpr rfl, by
    show i ∈ ((View.whole main_v68_2).slice (win2_7.rect t2_9)).set
    rw [View.set_slice_whole, Rect.mem_set_unit]
    intro a
    have h0 : (i 0 : Nat) < 1 := (i 0).isLt
    have h1 : (i 1 : Nat) < 128 := (i 1).isLt
    match a with
    | ⟨0, _⟩ => show win2_7.index t2_9 0 * win2_7.size 0 ≤ (i 0 : Nat) ∧ (i 0 : Nat) < win2_7.index t2_9 0 * win2_7.size 0 + win2_7.xsize (grid2.coords t2_9) 0
                rw [show win2_7.index t2_9 0 * win2_7.size 0 = 0 from by decide +kernel, show win2_7.xsize (grid2.coords t2_9) 0 = 1 from by decide +kernel]; omega
    | ⟨1, _⟩ => show win2_7.index t2_9 1 * win2_7.size 1 ≤ (i 1 : Nat) ∧ (i 1 : Nat) < win2_7.index t2_9 1 * win2_7.size 1 + win2_7.xsize (grid2.coords t2_9) 1
                rw [show win2_7.index t2_9 1 * win2_7.size 1 = 0 from by decide +kernel, show win2_7.xsize (grid2.coords t2_9) 1 = 128 from by decide +kernel]; omega⟩

end Final

/-- Output 5 (the [50000,128] array h) after the region: the affine map, row block by row block. -/
theorem h_out (c : Dev nD) : (dat2 V c).arrAt 5 cfg2.N = hOf V c := by
  exact (dat2 V c).arrAt_eq_of_cover 5 (hOf V c) (flushed5_eq V c) cover5

/-- Output 6 (the [1,128] column sums of h) after the region: accumulated over the ten row blocks from zero. -/
theorem sum_out (c : Dev nD) : (dat2 V c).arrAt 6 cfg2.N = Cert.Spec.kSumRow (hOf V c) := by
  exact (dat2 V c).arrAt_eq_of_cover 6 (Cert.Spec.kSumRow (hOf V c)) (flushed6_eq V c) cover6

/-- Output 7 (the [1,128] column sums of h²) after the region. -/
theorem sumsq_out (c : Dev nD) : (dat2 V c).arrAt 7 cfg2.N = Cert.Spec.kSumRow (Cert.Spec.sq (hOf V c)) := by
  exact (dat2 V c).arrAt_eq_of_cover 7 (Cert.Spec.kSumRow (Cert.Spec.sq (hOf V c))) (flushed7_eq V c) cover7

end Cert.KernelIdeal.Region2

end
-- ==== Proof.RegionNorm3.lean ====
import proofs.«430960_j38439957299938_1_alg».proof.Proof.Gen.KernelIdeal.Frame
import proofs.«430960_j38439957299938_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

/-- The zero offset of the body's whole-buffer accesses. -/
theorem off_zero : (![0, 0] : Fin 2 → Nat) = fun _ => 0 := funext fun a => by fin_cases a <;> rfl

/-- A [1,128] row broadcast over the rows reads the row's entry of the same feature. -/
theorem bcast_row (x : FVec Ideal S1x128 .f32) (r : Fin 5000) (j : Fin 128) :
    broadcastTo S5000x128 x broadcasts_S1x128_S5000x128 (ix2 r j) = x (ix2 0 j) := by
  refine broadcastTo_apply x _ (ix2 r j) (ix2 0 j) ?_
  intro a
  match a with
  | ⟨0, _⟩ => rfl
  | ⟨1, _⟩ => rfl

/-- The body's arithmetic at row r, feature j of a block: γ_j (h − μ_j) rsqrt(v_j + ε) + β_j, clamped at zero. -/
theorem pay_apply (x0 : Vec Ideal S5000x128 .f32) (xv xg xm xb : Vec Ideal S1x128 .f32) (r : Fin 5000) (j : Fin 128) :
    k3_pay1 (F := Ideal) x0 xv xg xm xb (ix2 r j)
      = max (((xg (ix2 0 j) * (x0 (ix2 r j) - xm (ix2 0 j))) * Ideal.rsqrt (xv (ix2 0 j) + Cert.Spec.cEps)) + xb (ix2 0 j)) 0 := by
  unfold k3_pay1
  simp only [shapeCast_self]
  rw [maximumf_apply, addf_apply, mulf_apply, mulf_apply, subf_apply, bcast_row, bcast_row, bcast_row, bcast_row,
    broadcast_apply]
  show max (_ * Ideal.rsqrt (xv (ix2 0 j) + Cert.Spec.cEps) + _) (Ideal.ofBits .f32 0#32) = _
  rw [Ideal.ofBits_zero_f32]

/-- The body's arithmetic at an index y of a block is the normalization at an index i of the arrays, when the block's
    entry at y is the array's at i, the two have the same feature, and the four row buffers are the four row arrays. -/
theorem pay_eq_norm (x0 : Vec Ideal S5000x128 .f32) (xv xg xm xb : Vec Ideal S1x128 .f32)
    (h : Cert.Spec.Big) (mu var ga be : Cert.Spec.Row) (y : S5000x128.Idx) (i : S50000x128.Idx)
    (hj : (y 1).val = (i 1).val) (e0 : x0 y = h i)
    (em : ∀ k, xm k = mu k) (ev : ∀ k, xv k = var k) (eg : ∀ k, xg k = ga k) (eb : ∀ k, xb k = be k) :
    k3_pay1 (F := Ideal) x0 xv xg xm xb y = Cert.Spec.norm h mu var ga be i := by
  obtain ⟨r, j, rfl⟩ : ∃ (r : Fin 5000) (j : Fin 128), y = ix2 r j := ⟨y 0, y 1, eq_ix2 y⟩
  obtain ⟨n, j', rfl⟩ : ∃ (n : Fin 50000) (j' : Fin 128), i = ix2 n j' := ⟨i 0, i 1, eq_ix2 i⟩
  obtain rfl : j = j' := Fin.ext hj
  rw [pay_apply, e0, em, ev, eg, eb]
  rfl

/-- The printed index maps over the grid: the block of h and the output block are block t of the rows, the four
    row windows are whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is block t of the normalized array: the h block is read where the output block lies, and
    the four rows are read whole. -/
theorem flushed_eq (c : Dev nD) (t : Fin cfg3.N) :
    (dat3 V c).flushed 5 t = ((cfg3.win 5).blk t).view.read (Elt Ideal)
      (Cert.Spec.norm (V c main_v68_0) (V c main_v70) (V c main_v74) (V c main_v79) (V c main_v80)) := by
  show (cfg3.win 5).cut (grid3.coords t) ((dat3 V c).after 5 t) = _
  rw [after3_5]
  unfold out3_5
  rw [View.canon_unit_zero off_zero]
  simp only [View.ld_unit_zero (S := S5000x128) off_zero, View.ld_unit_zero (S := S1x128) off_zero]
  obtain ⟨a0, a1, b0, b1, c0, c1, d0, d1, f0, f1, g0, g1⟩ := idx_facts t
  funext y
  refine pay_eq_norm (iblk3 V c 0 t) (iblk3 V c 2 t) (iblk3 V c 3 t) (iblk3 V c 1 t) (iblk3 V c 4 t)
    (V c main_v68_0) (V c main_v70) (V c main_v74) (V c main_v79) (V c main_v80) y (((cfg3.win 5).blk t).view.emb y)
    ?_ ?_ ?_ ?_ ?_ ?_
  · show (y 1).val = win3_5.index t (1 : Fin 2) * 128 + 1 * (y 1).val
    omega
  · show V c main_v68_0 (((cfg3.win 0).blk t).view.emb y) = V c main_v68_0 (((cfg3.win 5).blk t).view.emb y)
    refine congrArg _ (funext fun a => Fin.ext ?_)
    match a with
    | ⟨0, _⟩ => show win3_0.index t (0 : Fin 2) * 5000 + 1 * (y 0).val = win3_5.index t (0 : Fin 2) * 5000 + 1 * (y 0).val; omega
    | ⟨1, _⟩ => show win3_0.index t (1 : Fin 2) * 128 + 1 * (y 1).val = win3_5.index t (1 : Fin 2) * 128 + 1 * (y 1).val; omega
  · intro k
    show V c main_v70 (((cfg3.win 1).blk t).view.emb k) = V c main_v70 k
    refine congrArg _ (funext fun a => Fin.ext ?_)
    match a with
    | ⟨0, _⟩ => show win3_1.index t (0 : Fin 2) * 1 + 1 * (k 0).val = (k 0).val; omega
    | ⟨1, _⟩ => show win3_1.index t (1 : Fin 2) * 128 + 1 * (k 1).val = (k 1).val; omega
  · intro k
    show V c main_v74 (((cfg3.win 2).blk t).view.emb k) = V c main_v74 k
    refine congrArg _ (funext fun a => Fin.ext ?_)
    match a with
    | ⟨0, _⟩ => show win3_2.index t (0 : Fin 2) * 1 + 1 * (k 0).val = (k 0).val; omega
    | ⟨1, _⟩ => show win3_2.index t (1 : Fin 2) * 128 + 1 * (k 1).val = (k 1).val; omega
  · intro k
    show V c main_v79 (((cfg3.win 3).blk t).view.emb k) = V c main_v79 k
    refine congrArg _ (funext fun a => Fin.ext ?_)
    match a with
    | ⟨0, _⟩ => show win3_3.index t (0 : Fin 2) * 1 + 1 * (k 0).val = (k 0).val; omega
    | ⟨1, _⟩ => show win3_3.index t (1 : Fin 2) * 128 + 1 * (k 1).val = (k 1).val; omega
  · intro k
    show V c main_v80 (((cfg3.win 4).blk t).view.emb k) = V c main_v80 k
    refine congrArg _ (funext fun a => Fin.ext ?_)
    match a with
    | ⟨0, _⟩ => show win3_4.index t (0 : Fin 2) * 1 + 1 * (k 0).val = (k 0).val; omega
    | ⟨1, _⟩ => show win3_4.index t (1 : Fin 2) * 128 + 1 * (k 1).val = (k 1).val; omega

/-- An index of the array is in point t's block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v81).slice (win3_5.rect t)).set ↔ _
  rw [View.set_slice_whole, Rect.mem_set_unit]
  exact Iff.rfl

/-- Row n of the array lies in block n / 5000: the ten blocks of 5000 rows tile the 50000 rows. -/
theorem cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, g0, g1⟩ := idx_facts t
  have ht : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- Output 5 (the [50000,128] normalized, clamped array) after the region, from the five input arrays as the region finds them. -/
theorem x_out (c : Dev nD) :
    (dat3 V c).arrAt 5 cfg3.N = Cert.Spec.norm (V c main_v68_0) (V c main_v70) (V c main_v74) (V c main_v79) (V c main_v80) :=
  (dat3 V c).arrAt_eq_of_cover 5 _ (fun t _ => flushed_eq V c t) cover

end Cert.KernelIdeal.Region3

end
-- ==== Proof.RegionPool4.lean ====
import proofs.«430960_j38439957299938_1_alg».proof.Proof.Gen.KernelIdeal.Frame
import proofs.«430960_j38439957299938_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Points 1 to 9: over the carried block xo the body leaves the update of xo by the row block x and its ids b. -/
theorem out_B {F : FTy → Type} [FloatOps F] (c : Dev nD) (i : grid4.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (hc : ¬cond4_0 i) (x : Vec F S5000x128 .f32) (b : Vec F S5000x1 .i32) (xo : Vec F S64x128 .f32) :
    out4_B_2 c i a1 h1 a2 h2 a3 h3 hc x b xo = k4_pay2 b x xo := by
  unfold out4_B_2
  rw [View.read_writes_eq_canon _ _ _ (cover4_B_2 c i a1 h1 a2 h2 a3 h3 hc x b xo)]
  unfold kernelRun4_B
  dsimp only
  sl_unfold_words
  rw [View.canon_unit_zero hz]
  simp only [View.readAt_eq_ld, h1.read_unread, h2.read_unread, h3.read_unread, View.ld_unit_zero (S := S5000x128) hz,
    View.ld_unit_zero (S := S5000x1) hz, View.ld_unit_zero (S := S64x128) hz]

/-- Point 0: the zero block is stored and read back, so the body leaves the update of the zero block. -/
theorem out_A {F : FTy → Type} [FloatOps F] (c : Dev nD) (i : grid4.Coords) (a1 : Memref sig .tc .vmem S5000x128 .f32) (h1 : a1.IsWhole)
    (a2 : Memref sig .tc .vmem S5000x1 .i32) (h2 : a2.IsWhole) (a3 : Memref sig .tc .vmem S64x128 .f32) (h3 : a3.IsWhole)
    (hc : cond4_0 i) (x : Vec F S5000x128 .f32) (b : Vec F S5000x1 .i32) :
    out4_A_2 c i a1 h1 a2 h2 a3 h3 hc x b = k4_pay2 b x k4_pay1 := by
  unfold out4_A_2
  rw [View.read_writes_eq_canon _ _ _ (cover4_A_2 c i a1 h1 a2 h2 a3 h3 hc x b)]
  unfold kernelRun4_A
  dsimp only
  sl_unfold_words
  rw [View.canon_cons_unit_zero (S := S64x128) hz, View.readCov_unit_zero (S := S64x128) _ hz]
  simp only [View.readAt_eq_ld, h1.read_unread, h2.read_unread, View.ld_unit_zero (S := S5000x128) hz,
    View.ld_unit_zero (S := S5000x1) hz]

/-! The product contracts the row axis of both operands: at result index (g, d) and row r it reads the 0/1 factor
    at (r, g) and the features at (r, d). -/

theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The 0/1 factor: the compare's bit, widened and read as a signed integer, is 1 where the word is the id and 0 elsewhere. -/
theorem onehot_word (w : BitVec 32) (g : Fin 64) :
    (FloatOps.sitofp (F := Ideal) .f32 ((IntOp.cmpi .eq w (BitVec.ofNat 32 g.val)).setWidth 32) : EReal) = Cert.Spec.onehot w g := by
  unfold Cert.Spec.onehot IntOp.cmpi
  show ((((BitVec.ofBool (w == BitVec.ofNat 32 g.val)).setWidth 32).toInt : ℝ) : EReal) = _
  by_cases h : w = BitVec.ofNat 32 g.val
  · rw [if_pos h, show (w == BitVec.ofNat 32 g.val) = true from by simpa using h]
    rw [show ((BitVec.ofBool true).setWidth 32).toInt = 1 from by decide]
    simp
  · rw [if_neg h, show (w == BitVec.ofNat 32 g.val) = false from by simpa using h]
    rw [show ((BitVec.ofBool false).setWidth 32).toInt = 0 from by decide]
    simp

/-- The product into the zero block at (g, d): the sum over the 5000 rows r of the left operand at (r, g) times the right at (r, d). -/
theorem matmul_pool_apply (A : FVec Ideal S5000x64 .bf16) (B : FVec Ideal S5000x128 .bf16) (g : Fin 64) (d : Fin 128) :
    matmul dot_S5000x64_S5000x128_S64x128_0_0_1_1_n_n none A B (constant (F := Ideal) S64x128 .f32 0x00000000#32) (ix2 g d)
      = ∑ r : Fin 5000, A (ix2 r g) * B (ix2 r d) := by
  refine (Ideal.matmul_constant_zero_apply dot_S5000x64_S5000x128_S64x128_0_0_1_1_n_n none A B (ix2 g d)).trans ?_
  rw [← Equiv.sum_comp (ValueIdx.contrEquiv1 dot_S5000x64_S5000x128_S64x128_0_0_1_1_n_n 5000 rfl rfl).symm]
  refine Finset.sum_congr rfl fun k _ => ?_
  have hk := ValueIdx.contrEquiv1_symm_val dot_S5000x64_S5000x128_S64x128_0_0_1_1_n_n 5000 rfl rfl k
  have el : dot_S5000x64_S5000x128_S64x128_0_0_1_1_n_n.lhsIdx (ix2 g d) ((ValueIdx.contrEquiv1 dot_S5000x64_S5000x128_S64x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x128_S64x128_0_0_1_1_n_n.rhsIdx (ix2 g d) ((ValueIdx.contrEquiv1 dot_S5000x64_S5000x128_S64x128_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-- The update at (g, d): the carried entry plus the sum over the block's rows of the 0/1 factor of the row's id at g
    times the row's feature d. -/
theorem pay2_apply (v3 : Vec Ideal S5000x1 .i32) (v11 : Vec Ideal S5000x128 .f32) (v15 : Vec Ideal S64x128 .f32) (g : Fin 64) (d : Fin 128) :
    k4_pay2 (F := Ideal) v3 v11 v15 (ix2 g d) = v15 (ix2 g d) + ∑ r : Fin 5000, Cert.Spec.onehot (v3 (ix2 r 0)) g * v11 (ix2 r d) := by
  unfold k4_pay2
  refine (addf_apply _ _ _).trans ?_
  refine congrArg₂ (· + ·) (congrFun (shapeCast_self v15 _) _) ?_
  refine (matmul_pool_apply _ _ g d).trans ?_
  refine Finset.sum_congr rfl fun r _ => ?_
  refine congrArg₂ (· * ·) ?_ (congrFun (shapeCast_self v11 _) _)
  have e1 : iota .tc S5000x64 32 [1] iota_S5000x64_d1_w32 (ix2 r g) = BitVec.ofNat 32 g.val :=
    iota_single_apply .tc S5000x64 32 1 iota_S5000x64_d1_w32 (ix2 r g)
  have e2 : broadcastTo S5000x64 (shapeCast S5000x1 v3 shapeCasts_S5000x1_S5000x1) broadcasts_S5000x1_S5000x64 (ix2 r g) = v3 (ix2 r 0) :=
    (broadcastTo_apply _ broadcasts_S5000x1_S5000x64 (ix2 r g) (ix2 r 0) (fun a => match a with | ⟨0, _⟩ => rfl | ⟨1, _⟩ => rfl)).trans
      (congrFun (shapeCast_self v3 _) _)
  show FloatOps.sitofp (F := Ideal) .f32 ((IntOp.cmpi .eq
      (broadcastTo S5000x64 (shapeCast S5000x1 v3 shapeCasts_S5000x1_S5000x1) broadcasts_S5000x1_S5000x64 (ix2 r g))
      (iota .tc S5000x64 32 [1] iota_S5000x64_d1_w32 (ix2 r g))).setWidth 32) = _
  rw [e1, e2]
  exact onehot_word _ g

/-! The two input arrays as the region finds them, and their blocks at a point, at their literal types. -/

abbrev xarr (c : Dev nD) : Vec Ideal S50000x128 .f32 := V c main_v81
abbrev idarr (c : Dev nD) : Vec Ideal S50000x1 .i32 := V c main_v82
abbrev xblk (c : Dev nD) (t : Fin cfg4.N) : Vec Ideal S5000x128 .f32 := iblk4 V c 0 t
abbrev idblk (c : Dev nD) (t : Fin cfg4.N) : Vec Ideal S5000x1 .i32 := iblk4 V c 1 t

/-- The block indices, decided over the grid: both inputs' row block is the point, the output's block never moves. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Row r of the feature block at point t is row 5000 t + r of the array. -/
theorem xblk_apply (c : Dev nD) (t : Fin cfg4.N) (r : Fin 5000) (d : Fin 128) :
    xblk V c t (ix2 r d) = xarr V c (ix2 (Cert.Spec.rowOf t.val r) d) := by
  obtain ⟨e0, e1, -, -, -, -⟩ := idx_facts t
  have hN : t.val < 10 := lt_of_lt_of_eq t.isLt (show cfg4.N = 10 from N_4)
  show V c main_v81 (((cfg4.win 0).blk t).view.emb (ix2 r d)) = V c main_v81 (ix2 (Cert.Spec.rowOf t.val r) d)
  refine congrArg (V c main_v81) (funext fun a => Fin.ext ?_)
  match a with
  | ⟨0, _⟩ => show win4_0.index t (0 : Fin 2) * 5000 + 1 * r.val = (5000 * t.val + r.val) % 50000; have := r.isLt; omega
  | ⟨1, _⟩ => show win4_0.index t (1 : Fin 2) * 128 + 1 * d.val = d.val; omega

/-- Row r of the id block at point t is row 5000 t + r of the id column. -/
theorem idblk_apply (c : Dev nD) (t : Fin cfg4.N) (r : Fin 5000) :
    idblk V c t (ix2 r 0) = idarr V c (ix2 (Cert.Spec.rowOf t.val r) 0) := by
  obtain ⟨-, -, e0, e1, -, -⟩ := idx_facts t
  have hN : t.val < 10 := lt_of_lt_of_eq t.isLt (show cfg4.N = 10 from N_4)
  show V c main_v82 (((cfg4.win 1).blk t).view.emb (ix2 r 0)) = V c main_v82 (ix2 (Cert.Spec.rowOf t.val r) 0)
  refine congrArg (V c main_v82) (funext fun a => Fin.ext ?_)
  match a with
  | ⟨0, _⟩ => show win4_1.index t (0 : Fin 2) * 5000 + 1 * r.val = (5000 * t.val + r.val) % 50000; have := r.isLt; omega
  | ⟨1, _⟩ => show win4_1.index t (1 : Fin 2) * 1 + 1 * 0 = 0; omega

/-- THE RUNNING SUM. After point n the output block holds, at (g, d), zero plus the addends of row blocks 0 to n:
    by induction on the point, point 0 from the zero block and each later point over what the point before left. -/
theorem outsAt_eq (c : Dev nD) : ∀ (n : ℕ) (h : n < cfg4.N) (g : Fin 64) (d : Fin 128),
    outsAt4 V c n h (ix2 g d) = 0 + ∑ s ∈ Finset.range (n + 1), ∑ r : Fin 5000,
      Cert.Spec.onehot (idarr V c (ix2 (Cert.Spec.rowOf s r) 0)) g * xarr V c (ix2 (Cert.Spec.rowOf s r) d)
  | 0, h, g, d => by
    rw [outsAt4_A V c ⟨0, h⟩ (Nat.zero_mod 10)]
    refine (congrFun (out_A (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) ((hcond4_0 ⟨0, h⟩).mpr (Nat.zero_mod 10)) (iblk4 V c 0 ⟨0, h⟩) (iblk4 V c 1 ⟨0, h⟩)) (ix2 g d)).trans ?_
    refine (pay2_apply (idblk V c ⟨0, h⟩) (xblk V c ⟨0, h⟩) (k4_pay1 (F := Ideal)) g d).trans ?_
    rw [Finset.sum_range_one]
    refine congrArg₂ (· + ·) Ideal.ofBits_zero_f32 (Finset.sum_congr rfl fun r _ => ?_)
    rw [xblk_apply, idblk_apply]
  | n + 1, h, g, d => by
    have hN : cfg4.N = 10 := N_4
    have hB : ¬(⟨n + 1, h⟩ : Fin cfg4.N).val % 10 = 0 := by dsimp only; omega
    rw [outsAt4_B V c ⟨n + 1, h⟩ hB]
    dsimp only
    refine (congrFun (out_B (F := Ideal) c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (fun hc => hB ((hcond4_0 ⟨n + 1, h⟩).mp hc)) (iblk4 V c 0 ⟨n + 1, h⟩) (iblk4 V c 1 ⟨n + 1, h⟩)
      (outsAt4 V c n (Nat.lt_of_succ_lt h))) (ix2 g d)).trans ?_
    refine (pay2_apply (idblk V c ⟨n + 1, h⟩) (xblk V c ⟨n + 1, h⟩) (outsAt4 V c n (Nat.lt_of_succ_lt h)) g d).trans ?_
    rw [outsAt_eq c n (Nat.lt_of_succ_lt h) g d, Finset.sum_range_succ _ (n + 1), ← add_assoc]
    refine congrArg₂ (· + ·) rfl (Finset.sum_congr rfl fun r _ => ?_)
    rw [xblk_apply, idblk_apply]

/-- After the last point the output block is the pooled array of the specification. -/
theorem outsAt_last (c : Dev nD) (h : 9 < cfg4.N) :
    outsAt4 V c 9 h = Cert.Spec.kPool (xarr V c) (idarr V c) := by
  funext i
  obtain ⟨g, d, rfl⟩ : ∃ (g : Fin 64) (d : Fin 128), i = ix2 g d := ⟨i 0, i 1, eq_ix2 i⟩
  exact outsAt_eq V c 9 h g d

/-- The one write-back, at point 9, writes the pooled array: block (0, 0) of the [64,128] array is the array. -/
theorem flushed_eq (c : Dev nD) (t : Fin cfg4.N) (hf : (cfg4.win 2).flush t = true) :
    (dat4 V c).flushed 2 t = ((cfg4.win 2).blk t).view.read (Elt Ideal) (Cert.Spec.kPool (xarr V c) (idarr V c)) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v83.ty.shape.size a) = fun _ => 0 := funext fun a => by fin_cases a <;> decide
  refine (outsAt_last V c _).trans ?_
  exact (Memref.read_access_unit_zero (Elt Ideal) main_v83 hz' (fun a => by rw [congrFun hz' a]; simp) (Cert.Spec.kPool (xarr V c) (idarr V c))).symm

/-- Output 2 (the [64,128] pooled sums) after the region: 0/1 products accumulated over the ten row blocks from zero. -/
theorem pool_out (c : Dev nD) : (dat4 V c).arrAt 2 cfg4.N = Cert.Spec.kPool (V c main_v81) (V c main_v82) :=
  (dat4 V c).arrAt_eq_of_cover 2 (Cert.Spec.kPool (xarr V c) (idarr V c)) (flushed_eq V c) fun i =>
    ⟨t4_9, (flush4_2 t4_9).mpr rfl, by
      show i ∈ ((View.whole main_v83).slice (win4_2.rect t4_9)).set
      rw [View.set_slice_whole, Rect.mem_set_unit]
      intro a
      have h0 : (i 0 : Nat) < 64 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 64 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

end Cert.KernelIdeal.Region4

end
-- ==== Proof.KValue.lean ====
/-
  The idealized kernel program's result as one function of its arguments: region 0's h and column sums of the
  aggregated input, the host's μ and v, region 1's normalized array x₁; the same over x₁ with layer 1's parameters for
  regions 2 and 3, giving x₂; region 4's pooled sums of x₂, divided by the graph counts — the blockwise specification.
-/
import proofs.«430960_j38439957299938_1_alg».proof.Proof.KHostA
import proofs.«430960_j38439957299938_1_alg».proof.Proof.KHostB
import proofs.«430960_j38439957299938_1_alg».proof.Proof.RegionAffine0
import proofs.«430960_j38439957299938_1_alg».proof.Proof.RegionNorm1
import proofs.«430960_j38439957299938_1_alg».proof.Proof.RegionAffine2
import proofs.«430960_j38439957299938_1_alg».proof.Proof.RegionNorm3
import proofs.«430960_j38439957299938_1_alg».proof.Proof.RegionPool4

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Host

variable (m : (ℓ : Loc nD τ sig) → Buf (Elt Ideal) ℓ) (ρ : Dev nD → PrngReg)

/-- The first layer's output, as region 1 leaves it. -/
abbrev x1 (c : Dev nD) : Cert.Spec.Big :=
  Cert.Spec.kLayer (Cert.RefAgg.agg (m ((c.tc : Thread nD τ).loc main_arg1)) (m ((c.tc : Thread nD τ).loc main_arg0))) (m ((c.tc : Thread nD τ).loc main_arg0))
    (Cert.Spec.matOf (m ((c.tc : Thread nD τ).loc main_arg3)) 0) (Cert.Spec.matOf (m ((c.tc : Thread nD τ).loc main_arg5)) 0) (Cert.Spec.rowOf2 (m ((c.tc : Thread nD τ).loc main_arg4)) 0)
    (Cert.Spec.rowOf2 (m ((c.tc : Thread nD τ).loc main_arg6)) 0) (Cert.Spec.rowOf2 (m ((c.tc : Thread nD τ).loc main_arg7)) 0)

/-- The second layer's output, as region 3 leaves it. -/
abbrev x2 (c : Dev nD) : Cert.Spec.Big :=
  Cert.Spec.kLayer (Cert.RefAgg.agg (m ((c.tc : Thread nD τ).loc main_arg1)) (x1 m c)) (x1 m c)
    (Cert.Spec.matOf (m ((c.tc : Thread nD τ).loc main_arg3)) 1) (Cert.Spec.matOf (m ((c.tc : Thread nD τ).loc main_arg5)) 1) (Cert.Spec.rowOf2 (m ((c.tc : Thread nD τ).loc main_arg4)) 1)
    (Cert.Spec.rowOf2 (m ((c.tc : Thread nD τ).loc main_arg6)) 1) (Cert.Spec.rowOf2 (m ((c.tc : Thread nD τ).loc main_arg7)) 1)

set_option maxHeartbeats 4000000 in
theorem x1_eq (c : Dev nD) : (dat1 (V3 m ρ) c).arrAt 5 cfg1.N = x1 m c := by
  rw [Region1.x_out (V3 m ρ) c, V3_v32_0, V3_v34, V3_v38, V3_v43, V3_v44, Region0.h_out (V1 m ρ) c,
    Region0.sum_out (V1 m ρ) c, Region0.sumsq_out (V1 m ρ) c]
  unfold Region0.hOf
  rw [V1_v22, V1_arg0, V1_v25, V1_v28, V1_v31]
  rfl

set_option maxHeartbeats 4000000 in
theorem x2_eq (c : Dev nD) : (dat3 (V7 m ρ) c).arrAt 5 cfg3.N = x2 m c := by
  rw [Region3.x_out (V7 m ρ) c, V7_v68_0, V7_v70, V7_v74, V7_v79, V7_v80, Region2.h_out (V5 m ρ) c,
    Region2.sum_out (V5 m ρ) c, Region2.sumsq_out (V5 m ρ) c]
  unfold Region2.hOf
  rw [V5_v58, V5_v45, V5_v61, V5_v64, V5_v67, x1_eq]
  rfl

set_option maxHeartbeats 4000000 in
/-- The program's result buffer at the last boundary is the blockwise specification of the arguments. -/
theorem result_eq (c : Dev nD) : W11 m ρ c (Proc.devRef .tc main_v92) = Cert.Spec.kOut (Cert.RefAgg.agg (m ((c.tc : Thread nD τ).loc main_arg1))) (Cert.RefAgg.cnt (m ((c.tc : Thread nD τ).loc main_arg2))) (Cert.RefAgg.ids (m ((c.tc : Thread nD τ).loc main_arg2))) (m ((c.tc : Thread nD τ).loc main_arg0)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg7)) := by
  rw [W11_v92, Region4.pool_out (V9 m ρ) c, V9_v81, V9_v82, x2_eq]
  rfl

end Cert.KernelIdeal.Value

end
-- ==== Proof.ScatterRows.lean ====
/-
  The host's accumulating scatter of the [50000,128] rows into [64,128] by a [50000,1] column of graph ids: update
  element (n, d) lands at (id n, d) when 0 ≤ id n < 64 (the id read as a signed integer, not clamped) and is dropped
  otherwise; so entry (g, d) of the result is 0 plus the sum over all rows n of x[n,d] where id n = g.
-/
import proofs.«430960_j38439957299938_1_alg».proof.Proof.RefAgg
import Idealize.ShloMosaic.PureOps.Ideal.Laws

noncomputable section

namespace Cert.RefAgg

open Idealize.ShloMosaic Idealize.ShloMosaic.TcCoe Idealize.ShloMosaic.ValueIdx
open Cert.ReferenceIdeal Cert.ReferenceIdeal.Facts₀

/-- The scatter's dimension numbers: update axis 1 is the window axis, operand axis 0 is inserted and is the one
    the index vector (axis 1 of the indices, of length one) addresses. -/
private abbrev D := scatter_S64x128_S50000x1_S50000x128_1_0_0_1

/-- Update element (n, e) reads its one start component at (n, 0) of the indices. -/
private theorem siIdx_eq (n : Fin 50000) (e : Fin 128) (c : Fin D.scatterDimsToOperandDims.length) :
    D.siIdx (ix2 n e) c = ix2 n 0 := by
  funext b
  match b with
  | ⟨0, _⟩ => rfl
  | ⟨1, h⟩ =>
    apply Fin.ext
    have h1 : (D.siIdx (ix2 n e) c ⟨1, h⟩).val = c.val := rfl
    have h2 : c.val < 1 := c.isLt
    have h3 : ((ix2 n (0 : Fin 1) : S50000x1.Idx) ⟨1, h⟩).val = 0 := rfl
    rw [h1, h3]; omega

/-- On operand axis 0 the window starts at the signed id of row n. -/
private theorem start0 (n : Fin 50000) (e : Fin 128) (idx : IVec S50000x1 32) :
    D.start (ix2 n e) idx 0 = (idx (ix2 n 0)).toInt := by
  unfold ScatterDims.start
  rw [dif_pos (by decide)]
  rw [siIdx_eq]

/-- On operand axis 1, which no index component addresses, the window starts at 0. -/
private theorem start1 (n : Fin 50000) (e : Fin 128) (idx : IVec S50000x1 32) :
    D.start (ix2 n e) idx 1 = 0 := by
  unfold ScatterDims.start
  rw [dif_neg (by decide)]

/-- Operand axis 0 is inserted: the window coordinate there is 0. -/
private theorem window0 (n : Fin 50000) (e : Fin 128) : D.window (ix2 n e) 0 = 0 := by
  unfold ScatterDims.window
  rw [dif_neg (by decide)]

/-- On operand axis 1 the window coordinate is the update's feature e. -/
private theorem window1 (n : Fin 50000) (e : Fin 128) : D.window (ix2 n e) 1 = e.val := by
  unfold ScatterDims.window
  rw [dif_pos (by decide)]
  rfl

/-- A statement about both operand axes is the pair of its two instances. -/
private theorem forall_axis (P : Fin S64x128.rank → Prop) : (∀ a, P a) ↔ P 0 ∧ P 1 := Fin.forall_fin_two

/-- Update element (n, e) lands at (g, d) exactly when row n's signed id is g and e = d; when the id lies outside
    [0, 64) it lands nowhere. -/
private theorem resultIdx_iff (n : Fin 50000) (e : Fin 128) (idx : IVec S50000x1 32) (g : Fin 64) (d : Fin 128) :
    D.resultIdx? (ix2 n e) idx = some (ix2 g d) ↔ (idx (ix2 n 0)).toInt = (g.val : ℤ) ∧ e = d := by
  have s0 : D.start (ix2 n e) idx 0 + (D.window (ix2 n e) 0 : ℤ) = (idx (ix2 n 0)).toInt := by
    rw [start0, window0]; simp
  have s1 : D.start (ix2 n e) idx 1 + (D.window (ix2 n e) 1 : ℤ) = (e.val : ℤ) := by
    rw [start1, window1]; simp
  have z0 : ((S64x128.size 0 : ℕ) : ℤ) = 64 := rfl
  have z1 : ((S64x128.size 1 : ℕ) : ℤ) = 128 := rfl
  have hg : g.val < 64 := g.isLt
  have he : e.val < 128 := e.isLt
  unfold ScatterDims.resultIdx?
  split
  · rename_i h
    rw [Option.some.injEq]
    constructor
    · intro hf
      have h0 : (D.start (ix2 n e) idx 0 + (D.window (ix2 n e) 0 : ℤ)).toNat = g.val :=
        congrArg Fin.val (congrFun hf 0)
      have h1 : (D.start (ix2 n e) idx 1 + (D.window (ix2 n e) 1 : ℤ)).toNat = d.val :=
        congrArg Fin.val (congrFun hf 1)
      have b0 := (h 0).1
      rw [s0] at h0 b0
      rw [s1] at h1
      exact ⟨by omega, Fin.ext (by omega)⟩
    · rintro ⟨hg', rfl⟩
      funext a
      match a with
      | ⟨0, ha⟩ =>
        apply Fin.ext
        show (D.start (ix2 n e) idx 0 + (D.window (ix2 n e) 0 : ℤ)).toNat = g.val
        rw [s0]; omega
      | ⟨1, ha⟩ =>
        apply Fin.ext
        show (D.start (ix2 n e) idx 1 + (D.window (ix2 n e) 1 : ℤ)).toNat = e.val
        rw [s1]; omega
  · rename_i h
    constructor
    · intro hf; exact absurd hf (by simp)
    · rintro ⟨hg', rfl⟩
      exfalso; apply h
      rw [forall_axis]
      rw [s0, s1, z0, z1]
      omega

/-- The host's scatter of the rows is the indicator sum over all rows. -/
theorem pool_eq (b : Batch) (x : FVec Ideal S50000x128 .f32) : pool b x = Cert.Spec.rPool x (ids b) := by
  funext i
  obtain ⟨g, d, rfl⟩ : ∃ (g : Fin 64) (d : Fin 128), i = ix2 g d := ⟨i 0, i 1, eq_ix2 i⟩
  show Ideal.ofBits .f32 0x00000000#32
      + ∑ j ∈ Finset.univ.filter (fun j => D.resultIdx? j (ids b) = some (ix2 g d)), x j = _
  rw [Ideal.ofBits_zero_f32]
  show _ = 0 + ∑ n : Fin 50000, if ((ids b) (ix2 n 0)).toInt = (g.val : ℤ) then x (ix2 n d) else 0
  refine congrArg (fun t : EReal => 0 + t) ?_
  rw [Finset.sum_filter, sum_idx2]
  refine Finset.sum_congr rfl fun n _ => ?_
  simp only [resultIdx_iff]
  by_cases hn : ((ids b) (ix2 n 0)).toInt = (g.val : ℤ)
  · simp only [hn, true_and, if_true]
    rw [Finset.sum_ite_eq']
    simp
  · simp only [hn, false_and, if_false]
    exact Finset.sum_const_zero

end Cert.RefAgg

end
-- ==== Proof.RefValue.lean ====
/-
  The reference program's result, operation by operation, is the one-pass specification: two layers (affine map,
  one-pass mean and centred variance over all 50000 rows, normalize, clamp at zero) over the shared aggregation,
  then the rows of each graph summed and divided by the graph's count.
-/
import proofs.«430960_j38439957299938_1_alg».proof.Proof.Gen.ReferenceIdeal.Run
import proofs.«430960_j38439957299938_1_alg».proof.Proof.Gen.ReferenceIdeal.Read
import proofs.«430960_j38439957299938_1_alg».proof.Proof.Spec
import proofs.«430960_j38439957299938_1_alg».proof.Proof.RefAgg
import proofs.«430960_j38439957299938_1_alg».proof.Proof.ScatterRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

open Idealize.ShloMosaic Idealize.ShloMosaic.TcCoe Idealize.SL.Sem Idealize.ShloMosaic.ValueIdx

namespace Cert.RefValue

open Cert.ReferenceIdeal
open Cert.ReferenceIdeal.Facts₀

/-- [50000, 128] arrays, [128, 128] matrices and [128] vectors of extended reals, as the host operations type them. -/
abbrev B : Type := FVec Ideal S50000x128 .f32
abbrev M : Type := FVec Ideal S128x128 .f32
abbrev V : Type := FVec Ideal S128 .f32

/-- The matrix product's dimension numbers: the left operand's axis 1 is contracted against the right's axis 0. -/
private abbrev D := dot_S50000x128_S128x128_S50000x128_1_0_0_1_n_n

/-- A [128] vector as a [1, 128] row. -/
def row (y : V) : Cert.Spec.Row := fun i => y (ix1 (i 1))

/-- A [128] vector spread over the 50000 rows: first to [1, 128], then down the rows. -/
def spread (y : V) : B :=
  broadcastInDim S50000x128 ![0, 1] bcast_S1x128_S50000x128_0_1 (broadcastInDim S1x128 ![1] bcast_S128_S1x128_1 y)

/-- Entry (n, j) of the spread vector is entry j of the vector. -/
theorem spread_at (y : V) (n : Fin 50000) (j : Fin 128) : spread y (ix2 n j) = y (ix1 j) := by
  unfold spread
  rw [broadcastInDim_apply _ bcast_S1x128_S50000x128_0_1 _ (ix2 n j) (ix2 0 j) (fun a => match a with
    | ⟨0, _⟩ => by show 0 = if (1 : Nat) = 1 then 0 else n.val; rw [if_pos rfl]
    | ⟨1, _⟩ => by show j.val = if (128 : Nat) = 1 then 0 else j.val; rw [if_neg (by decide)])]
  exact broadcastInDim_apply _ bcast_S128_S1x128_1 y (ix2 0 j) (ix1 j) (fun a => match a with
    | ⟨0, _⟩ => by show j.val = if (128 : Nat) = 1 then 0 else j.val; rw [if_neg (by decide)])

/-- The host's matrix product at (n, j) is the sum over the contracted coordinate. -/
theorem dot_at (a : B) (w : M) (n : Fin 50000) (j : Fin 128) :
    Host.dotGeneral (F := Ideal) D none a w (ix2 n j) = ∑ k : Fin 128, a (ix2 n k) * w (ix2 k j) := by
  simp only [Host.dotGeneral]
  rw [Ideal.dotGeneral_apply, ← Equiv.sum_comp (ValueIdx.contrEquiv1 D 128 rfl rfl).symm]
  refine Finset.sum_congr rfl fun k _ => ?_
  have hk := ValueIdx.contrEquiv1_symm_val D 128 rfl rfl k
  have el : D.lhsIdx (ix2 n j) ((ValueIdx.contrEquiv1 D 128 rfl rfl).symm k) = ix2 n k := funext fun a => Fin.ext (by
    match a with
    | ⟨0, _⟩ => exact Read.lhs_main_v25_0 _ _
    | ⟨1, _⟩ => exact (Read.lhs_main_v25_1 _ _).trans hk)
  have er : D.rhsIdx (ix2 n j) ((ValueIdx.contrEquiv1 D 128 rfl rfl).symm k) = ix2 k j := funext fun a => Fin.ext (by
    match a with
    | ⟨0, _⟩ => exact (Read.rhs_main_v25_0 _ _).trans hk
    | ⟨1, _⟩ => exact Read.rhs_main_v25_1 _ _)
  rw [el, er]

/-- The affine stage as the host spells it: (a·wl + b) + x·wr. -/
def hAffine (a x : B) (wl wr : M) (b : V) : B :=
  addf (F := Ideal) (addf (F := Ideal) (Host.dotGeneral (F := Ideal) D none a wl) (spread b)) (Host.dotGeneral (F := Ideal) D none x wr)

theorem hAffine_eq (a x : B) (wl wr : M) (b : V) : hAffine a x wl wr b = Cert.Spec.affine a x wl wr (row b) := by
  funext i
  obtain ⟨n, j, rfl⟩ : ∃ (n : Fin 50000) (j : Fin 128), i = ix2 n j := ⟨i 0, i 1, eq_ix2 i⟩
  show (Host.dotGeneral (F := Ideal) D none a wl (ix2 n j) + spread b (ix2 n j)) + Host.dotGeneral (F := Ideal) D none x wr (ix2 n j) = _
  rw [dot_at, dot_at, spread_at]
  rfl

/-- The column sums from zero, as the host's reduction over axis 0. -/
def hSum (h : B) : V := Host.reduceAdd (F := Ideal) h (constant (F := Ideal) S_ .f32 0x00000000#32) reducesTo_S50000x128_S128_d0 h_S_

theorem hSum_at (h : B) (j : Fin 128) : hSum h (ix1 j) = 0 + ∑ n : Fin 50000, h (ix2 n j) := by
  unfold hSum
  simp only [Host.reduceAdd, Ideal.hostReduceAdd_def]
  rw [Ideal.hostReduceAdd_single reducesTo_S50000x128_S128_d0 (by decide)]
  refine congrArg₂ (· + ·) ?_ (Finset.sum_congr rfl fun k _ => ?_)
  · exact Ideal.ofBits_zero_f32
  · exact congrArg h (funext fun a => Fin.ext (by match a with | ⟨0, _⟩ => rfl | ⟨1, _⟩ => rfl))

/-- The column means: the sums over the constant 50000. -/
def hMean (h : B) : V :=
  Host.divf (F := Ideal) (hSum h) (broadcastInDim S128 ![] bcast_S_S128 (constant (F := Ideal) S_ .f32 0x47435000#32))

theorem hMean_at (h : B) (j : Fin 128) : hMean h (ix1 j) = Cert.Spec.rMu h j := by
  show Ideal.div (hSum h (ix1 j)) (Ideal.ofBits .f32 0x47435000#32) = _
  rw [hSum_at]
  rfl

/-- The centred squares. -/
def hDev (h : B) : B := mulf (F := Ideal) (subf (F := Ideal) h (spread (hMean h))) (subf (F := Ideal) h (spread (hMean h)))

theorem hDev_at (h : B) (n : Fin 50000) (j : Fin 128) :
    hDev h (ix2 n j) = (h (ix2 n j) - Cert.Spec.rMu h j) * (h (ix2 n j) - Cert.Spec.rMu h j) := by
  show (h (ix2 n j) - spread (hMean h) (ix2 n j)) * (h (ix2 n j) - spread (hMean h) (ix2 n j)) = _
  rw [spread_at, hMean_at]

theorem hVar_at (h : B) (j : Fin 128) : hMean (hDev h) (ix1 j) = Cert.Spec.rVar h j := by
  rw [hMean_at]
  unfold Cert.Spec.rVar
  simp only [Cert.Spec.rMu, hDev_at]

/-- Normalize by the one-pass statistics, scale, shift and clamp at zero, as the host spells it. -/
def hNorm (h : B) (ga be : V) : B :=
  maximumf (F := Ideal)
    (addf (F := Ideal)
      (mulf (F := Ideal) (mulf (F := Ideal) (spread ga) (subf (F := Ideal) h (spread (hMean h))))
        (spread (Host.rsqrt (F := Ideal) (addf (F := Ideal) (hMean (hDev h))
          (broadcastInDim S128 ![] bcast_S_S128 (constant (F := Ideal) S_ .f32 0x3727C5AC#32))))))
      (spread be))
    (broadcastInDim S50000x128 ![] bcast_S_S50000x128 (constant (F := Ideal) S_ .f32 0x00000000#32))

theorem hNorm_at (h : B) (ga be : V) (n : Fin 50000) (j : Fin 128) :
    hNorm h ga be (ix2 n j) =
      max (((ga (ix1 j) * (h (ix2 n j) - Cert.Spec.rMu h j)) * Ideal.rsqrt (Cert.Spec.rVar h j + Cert.Spec.cEps)) + be (ix1 j)) 0 := by
  show max (((spread ga (ix2 n j) * (h (ix2 n j) - spread (hMean h) (ix2 n j)))
      * spread (Host.rsqrt (F := Ideal) (addf (F := Ideal) (hMean (hDev h))
          (broadcastInDim S128 ![] bcast_S_S128 (constant (F := Ideal) S_ .f32 0x3727C5AC#32)))) (ix2 n j)) + spread be (ix2 n j))
      (Ideal.ofBits .f32 0x00000000#32) = _
  rw [spread_at, spread_at, spread_at, spread_at, hMean_at, Ideal.ofBits_zero_f32]
  show max (((ga (ix1 j) * (h (ix2 n j) - Cert.Spec.rMu h j)) * Ideal.rsqrt (hMean (hDev h) (ix1 j) + Cert.Spec.cEps)) + be (ix1 j)) 0 = _
  rw [hVar_at]

/-- One whole layer as the host spells it, over the shared aggregation, is the one-pass layer of the specification. -/
theorem layer_eq (e : Cert.RefAgg.Edges) (x : B) (wl wr : M) (b ga be : V) :
    hNorm (hAffine (Cert.RefAgg.agg e x) x wl wr b) ga be
      = Cert.Spec.rLayer (Cert.RefAgg.agg e x) x wl wr (row b) (row ga) (row be) := by
  funext i
  obtain ⟨n, j, rfl⟩ : ∃ (n : Fin 50000) (j : Fin 128), i = ix2 n j := ⟨i 0, i 1, eq_ix2 i⟩
  rw [hNorm_at, hAffine_eq]
  rfl

/-! The stacked weights and rows: a slice of the stack reshaped is the layer's matrix or vector. -/

theorem wl0_eq (x3 : FVec Ideal S2x128x128 .f32) : Read.val_main_v24 (F := Ideal) x3 = Cert.Spec.matOf x3 0 := by
  funext i
  obtain ⟨p, q, rfl⟩ : ∃ (p q : Fin 128), i = ix2 p q := ⟨i 0, i 1, eq_ix2 i⟩
  rw [Read.val_main_v24_apply, Read.val_main_v23_apply]
  have hp : p.val < 128 := p.isLt
  have hq : q.val < 128 := q.isLt
  exact congrArg x3 (funext fun a => Fin.ext (by
    match a with
    | ⟨0, _⟩ => rfl
    | ⟨1, _⟩ => show (p.val * 128 + q.val) / 128 % 128 = p.val; omega
    | ⟨2, _⟩ => show (p.val * 128 + q.val) % 128 = q.val; omega))

theorem wr0_eq (x5 : FVec Ideal S2x128x128 .f32) : Read.val_main_v32 (F := Ideal) x5 = Cert.Spec.matOf x5 0 := by
  funext i
  obtain ⟨p, q, rfl⟩ : ∃ (p q : Fin 128), i = ix2 p q := ⟨i 0, i 1, eq_ix2 i⟩
  rw [Read.val_main_v32_apply, Read.val_main_v31_apply]
  have hp : p.val < 128 := p.isLt
  have hq : q.val < 128 := q.isLt
  exact congrArg x5 (funext fun a => Fin.ext (by
    match a with
    | ⟨0, _⟩ => rfl
    | ⟨1, _⟩ => show (p.val * 128 + q.val) / 128 % 128 = p.val; omega
    | ⟨2, _⟩ => show (p.val * 128 + q.val) % 128 = q.val; omega))

theorem wl1_eq (x3 : FVec Ideal S2x128x128 .f32) : Read.val_main_v79 (F := Ideal) x3 = Cert.Spec.matOf x3 1 := by
  funext i
  obtain ⟨p, q, rfl⟩ : ∃ (p q : Fin 128), i = ix2 p q := ⟨i 0, i 1, eq_ix2 i⟩
  rw [Read.val_main_v79_apply, Read.val_main_v78_apply]
  have hp : p.val < 128 := p.isLt
  have hq : q.val < 128 := q.isLt
  exact congrArg x3 (funext fun a => Fin.ext (by
    match a with
    | ⟨0, _⟩ => rfl
    | ⟨1, _⟩ => show (p.val * 128 + q.val) / 128 % 128 = p.val; omega
    | ⟨2, _⟩ => show (p.val * 128 + q.val) % 128 = q.val; omega))

theorem wr1_eq (x5 : FVec Ideal S2x128x128 .f32) : Read.val_main_v87 (F := Ideal) x5 = Cert.Spec.matOf x5 1 := by
  funext i
  obtain ⟨p, q, rfl⟩ : ∃ (p q : Fin 128), i = ix2 p q := ⟨i 0, i 1, eq_ix2 i⟩
  rw [Read.val_main_v87_apply, Read.val_main_v86_apply]
  have hp : p.val < 128 := p.isLt
  have hq : q.val < 128 := q.isLt
  exact congrArg x5 (funext fun a => Fin.ext (by
    match a with
    | ⟨0, _⟩ => rfl
    | ⟨1, _⟩ => show (p.val * 128 + q.val) / 128 % 128 = p.val; omega
    | ⟨2, _⟩ => show (p.val * 128 + q.val) % 128 = q.val; omega))

theorem bl0_eq (x4 : FVec Ideal S2x128 .f32) : row (Read.val_main_v27 (F := Ideal) x4) = Cert.Spec.rowOf2 x4 0 := by
  funext i
  show Read.val_main_v27 (F := Ideal) x4 (ix1 (i 1)) = x4 (ix2 0 (i 1))
  rw [Read.val_main_v27_apply, Read.val_main_v26_apply]
  exact congrArg x4 (funext fun a => Fin.ext (by
    match a with
    | ⟨0, _⟩ => rfl
    | ⟨1, _⟩ => exact Nat.mod_eq_of_lt (i 1).isLt))

theorem ga0_eq (x6 : FVec Ideal S2x128 .f32) : row (Read.val_main_v46 (F := Ideal) x6) = Cert.Spec.rowOf2 x6 0 := by
  funext i
  show Read.val_main_v46 (F := Ideal) x6 (ix1 (i 1)) = x6 (ix2 0 (i 1))
  rw [Read.val_main_v46_apply, Read.val_main_v45_apply]
  exact congrArg x6 (funext fun a => Fin.ext (by
    match a with
    | ⟨0, _⟩ => rfl
    | ⟨1, _⟩ => exact Nat.mod_eq_of_lt (i 1).isLt))

theorem be0_eq (x7 : FVec Ideal S2x128 .f32) : row (Read.val_main_v60 (F := Ideal) x7) = Cert.Spec.rowOf2 x7 0 := by
  funext i
  show Read.val_main_v60 (F := Ideal) x7 (ix1 (i 1)) = x7 (ix2 0 (i 1))
  rw [Read.val_main_v60_apply, Read.val_main_v59_apply]
  exact congrArg x7 (funext fun a => Fin.ext (by
    match a with
    | ⟨0, _⟩ => rfl
    | ⟨1, _⟩ => exact Nat.mod_eq_of_lt (i 1).isLt))

theorem bl1_eq (x4 : FVec Ideal S2x128 .f32) : row (Read.val_main_v82 (F := Ideal) x4) = Cert.Spec.rowOf2 x4 1 := by
  funext i
  show Read.val_main_v82 (F := Ideal) x4 (ix1 (i 1)) = x4 (ix2 1 (i 1))
  rw [Read.val_main_v82_apply, Read.val_main_v81_apply]
  exact congrArg x4 (funext fun a => Fin.ext (by
    match a with
    | ⟨0, _⟩ => rfl
    | ⟨1, _⟩ => exact Nat.mod_eq_of_lt (i 1).isLt))

theorem ga1_eq (x6 : FVec Ideal S2x128 .f32) : row (Read.val_main_v101 (F := Ideal) x6) = Cert.Spec.rowOf2 x6 1 := by
  funext i
  show Read.val_main_v101 (F := Ideal) x6 (ix1 (i 1)) = x6 (ix2 1 (i 1))
  rw [Read.val_main_v101_apply, Read.val_main_v100_apply]
  exact congrArg x6 (funext fun a => Fin.ext (by
    match a with
    | ⟨0, _⟩ => rfl
    | ⟨1, _⟩ => exact Nat.mod_eq_of_lt (i 1).isLt))

theorem be1_eq (x7 : FVec Ideal S2x128 .f32) : row (Read.val_main_v115 (F := Ideal) x7) = Cert.Spec.rowOf2 x7 1 := by
  funext i
  show Read.val_main_v115 (F := Ideal) x7 (ix1 (i 1)) = x7 (ix2 1 (i 1))
  rw [Read.val_main_v115_apply, Read.val_main_v114_apply]
  exact congrArg x7 (funext fun a => Fin.ext (by
    match a with
    | ⟨0, _⟩ => rfl
    | ⟨1, _⟩ => exact Nat.mod_eq_of_lt (i 1).isLt))

/-! The two layers' operations are the host chains above, applied to the earlier stages. -/

theorem aff0_eq (x0 : B) (x1 : Cert.RefAgg.Edges) (x3 : FVec Ideal S2x128x128 .f32) (x4 : FVec Ideal S2x128 .f32) (x5 : FVec Ideal S2x128x128 .f32) :
    Read.val_main_v34 (F := Ideal) x0 x1 x3 x4 x5
      = hAffine (Read.val_main_v22 (F := Ideal) x0 x1) x0 (Read.val_main_v24 (F := Ideal) x3) (Read.val_main_v32 (F := Ideal) x5) (Read.val_main_v27 (F := Ideal) x4) := rfl

theorem norm0_eq (x0 : B) (x1 : Cert.RefAgg.Edges) (x3 : FVec Ideal S2x128x128 .f32) (x4 : FVec Ideal S2x128 .f32) (x5 : FVec Ideal S2x128x128 .f32) (x6 x7 : FVec Ideal S2x128 .f32) :
    Read.val_main_v64 (F := Ideal) x0 x1 x3 x4 x5 x6 x7
      = hNorm (Read.val_main_v34 (F := Ideal) x0 x1 x3 x4 x5) (Read.val_main_v46 (F := Ideal) x6) (Read.val_main_v60 (F := Ideal) x7) := rfl

theorem aff1_eq (x0 : B) (x1 : Cert.RefAgg.Edges) (x3 : FVec Ideal S2x128x128 .f32) (x4 : FVec Ideal S2x128 .f32) (x5 : FVec Ideal S2x128x128 .f32) (x6 x7 : FVec Ideal S2x128 .f32) :
    Read.val_main_v89 (F := Ideal) x0 x1 x3 x4 x5 x6 x7
      = hAffine (Read.val_main_v77 (F := Ideal) x0 x1 x3 x4 x5 x6 x7) (Read.val_main_v64 (F := Ideal) x0 x1 x3 x4 x5 x6 x7)
          (Read.val_main_v79 (F := Ideal) x3) (Read.val_main_v87 (F := Ideal) x5) (Read.val_main_v82 (F := Ideal) x4) := rfl

theorem norm1_eq (x0 : B) (x1 : Cert.RefAgg.Edges) (x3 : FVec Ideal S2x128x128 .f32) (x4 : FVec Ideal S2x128 .f32) (x5 : FVec Ideal S2x128x128 .f32) (x6 x7 : FVec Ideal S2x128 .f32) :
    Read.val_main_v119 (F := Ideal) x0 x1 x3 x4 x5 x6 x7
      = hNorm (Read.val_main_v89 (F := Ideal) x0 x1 x3 x4 x5 x6 x7) (Read.val_main_v101 (F := Ideal) x6) (Read.val_main_v115 (F := Ideal) x7) := rfl

/-! The aggregation, the pooled sums and the counts are the shared host chains. -/

theorem agg0_eq (x0 : B) (x1 : Cert.RefAgg.Edges) : Read.val_main_v22 (F := Ideal) x0 x1 = Cert.RefAgg.agg x1 x0 := rfl

theorem agg1_eq (x0 : B) (x1 : Cert.RefAgg.Edges) (x3 : FVec Ideal S2x128x128 .f32) (x4 : FVec Ideal S2x128 .f32) (x5 : FVec Ideal S2x128x128 .f32) (x6 x7 : FVec Ideal S2x128 .f32) :
    Read.val_main_v77 (F := Ideal) x0 x1 x3 x4 x5 x6 x7 = Cert.RefAgg.agg x1 (Read.val_main_v64 (F := Ideal) x0 x1 x3 x4 x5 x6 x7) := rfl

theorem pool_stage_eq (x0 : B) (x1 : Cert.RefAgg.Edges) (x2 : Cert.RefAgg.Batch) (x3 : FVec Ideal S2x128x128 .f32) (x4 : FVec Ideal S2x128 .f32)
    (x5 : FVec Ideal S2x128x128 .f32) (x6 x7 : FVec Ideal S2x128 .f32) :
    Read.val_main_v128 (F := Ideal) x0 x1 x2 x3 x4 x5 x6 x7 = Cert.RefAgg.pool x2 (Read.val_main_v119 (F := Ideal) x0 x1 x3 x4 x5 x6 x7) := rfl

theorem cnt_stage_eq (x2 : Cert.RefAgg.Batch) : Read.val_main_v130 (F := Ideal) x2 = Cert.RefAgg.cnt x2 := rfl

/-- The first layer's result is the specification's layer over the arguments. -/
theorem layer0_eq (x0 : B) (x1 : Cert.RefAgg.Edges) (x3 : FVec Ideal S2x128x128 .f32) (x4 : FVec Ideal S2x128 .f32) (x5 : FVec Ideal S2x128x128 .f32) (x6 x7 : FVec Ideal S2x128 .f32) :
    Read.val_main_v64 (F := Ideal) x0 x1 x3 x4 x5 x6 x7
      = Cert.Spec.rLayer (Cert.RefAgg.agg x1 x0) x0 (Cert.Spec.matOf x3 0) (Cert.Spec.matOf x5 0)
          (Cert.Spec.rowOf2 x4 0) (Cert.Spec.rowOf2 x6 0) (Cert.Spec.rowOf2 x7 0) := by
  rw [norm0_eq, aff0_eq, agg0_eq, layer_eq, wl0_eq, wr0_eq, bl0_eq, ga0_eq, be0_eq]

/-- The second layer's result is the specification's layer over the first layer's result. -/
theorem layer1_eq (x0 : B) (x1 : Cert.RefAgg.Edges) (x3 : FVec Ideal S2x128x128 .f32) (x4 : FVec Ideal S2x128 .f32) (x5 : FVec Ideal S2x128x128 .f32) (x6 x7 : FVec Ideal S2x128 .f32) (y : B) (hy : Read.val_main_v64 (F := Ideal) x0 x1 x3 x4 x5 x6 x7 = y) :
    Read.val_main_v119 (F := Ideal) x0 x1 x3 x4 x5 x6 x7
      = Cert.Spec.rLayer (Cert.RefAgg.agg x1 y) y (Cert.Spec.matOf x3 1) (Cert.Spec.matOf x5 1)
          (Cert.Spec.rowOf2 x4 1) (Cert.Spec.rowOf2 x6 1) (Cert.Spec.rowOf2 x7 1) := by
  rw [norm1_eq, aff1_eq, agg1_eq, hy, layer_eq, wl1_eq, wr1_eq, bl1_eq, ga1_eq, be1_eq]

/-- The last stage over the argument arrays is the one-pass specification. -/
theorem stage_eq (x0 : B) (x1 : Cert.RefAgg.Edges) (x2 : Cert.RefAgg.Batch) (x3 : FVec Ideal S2x128x128 .f32) (x4 : FVec Ideal S2x128 .f32)
    (x5 : FVec Ideal S2x128x128 .f32) (x6 x7 : FVec Ideal S2x128 .f32) :
    Read.val_main_v131 (F := Ideal) x0 x1 x2 x3 x4 x5 x6 x7
      = Cert.Spec.rOut (Cert.RefAgg.agg x1) (Cert.RefAgg.cnt x2) (Cert.RefAgg.ids x2) x0 x3 x5 x4 x6 x7 := by
  funext i
  unfold Read.val_main_v131 Cert.Spec.rOut
  rw [hostDivf_apply, pool_stage_eq, cnt_stage_eq, Cert.RefAgg.pool_eq, layer1_eq x0 x1 x3 x4 x5 x6 x7 _ (layer0_eq x0 x1 x3 x4 x5 x6 x7)]

/-- The reference run's result term is the one-pass specification of the argument arrays. -/
theorem result_eq (m : (ℓ : Loc nD τ sig) → Buf (Elt Ideal) ℓ) (c : Dev nD) :
    Cert.ReferenceIdeal.Value.res_out0 (F := Ideal) m c
      = Cert.Spec.rOut (Cert.RefAgg.agg (m ((c.tc : Thread nD τ).loc main_arg1))) (Cert.RefAgg.cnt (m ((c.tc : Thread nD τ).loc main_arg2)))
          (Cert.RefAgg.ids (m ((c.tc : Thread nD τ).loc main_arg2))) (m ((c.tc : Thread nD τ).loc main_arg0)) (m ((c.tc : Thread nD τ).loc main_arg3)) (m ((c.tc : Thread nD τ).loc main_arg5))
          (m ((c.tc : Thread nD τ).loc main_arg4)) (m ((c.tc : Thread nD τ).loc main_arg6)) (m ((c.tc : Thread nD τ).loc main_arg7)) :=
  (Read.val_main_v131_eq (F := Ideal) m c).trans (stage_eq _ _ _ _ _ _ _ _)

end Cert.RefValue

end
-- ==== Proof.BlockSum.lean ====
/-
  Sums over the 50000 rows taken as ten blocks of 5000: row 5000 s + r of block s < 10 is every row exactly once, so a
  column's blockwise sum accumulated from zero is its sum over all rows (commutativity and associativity of + on the
  extended reals only: no finiteness is used). And pooling by 0/1 factors is pooling by an indicator: 1·x = x, 0·x = 0
  on every extended real, and a 32-bit word equals the word of g < 64 exactly when its signed value is g.
-/
import proofs.«430960_j38439957299938_1_alg».proof.Proof.Spec

noncomputable section

namespace Cert.Spec

open Idealize.ShloMosaic Idealize.ShloMosaic.ValueIdx

/-- The pair (block s < 10, row r < 5000 of the block) is the row 5000 s + r < 50000, and every row is such a pair
    exactly once (s = n / 5000, r = n % 5000). -/
private def blockEquiv : Fin 10 × Fin 5000 ≃ Fin 50000 where
  toFun p := ⟨5000 * p.1.val + p.2.val, by have := p.1.isLt; have := p.2.isLt; omega⟩
  invFun n := (⟨n.val / 5000, by have := n.isLt; omega⟩, ⟨n.val % 5000, Nat.mod_lt _ (by decide)⟩)
  left_inv p := by
    have h1 := p.1.isLt
    have h2 := p.2.isLt
    apply Prod.ext
    · apply Fin.ext
      show (5000 * p.1.val + p.2.val) / 5000 = p.1.val
      omega
    · apply Fin.ext
      show (5000 * p.1.val + p.2.val) % 5000 = p.2.val
      omega
  right_inv n := by
    apply Fin.ext
    show 5000 * (n.val / 5000) + n.val % 5000 = n.val
    omega

/-- For a block s < 10 the reduction modulo 50000 in the row of a block is the identity. -/
private theorem rowOf_eq (p : Fin 10 × Fin 5000) : rowOf p.1.val p.2 = blockEquiv p := by
  have h1 := p.1.isLt
  have h2 := p.2.isLt
  apply Fin.ext
  show (5000 * p.1.val + p.2.val) % 50000 = 5000 * p.1.val + p.2.val
  omega

/-- Summing block after block is summing over all rows, in any commutative additive monoid. -/
private theorem sum_blocks {M : Type} [AddCommMonoid M] (g : Fin 50000 → M) :
    ∑ s ∈ Finset.range 10, ∑ r : Fin 5000, g (rowOf s r) = ∑ n : Fin 50000, g n := by
  rw [Finset.sum_range (fun s => ∑ r : Fin 5000, g (rowOf s r))]
  rw [← Fintype.sum_prod_type' (fun (s : Fin 10) (r : Fin 5000) => g (rowOf s.val r))]
  exact Fintype.sum_equiv blockEquiv _ _ (fun p => by rw [rowOf_eq])

/-- The blockwise column sum is the column sum over all rows. -/
theorem kSumRow_apply (f : Big) (i : (⟨2, ![1, 128]⟩ : Shape).Idx) :
    kSumRow f i = 0 + ∑ n : Fin 50000, f (ix2 n (i 1)) := by
  show 0 + ∑ s ∈ Finset.range 10, ∑ r : Fin 5000, f (ix2 (rowOf s r) (i 1)) = _
  rw [sum_blocks (fun n => f (ix2 n (i 1)))]

/-- A 32-bit word is the word of g < 64 exactly when its signed value is g. -/
private theorem eq_ofNat_iff (w : BitVec 32) (g : Fin 64) :
    w = BitVec.ofNat 32 g.val ↔ w.toInt = (g.val : ℤ) := by
  have hg := g.isLt
  have hw := w.isLt
  constructor
  · intro h
    rw [h, BitVec.toInt_eq_toNat_cond, BitVec.toNat_ofNat]
    have : g.val % 2 ^ 32 = g.val := Nat.mod_eq_of_lt (by omega)
    rw [this]
    split <;> omega
  · intro h
    apply BitVec.eq_of_toNat_eq
    rw [BitVec.toNat_ofNat]
    rw [BitVec.toInt_eq_toNat_cond] at h
    have : g.val % 2 ^ 32 = g.val := Nat.mod_eq_of_lt (by omega)
    rw [this]
    split at h <;> omega

/-- A 0/1 factor is an indicator: 1·x = x and 0·x = 0 on every extended real. -/
private theorem onehot_mul (w : BitVec 32) (g : Fin 64) (x : EReal) :
    onehot w g * x = if w.toInt = (g.val : ℤ) then x else 0 := by
  unfold onehot
  by_cases h : w = BitVec.ofNat 32 g.val
  · rw [if_pos h, one_mul, if_pos ((eq_ofNat_iff w g).mp h)]
  · rw [if_neg h, zero_mul, if_neg (fun h' => h ((eq_ofNat_iff w g).mpr h'))]

/-- Blockwise pooling by 0/1 products is the indicator sum over all rows. -/
theorem kPool_eq_rPool (x : Big) (b : Ids) : kPool x b = rPool x b := by
  funext i
  show 0 + ∑ s ∈ Finset.range 10, ∑ r : Fin 5000,
      onehot (b (ix2 (rowOf s r) 0)) (i 0) * x (ix2 (rowOf s r) (i 1))
    = 0 + ∑ n : Fin 50000, if (b (ix2 n 0)).toInt = ((i 0).val : ℤ) then x (ix2 n (i 1)) else 0
  rw [sum_blocks (fun n => onehot (b (ix2 n 0)) (i 0) * x (ix2 n (i 1)))]
  refine congrArg (fun t => 0 + t) ?_
  exact Finset.sum_congr rfl (fun n _ => onehot_mul _ _ _)

end Cert.Spec

end
-- ==== Proof.Algebra.lean ====
/-
  The two layers agree on arrays of reals. With h real, μ = (Σ_n h_n)/N and N = 50000 ≠ 0:
    (Σ_n (h_n − μ)²)/N = (Σ_n h_n²)/N − 2 μ (Σ_n h_n)/N + μ² = (Σ_n h_n²)/N − μ·μ,
  distributivity over the reals, which is where finiteness is used. The variance is a mean of squares, so v + ε > 0,
  rsqrt (v + ε) is a real, and the layer's output is again an array of reals: the second layer meets reals too.
-/
import proofs.«430960_j38439957299938_1_alg».proof.Proof.Spec
import proofs.«430960_j38439957299938_1_alg».proof.Proof.BlockSum

noncomputable section

namespace Cert.Spec

open Idealize.ShloMosaic Idealize.ShloMosaic.ValueIdx

/-- The divisor is the real number 50000: sign 0, exponent 142, significand 2^23 + 4411392, so 12800000 · 2^(−8). -/
private theorem cN_eq : cN = ((50000 : ℝ) : EReal) := by
  show Ideal.ofBits .f32 0x47435000#32 = _
  simp [Ideal.ofBits, Ideal.ieee, -EReal.coe_mul]
  norm_num

/-- The variance offset is a positive real: sign 0, exponent 110, so 10995116 · 2^(−40). -/
private theorem cEps_pos : ∃ e : ℝ, 0 < e ∧ cEps = (e : EReal) := by
  refine ⟨(10995116 : ℝ) * (2 : ℝ) ^ (-40 : ℤ), by positivity, ?_⟩
  show Ideal.ofBits .f32 0x3727C5AC#32 = _
  simp [Ideal.ofBits, Ideal.ieee, -EReal.coe_mul]

/-- A finite sum of reals, summed in the extended reals, is the real sum. -/
private theorem sum_coe {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The mean of the squared deviations from the mean is the mean of the squares minus the squared mean, over the
    reals, for N = the number of terms ≠ 0: expand the square and use Σ_i μ = N μ and Σ_i c_i = N μ. -/
private theorem var_identity {ι : Type} [Fintype ι] (c : ι → ℝ) (N : ℝ) (hcard : (Fintype.card ι : ℝ) = N)
    (hN : N ≠ 0) :
    (∑ i, (c i - (∑ i, c i) * (1 / N)) * (c i - (∑ i, c i) * (1 / N))) * (1 / N)
      = (∑ i, c i * c i) * (1 / N) - ((∑ i, c i) * (1 / N)) * ((∑ i, c i) * (1 / N)) := by
  have h1 : ∀ m : ℝ, ∑ i, (c i - m) * (c i - m) = (∑ i, c i * c i) - 2 * m * (∑ i, c i) + N * (m * m) := by
    intro m
    have h2 : ∀ i, (c i - m) * (c i - m) = c i * c i - 2 * m * c i + m * m := fun i => by ring
    rw [Finset.sum_congr rfl (fun i _ => h2 i), Finset.sum_add_distrib, Finset.sum_sub_distrib, ← Finset.mul_sum,
      Finset.sum_const, Finset.card_univ, nsmul_eq_mul, hcard]
  rw [h1]
  field_simp
  ring

/-- The mean of squared deviations is not negative. -/
private theorem var_nonneg {ι : Type} [Fintype ι] (c : ι → ℝ) (m N : ℝ) (hN : 0 < N) :
    0 ≤ (∑ i, (c i - m) * (c i - m)) * (1 / N) :=
  mul_nonneg (Finset.sum_nonneg (fun i _ => mul_self_nonneg _)) (by positivity)

/-- The one-pass mean of a column of reals is the real mean. -/
private theorem rMu_coe (h : Big) (c : Fin 50000 → Fin 128 → ℝ) (hc : ∀ n j, h (ix2 n j) = (c n j : EReal))
    (j : Fin 128) : rMu h j = (((∑ n, c n j) * (1 / 50000) : ℝ) : EReal) := by
  unfold rMu
  rw [zero_add, cN_eq, Ideal.div_coe (by norm_num), Finset.sum_congr rfl (fun n _ => hc n j), sum_coe,
    ← EReal.coe_mul]

/-- The centred variance of a column of reals is the real mean of the squared deviations. -/
private theorem rVar_coe (h : Big) (c : Fin 50000 → Fin 128 → ℝ) (hc : ∀ n j, h (ix2 n j) = (c n j : EReal))
    (j : Fin 128) :
    rVar h j = (((∑ n, (c n j - (∑ n, c n j) * (1 / 50000)) * (c n j - (∑ n, c n j) * (1 / 50000)))
      * (1 / 50000) : ℝ) : EReal) := by
  unfold rVar
  rw [rMu_coe h c hc j, zero_add, cN_eq, Ideal.div_coe (by norm_num)]
  have h1 : ∀ n : Fin 50000, (h (ix2 n j) - (((∑ n, c n j) * (1 / 50000) : ℝ) : EReal))
        * (h (ix2 n j) - (((∑ n, c n j) * (1 / 50000) : ℝ) : EReal))
      = (((c n j - (∑ n, c n j) * (1 / 50000)) * (c n j - (∑ n, c n j) * (1 / 50000)) : ℝ) : EReal) := by
    intro n
    rw [hc n j, ← EReal.coe_sub, ← EReal.coe_mul]
  rw [Finset.sum_congr rfl (fun n _ => h1 n), sum_coe, ← EReal.coe_mul]

/-- The blockwise mean is the one-pass mean (no finiteness needed). -/
private theorem kMu_eq (h : Big) (j : Fin 128) : kMuRow (kSumRow h) (ix2 0 j) = rMu h j := by
  show Ideal.div (kSumRow h (ix2 0 j)) cN = Ideal.div (0 + ∑ n : Fin 50000, h (ix2 n j)) cN
  rw [kSumRow_apply]

/-- On a column of reals the mean of squares minus the squared mean is the centred variance. -/
private theorem kVar_eq (h : Big) (hh : Finite h) (j : Fin 128) :
    kVarRow (kSumRow (sq h)) (kMuRow (kSumRow h)) (ix2 0 j) = rVar h j := by
  choose c' hc' using hh
  have hc : ∀ n j, h (ix2 n j) = ((c' (ix2 n j) : ℝ) : EReal) := fun n j => hc' _
  show Ideal.div (kSumRow (sq h) (ix2 0 j)) cN - kMuRow (kSumRow h) (ix2 0 j) * kMuRow (kSumRow h) (ix2 0 j)
    = rVar h j
  rw [kMu_eq, rVar_coe h (fun n j => c' (ix2 n j)) hc j, rMu_coe h (fun n j => c' (ix2 n j)) hc j, kSumRow_apply]
  show Ideal.div (0 + ∑ n : Fin 50000, h (ix2 n j) * h (ix2 n j)) cN - _ = _
  have h1 : ∀ n : Fin 50000, h (ix2 n j) * h (ix2 n j) = ((c' (ix2 n j) * c' (ix2 n j) : ℝ) : EReal) := by
    intro n
    rw [hc n j, ← EReal.coe_mul]
  rw [zero_add, cN_eq, Ideal.div_coe (by norm_num), Finset.sum_congr rfl (fun n _ => h1 n), sum_coe,
    ← EReal.coe_mul, ← EReal.coe_mul, ← EReal.coe_sub]
  exact congrArg _ (var_identity (fun n : Fin 50000 => c' (ix2 n j)) 50000 (by simp) (by norm_num)).symm

/-- One entry of the affine map of arrays of reals is a real: products, two finite sums and two additions of reals. -/
private theorem affineAt_finite (agg x : Big) (wl wr : Mat) (bl : Row) (hagg : Finite agg) (hx : Finite x)
    (hwl : Finite wl) (hwr : Finite wr) (hbl : Finite bl) (n : Fin 50000) (j : Fin 128) :
    ∃ r : ℝ, affineAt agg x wl wr bl n j = (r : EReal) := by
  choose a ha using hagg
  choose u hu using hx
  choose l hl using hwl
  choose w hw using hwr
  choose b hb using hbl
  refine ⟨((∑ k : Fin 128, a (ix2 n k) * l (ix2 k j)) + b (ix2 0 j)) + ∑ k : Fin 128, u (ix2 n k) * w (ix2 k j), ?_⟩
  have h1 : ∀ k : Fin 128, agg (ix2 n k) * wl (ix2 k j) = ((a (ix2 n k) * l (ix2 k j) : ℝ) : EReal) := by
    intro k
    rw [ha, hl, ← EReal.coe_mul]
  have h2 : ∀ k : Fin 128, x (ix2 n k) * wr (ix2 k j) = ((u (ix2 n k) * w (ix2 k j) : ℝ) : EReal) := by
    intro k
    rw [hu, hw, ← EReal.coe_mul]
  unfold affineAt
  rw [Finset.sum_congr rfl (fun k _ => h1 k), Finset.sum_congr rfl (fun k _ => h2 k), sum_coe, sum_coe, hb,
    ← EReal.coe_add, ← EReal.coe_add]

/-- The affine map of arrays of reals is an array of reals. -/
theorem affine_finite (agg x : Big) (wl wr : Mat) (bl : Row) (hagg : Finite agg) (hx : Finite x)
    (hwl : Finite wl) (hwr : Finite wr) (hbl : Finite bl) : Finite (affine agg x wl wr bl) :=
  fun i => affineAt_finite agg x wl wr bl hagg hx hwl hwr hbl (i 0) (i 1)

/-- With the statistics of an array of reals, the normalization by sums and sums of squares is the centred one. -/
private theorem norm_eq (h : Big) (hh : Finite h) (ga be : Row) (i : (⟨2, ![50000, 128]⟩ : Shape).Idx) :
    norm h (kMuRow (kSumRow h)) (kVarRow (kSumRow (sq h)) (kMuRow (kSumRow h))) ga be i
      = max (((ga (ix2 0 (i 1)) * (h i - rMu h (i 1))) * Ideal.rsqrt (rVar h (i 1) + cEps)) + be (ix2 0 (i 1))) 0 := by
  unfold norm
  rw [kMu_eq h (i 1), kVar_eq h hh (i 1)]

/-- On arrays of reals the blockwise layer (sums and sums of squares) is the one-pass centred layer. -/
theorem kLayer_eq_rLayer (agg x : Big) (wl wr : Mat) (bl ga be : Row) (hagg : Finite agg) (hx : Finite x)
    (hwl : Finite wl) (hwr : Finite wr) (hbl : Finite bl) (hga : Finite ga) (hbe : Finite be) :
    kLayer agg x wl wr bl ga be = rLayer agg x wl wr bl ga be := by
  funext i
  exact norm_eq _ (affine_finite agg x wl wr bl hagg hx hwl hwr hbl) ga be i

/-- The reciprocal square root of a positive real is a real. -/
private theorem rsqrt_pos_coe (v : ℝ) (hv : 0 < v) : Ideal.rsqrt (v : EReal) = (((Real.sqrt v)⁻¹ : ℝ) : EReal) := by
  rw [Ideal.rsqrt_coe, if_neg (not_lt.mpr hv.le), if_neg hv.ne']

/-- The centred variance of a column of reals is not negative, the offset is positive: the reciprocal square root of
    their sum is a real. -/
private theorem rsqrt_var_finite (h : Big) (hh : Finite h) (j : Fin 128) :
    ∃ s : ℝ, Ideal.rsqrt (rVar h j + cEps) = (s : EReal) := by
  choose c' hc' using hh
  obtain ⟨e, he, hE⟩ := cEps_pos
  rw [rVar_coe h (fun n j => c' (ix2 n j)) (fun n j => hc' _) j, hE, ← EReal.coe_add]
  exact ⟨_, rsqrt_pos_coe _ (add_pos_of_nonneg_of_pos
    (var_nonneg (fun n : Fin 50000 => c' (ix2 n j)) ((∑ n, c' (ix2 n j)) * (1 / 50000)) 50000 (by norm_num)) he)⟩

/-- The mean of a column of reals is a real. -/
private theorem rMu_finite (h : Big) (hh : Finite h) (j : Fin 128) : ∃ m : ℝ, rMu h j = (m : EReal) := by
  choose c' hc' using hh
  exact ⟨_, rMu_coe h (fun n j => c' (ix2 n j)) (fun n j => hc' _) j⟩

/-- The normalized and clamped value of reals is a real. -/
private theorem out_coe (g a m s b : ℝ) :
    max ((((g : EReal) * ((a : EReal) - (m : EReal))) * (s : EReal)) + (b : EReal)) 0
      = ((max (g * (a - m) * s + b) 0 : ℝ) : EReal) := by
  rw [← EReal.coe_sub, ← EReal.coe_mul, ← EReal.coe_mul, ← EReal.coe_add, ← EReal.coe_zero]
  exact (EReal.coe_strictMono.monotone.map_max).symm

/-- The layer's output on arrays of reals is an array of reals. -/
theorem rLayer_finite (agg x : Big) (wl wr : Mat) (bl ga be : Row) (hagg : Finite agg) (hx : Finite x)
    (hwl : Finite wl) (hwr : Finite wr) (hbl : Finite bl) (hga : Finite ga) (hbe : Finite be) :
    Finite (rLayer agg x wl wr bl ga be) := by
  have hh := affine_finite agg x wl wr bl hagg hx hwl hwr hbl
  intro i
  obtain ⟨s, hs⟩ := rsqrt_var_finite _ hh (i 1)
  obtain ⟨m, hm⟩ := rMu_finite _ hh (i 1)
  obtain ⟨a, ha⟩ := hh i
  obtain ⟨g, hg⟩ := hga (ix2 0 (i 1))
  obtain ⟨b, hb⟩ := hbe (ix2 0 (i 1))
  refine ⟨max (g * (a - m) * s + b) 0, ?_⟩
  unfold rLayer
  rw [hs, hm, ha, hg, hb]
  exact out_coe g a m s b

theorem matOf_finite (W : Mat2) (l : Fin 2) (h : Finite W) : Finite (matOf W l) := fun i => h _
theorem rowOf2_finite (b : Row2) (l : Fin 2) (h : Finite b) : Finite (rowOf2 b l) := fun i => h _

/-- The two whole computations agree on real inputs, for any aggregation map that keeps arrays of reals real. -/
theorem kOut_eq_rOut (Agg : Big → Big) (hAgg : ∀ x, Finite x → Finite (Agg x)) (cnt : Pl) (b : Ids) (x : Big)
    (Wl Wr : Mat2) (bl ga be : Row2) (hx : Finite x) (hWl : Finite Wl) (hWr : Finite Wr) (hbl : Finite bl)
    (hga : Finite ga) (hbe : Finite be) :
    kOut Agg cnt b x Wl Wr bl ga be = rOut Agg cnt b x Wl Wr bl ga be := by
  have h0 := kLayer_eq_rLayer (Agg x) x (matOf Wl 0) (matOf Wr 0) (rowOf2 bl 0) (rowOf2 ga 0) (rowOf2 be 0)
    (hAgg x hx) hx (matOf_finite _ _ hWl) (matOf_finite _ _ hWr) (rowOf2_finite _ _ hbl) (rowOf2_finite _ _ hga)
    (rowOf2_finite _ _ hbe)
  have hf := rLayer_finite (Agg x) x (matOf Wl 0) (matOf Wr 0) (rowOf2 bl 0) (rowOf2 ga 0) (rowOf2 be 0)
    (hAgg x hx) hx (matOf_finite _ _ hWl) (matOf_finite _ _ hWr) (rowOf2_finite _ _ hbl) (rowOf2_finite _ _ hga)
    (rowOf2_finite _ _ hbe)
  funext i
  unfold kOut rOut
  rw [h0, kLayer_eq_rLayer _ _ (matOf Wl 1) (matOf Wr 1) (rowOf2 bl 1) (rowOf2 ga 1) (rowOf2 be 1)
    (hAgg _ hf) hf (matOf_finite _ _ hWl) (matOf_finite _ _ hWr) (rowOf2_finite _ _ hbl) (rowOf2_finite _ _ hga)
    (rowOf2_finite _ _ hbe), kPool_eq_rPool]

end Cert.Spec

end
-- ==== Proof.PreFinite.lean ====
/-
  The precondition says of each float argument that every |entry| is below +∞; an extended real whose absolute value
  is below +∞ is a real number.
-/
import proofs.«430960_j38439957299938_1_alg».proof.Defs
import proofs.«430960_j38439957299938_1_alg».proof.Proof.Gen.KernelIdeal
import proofs.«430960_j38439957299938_1_alg».proof.Proof.Gen.Pre_finite_inputs
import proofs.«430960_j38439957299938_1_alg».proof.Proof.Spec
import Idealize.ShloMosaic.Lib.ReduceAll
import Idealize.ShloMosaic.PureOps.Ideal.Laws

noncomputable section

namespace Cert.PreFinite

open Idealize.ShloMosaic Idealize.ShloMosaic.TcCoe Idealize.SL.Sem Idealize.ShloMosaic.ValueIdx
open Cert.KernelIdeal

/-- The scalar shape has exactly one index. -/
private instance subsingletonScalarIdx : Subsingleton Cert.Pre_finite_inputs.S_.Idx :=
  ⟨fun a b => funext fun d => d.elim0⟩

/-- An extended real whose absolute value max x (−x) is below +∞ is a real number: +∞ and −∞ both have absolute
    value +∞. -/
private theorem real_of_abs_lt_top (x : EReal) (h : max x (-x) < ⊤) : ∃ r : ℝ, x = (r : EReal) := by
  induction x using EReal.rec with
  | bot => simp at h
  | coe r => exact ⟨r, rfl⟩
  | top => simp at h

/-- The 32-bit pattern 0x7F800000 denotes +∞, so the comparison |x| < 0x7F800000 coming out 1 says x is real. -/
private theorem real_of_cmp (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  by_cases hlt : max x (-x) < ⊤
  · exact real_of_abs_lt_top x hlt
  · simp [hlt] at h

/-- The elementwise and of two one-bit arrays is 1 at an index exactly when both arrays are 1 there. -/
private theorem andi_apply_eq_one {s : Shape} (x y : IVec s 1) (i : s.Idx) :
    andi x y i = 1#1 ↔ x i = 1#1 ∧ y i = 1#1 := IntOp.andi_eq_one

/-- One conjunct of the precondition, at any shape: if the and of all the bits |x i| < +∞, taken over every axis
    starting from 1, is 1, then each bit is 1, and so every entry of x is a real number. -/
private theorem finite_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    Cert.Spec.Finite x := by
  intro i
  exact real_of_cmp (x i) (Host.reduce_andi_all _ _ hr hu ix0 e i)

/-- Under the precondition every float argument of the idealized kernel program is an array of reals. -/
theorem finite_of_pre (m : (ℓ : Loc nD τ sig) → Buf (Elt Ideal) ℓ) (h : Cert.Pre_KernelIdeal m) (c : Dev nD) :
    Cert.Spec.Finite (m ((c.tc : Thread nD τ).loc main_arg0))
    ∧ Cert.Spec.Finite (m ((c.tc : Thread nD τ).loc main_arg3))
    ∧ Cert.Spec.Finite (m ((c.tc : Thread nD τ).loc main_arg4))
    ∧ Cert.Spec.Finite (m ((c.tc : Thread nD τ).loc main_arg5))
    ∧ Cert.Spec.Finite (m ((c.tc : Thread nD τ).loc main_arg6))
    ∧ Cert.Spec.Finite (m ((c.tc : Thread nD τ).loc main_arg7)) := by
  -- the precondition at this device, read at the scalar result's one index: a conjunction of six bits, nested to the left
  have e := congrFun (h c) ix0
  dsimp only [Cert.Pre_finite_inputs.fn, Cert.Pre_finite_inputs.fn_part1] at e
  simp only [andi_apply_eq_one] at e
  obtain ⟨⟨⟨⟨⟨h0, h3⟩, h4⟩, h5⟩, h6⟩, h7⟩ := e
  exact ⟨finite_of_all _ _ _ _ h0, finite_of_all _ _ _ _ h3, finite_of_all _ _ _ _ h4,
    finite_of_all _ _ _ _ h5, finite_of_all _ _ _ _ h6, finite_of_all _ _ _ _ h7⟩

end Cert.PreFinite

end
-- ==== Proof.RefAggFinite.lean ====
/-
  The aggregation of an array of reals is an array of reals: a gathered entry is an entry of the operand, an
  accumulating scatter adds finitely many reals to a real, the in-degree is the larger of a real and one, so positive,
  and a real over a nonzero real is a real.
-/
import proofs.«430960_j38439957299938_1_alg».proof.Proof.RefAgg
import Idealize.ShloMosaic.PureOps.Ideal.Laws
import Idealize.ShloMosaic.Lib.IdealHost

set_option maxRecDepth 16384

noncomputable section

namespace Cert.RefAgg

open Idealize.ShloMosaic Idealize.ShloMosaic.TcCoe Idealize.ShloMosaic.ValueIdx
open Cert.ReferenceIdeal Cert.ReferenceIdeal.Facts₀

/-- A finite sum of reals is a real. -/
private theorem real_sum {ι : Type} (s : Finset ι) (f : ι → EReal) (hf : ∀ j, ∃ r : ℝ, f j = (r : EReal)) :
    ∃ r : ℝ, ∑ j ∈ s, f j = (r : EReal) := by
  classical
  induction s using Finset.induction_on with
  | empty => exact ⟨0, by simp⟩
  | insert a s ha ih =>
    obtain ⟨r, hr⟩ := ih
    obtain ⟨q, hq⟩ := hf a
    exact ⟨q + r, by rw [Finset.sum_insert ha, hq, hr, EReal.coe_add]⟩

/-- A broadcast reads its operand at some index: of reals, it is an array of reals. -/
private theorem finite_bcast {s t : Shape} (dims : Fin s.rank → Fin t.rank) (h : s.BroadcastsInDim t dims)
    (v : s.Idx → EReal) (hv : Cert.Spec.Finite v) : Cert.Spec.Finite (broadcastInDim t dims h v) :=
  fun _ => hv _

/-- A gathered entry is an entry of the operand. -/
private theorem finite_gather {s si t : Shape} {w : Nat} (d : GatherDims s si t) (v : s.Idx → EReal) (idx : IVec si w)
    (hv : Cert.Spec.Finite v) : Cert.Spec.Finite (Host.gather d v idx) :=
  fun _ => hv _

/-- An accumulating scatter of reals into reals: each entry is a real plus a finite sum of reals. -/
private theorem finite_scatterAdd {s si u : Shape} {w : Nat} (d : ScatterDims s si u) (v : FVec Ideal s .f32)
    (idx : IVec si w) (upd : FVec Ideal u .f32) (hv : Cert.Spec.Finite v) (hu : Cert.Spec.Finite upd) :
    Cert.Spec.Finite (Host.scatterAdd (F := Ideal) d v idx upd) := by
  intro i
  obtain ⟨a, ha⟩ := hv i
  obtain ⟨b, hb⟩ := real_sum (Finset.univ.filter (fun j => d.resultIdx? j idx = some i)) upd hu
  refine ⟨a + b, ?_⟩
  show v i + ∑ j ∈ Finset.univ.filter (fun j => d.resultIdx? j idx = some i), upd j = _
  rw [ha, hb, EReal.coe_add]

/-- The zero scalar is the real 0. -/
private theorem finite_zero : Cert.Spec.Finite (constant (F := Ideal) S_ .f32 0x00000000#32) :=
  fun _ => ⟨0, by show Ideal.ofBits .f32 0x00000000#32 = _; rw [Ideal.ofBits_zero_f32, EReal.coe_zero]⟩

/-- The one scalar is the real 1. -/
private theorem finite_one : Cert.Spec.Finite (constant (F := Ideal) S_ .f32 0x3F800000#32) :=
  fun _ => ⟨1, by show Ideal.ofBits .f32 0x3F800000#32 = _; rw [Ideal.ofBits_one_f32, EReal.coe_one]⟩

/-- Each in-degree is a positive real: the larger of a real and one. -/
private theorem deg_pos (e : Edges) (i : S50000.Idx) : ∃ r : ℝ, deg e i = (r : EReal) ∧ 0 < r := by
  obtain ⟨a, ha⟩ := finite_scatterAdd scatter_S50000_S625000x1_S625000_n_0_0_1
      (broadcastInDim S50000 ![] bcast_S_S50000 (constant (F := Ideal) S_ .f32 0x00000000#32))
      (broadcastInDim S625000x1 ![0] bcast_S625000_S625000x1_0 (dst e))
      (broadcastInDim S625000 ![] bcast_S_S625000 (constant (F := Ideal) S_ .f32 0x3F800000#32))
      (finite_bcast _ _ _ finite_zero) (finite_bcast _ _ _ finite_one) i
  refine ⟨max a 1, ?_, lt_of_lt_of_le one_pos (le_max_right a 1)⟩
  show max (Host.scatterAdd (F := Ideal) scatter_S50000_S625000x1_S625000_n_0_0_1 _ _ _ i) (Ideal.ofBits .f32 0x3F800000#32) = _
  rw [ha, Ideal.ofBits_one_f32, ← EReal.coe_one]
  rcases le_total a 1 with h | h
  · rw [max_eq_right h, max_eq_right (EReal.coe_le_coe_iff.mpr h)]
  · rw [max_eq_left h, max_eq_left (EReal.coe_le_coe_iff.mpr h)]

/-- A real over a nonzero real is a real. -/
private theorem real_div (a b : ℝ) (hb : b ≠ 0) : ∃ r : ℝ, Ideal.div (a : EReal) (b : EReal) = (r : EReal) :=
  ⟨a * (1 / b), by rw [Ideal.div_coe hb, EReal.coe_mul]⟩

/-- The entrywise quotient of an array of reals by an array of positive reals is an array of reals. -/
private theorem finite_divf {s : Shape} (u v : FVec Ideal s .f32) (hu : Cert.Spec.Finite u)
    (hv : ∀ i, ∃ r : ℝ, v i = (r : EReal) ∧ 0 < r) : Cert.Spec.Finite (Host.divf (F := Ideal) u v) := by
  intro i
  obtain ⟨a, ha⟩ := hu i
  obtain ⟨b, hb, hpos⟩ := hv i
  obtain ⟨r, hr⟩ := real_div a b (ne_of_gt hpos)
  exact ⟨r, by show Ideal.div (u i) (v i) = _; rw [ha, hb, hr]⟩

/-- A broadcast of positive reals is an array of positive reals. -/
private theorem bcast_pos {s t : Shape} (dims : Fin s.rank → Fin t.rank) (h : s.BroadcastsInDim t dims)
    (v : s.Idx → EReal) (hv : ∀ i, ∃ r : ℝ, v i = (r : EReal) ∧ 0 < r) :
    ∀ j, ∃ r : ℝ, broadcastInDim t dims h v j = (r : EReal) ∧ 0 < r :=
  fun _ => hv _

/-- The aggregation of an array of reals is an array of reals: the scattered sums of gathered reals, over the
    in-degrees spread along the features. -/
theorem agg_finite (e : Edges) (x : FVec Ideal S50000x128 .f32) (hx : Cert.Spec.Finite x) : Cert.Spec.Finite (agg e x) := by
  delta agg
  refine finite_divf _ _ ?_ ?_
  · exact finite_scatterAdd _ _ _ _ (finite_bcast _ _ _ finite_zero) (finite_gather _ _ _ hx)
  · exact bcast_pos _ _ _ (bcast_pos _ _ _ (deg_pos e))

end Cert.RefAgg

end
-- ==== Proof.lean ====
/-
  The certificate of a two-layer graph encoder against its reference, over the extended reals.

  Each layer forms h = (agg·W_l + b_l) + x·W_r from the mean agg of the neighbours' rows, takes per-feature batch
  statistics over the 50000 rows, normalizes, and clamps at zero; the rows are then averaged per graph.
  The kernel program takes the statistics as blockwise sums and sums of squares (ten blocks of 5000 rows,
  accumulated from zero) and v = q/N − μ·μ; the reference takes one-pass sums and the centred v = Σ (h − μ)²/N.
  On real arrays these agree (distributivity over ℝ: the one place the finiteness of the inputs is used), the
  variance is a mean of squares so v + ε > 0 and the normalized array is again real, and so the second layer agrees
  too. The kernel pools by 0/1 products over the row blocks, the reference by scattering rows onto graph rows: both
  are the indicator sum over all rows, on any extended reals. The neighbour aggregation and the graph counts are
  the same host operations in both programs and are carried as one function.

  The three frames: the kernel programs' are the generated frame certificates; the reference's is its run with the
  result dropped. The idealization rewrote nothing, so the preservation conjunct is trivial.
-/
import proofs.«430960_j38439957299938_1_alg».proof.Defs
import proofs.«430960_j38439957299938_1_alg».proof.Proof.Gen.Kernel
import proofs.«430960_j38439957299938_1_alg».proof.Proof.Gen.Kernel.Frame
import proofs.«430960_j38439957299938_1_alg».proof.Proof.Gen.KernelIdeal
import proofs.«430960_j38439957299938_1_alg».proof.Proof.Gen.KernelIdeal.Frame
import proofs.«430960_j38439957299938_1_alg».proof.Proof.Gen.ReferenceIdeal
import proofs.«430960_j38439957299938_1_alg».proof.Proof.Gen.ReferenceIdeal.Run
import proofs.«430960_j38439957299938_1_alg».proof.Proof.Gen.Pre_finite_inputs
import proofs.«430960_j38439957299938_1_alg».proof.Proof.KRun
import proofs.«430960_j38439957299938_1_alg».proof.Proof.KValue
import proofs.«430960_j38439957299938_1_alg».proof.Proof.RefValue
import proofs.«430960_j38439957299938_1_alg».proof.Proof.Algebra
import proofs.«430960_j38439957299938_1_alg».proof.Proof.PreFinite
import proofs.«430960_j38439957299938_1_alg».proof.Proof.RefAggFinite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with equal result arrays: the blockwise specification of the kernel program's run is the
    one-pass specification of the reference's, the arguments agreeing and real. -/
theorem algebraic : Cert.algebraic_KernelIdeal_ReferenceIdeal := by
  intro m ρ m' ρ' hpre hagree
  refine ⟨fun c => Cert.KernelIdeal.Gen.W11 m ρ c (Proc.devRef .tc Cert.KernelIdeal.main_v92),
    Cert.KernelIdeal.ValueRun.run_value m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_out0 (F := Ideal) m' c = _
  obtain ⟨h0, h1, h2, h3, h4, h5, h6, h7⟩ := hagree c
  obtain ⟨f0, f3, f4, f5, f6, f7⟩ := Cert.PreFinite.finite_of_pre m hpre c
  rw [Cert.RefValue.result_eq, h0, h1, h2, h3, h4, h5, h6, h7]
  refine Eq.trans ?_ (Cert.KernelIdeal.Value.result_eq m ρ c).symm
  exact (Cert.Spec.kOut_eq_rOut _ (fun x hx => Cert.RefAgg.agg_finite _ x hx) _ _ _ _ _ _ _ _ f0 f3 f5 f4 f6 f7).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
